-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024x7x7 : Shape := ⟨4, ![512, 1024, 7, 7]⟩
abbrev S1024x50176 : Shape := ⟨2, ![1024, 50176]⟩
abbrev S1024 : Shape := ⟨1, ![1024]⟩
abbrev S1024x1024 : Shape := ⟨2, ![1024, 1024]⟩
abbrev S_ : Shape := ⟨0, ![]⟩

class Facts : Prop where
  bcast_S_S512x1024x7x7 : S_.BroadcastsInDim S512x1024x7x7 (![] : Fin 0 → Fin S512x1024x7x7.rank)
  reducesTo_S512x1024x7x7_S_d0_1_2_3 : S512x1024x7x7.ReducesTo [0, 1, 2, 3] S_
  h_S_ : 0 < S_.numel
  bcast_S_S1024x50176 : S_.BroadcastsInDim S1024x50176 (![] : Fin 0 → Fin S1024x50176.rank)
  reducesTo_S1024x50176_S_d0_1 : S1024x50176.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_arg14 : FVec F S1024 .f32) (main_arg15 : FVec F S1024x1024 .f32) (main_arg16 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S512x1024x7x7 .f32) (main_arg1 : FVec F S1024x50176 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) : IVec S_ 1 :=
  let main_v0 : FVec F S512x1024x7x7 .f32 := Host.absf main_arg0
  let main_cst : FVec F S_ .f32 := constant S_ .f32 0x7F800000#32
  let main_v1 : FVec F S512x1024x7x7 .f32 := broadcastInDim S512x1024x7x7 ![] bcast_S_S512x1024x7x7 main_cst
  let main_v2 : IVec S512x1024x7x7 1 := cmpf .olt main_v0 main_v1
  let main_c : IVec S_ 1 := constantI S_ 1 1#1
  let main_v3 : IVec S_ 1 := (fun x v => Host.reduce IntOp.andi x v reducesTo_S512x1024x7x7_S_d0_1_2_3 h_S_) main_v2 main_c
  let main_v4 : FVec F S1024x50176 .f32 := Host.absf main_arg1
  let main_cst_0 : FVec F S_ .f32 := constant S_ .f32 0x7F800000#32
  let main_v5 : FVec F S1024x50176 .f32 := broadcastInDim S1024x50176 ![] bcast_S_S1024x50176 main_cst_0
  let main_v6 : IVec S1024x50176 1 := cmpf .olt main_v4 main_v5
  let main_c_1 : IVec S_ 1 := constantI S_ 1 1#1
  let main_v7 : IVec S_ 1 := (fun x v => Host.reduce IntOp.andi x v reducesTo_S1024x50176_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S512x1024x7x7 : Shape := ⟨4, ![512, 1024, 7, 7]⟩
abbrev S1024x50176 : Shape := ⟨2, ![1024, 50176]⟩
abbrev S1024 : Shape := ⟨1, ![1024]⟩
abbrev S1024x1024 : Shape := ⟨2, ![1024, 1024]⟩
abbrev S512x50176 : Shape := ⟨2, ![512, 50176]⟩
abbrev S512x1024 : Shape := ⟨2, ![512, 1024]⟩
abbrev S256x1792 : Shape := ⟨2, ![256, 1792]⟩
abbrev S1024x1792 : Shape := ⟨2, ![1024, 1792]⟩
abbrev S256x1024 : Shape := ⟨2, ![256, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 27
  | .vmem => 24
  | .smem => 0
  | _ => 0

abbrev bufTy : (tb : Table) → Fin (tcTables nBuf tb) → BufTy
  | .hbm, ⟨0, _⟩ => ⟨S512x1024x7x7, .f32⟩
  | .hbm, ⟨1, _⟩ => ⟨S1024x50176, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S512x50176, .f32⟩
  | .hbm, ⟨18, _⟩ => ⟨S512x1024, .f32⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S512x1024, .f32⟩
  | .local _ .vmem, ⟨0, _⟩ => ⟨S256x1792, .f32⟩
  | .local _ .vmem, ⟨1, _⟩ => ⟨S256x1792, .f32⟩
  | .local _ .vmem, ⟨2, _⟩ => ⟨S1024x1792, .f32⟩
  | .local _ .vmem, ⟨3, _⟩ => ⟨S1024x1792, .f32⟩
  | .local _ .vmem, ⟨4, _⟩ => ⟨S1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S512x1024, .f32⟩
  | .local _ .vmem, ⟨9, _⟩ => ⟨S1024x1024, .bf16⟩
  | .local _ .vmem, ⟨10, _⟩ => ⟨S1024, .f32⟩
  | .local _ .vmem, ⟨11, _⟩ => ⟨S1024x1024, .bf16⟩
  | .local _ .vmem, ⟨12, _⟩ => ⟨S1024, .f32⟩
  | .local _ .vmem, ⟨13, _⟩ => ⟨S1024x1024, .bf16⟩
  | .local _ .vmem, ⟨14, _⟩ => ⟨S1024, .f32⟩
  | .local _ .vmem, ⟨15, _⟩ => ⟨S1024x1024, .bf16⟩
  | .local _ .vmem, ⟨16, _⟩ => ⟨S1024, .f32⟩
  | .local _ .vmem, ⟨17, _⟩ => ⟨S1024x1024, .bf16⟩
  | .local _ .vmem, ⟨18, _⟩ => ⟨S1024, .f32⟩
  | .local _ .vmem, ⟨19, _⟩ => ⟨S1024x1024, .bf16⟩
  | .local _ .vmem, ⟨20, _⟩ => ⟨S1024, .f32⟩
  | .local _ .vmem, ⟨21, _⟩ => ⟨S1024x1024, .bf16⟩
  | .local _ .vmem, ⟨22, _⟩ => ⟨S1024, .f32⟩
  | .local _ .vmem, ⟨23, _⟩ => ⟨S512x1024, .f32⟩
  | _, _ => ⟨S512x1024x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg14_0 : Ref sig .tc := ⟨.vmem, 22, rfl⟩
abbrev cc1_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem15_0 : DmaSem sig := 22

abbrev nD : Nat := 1
abbrev τ : Topo := Topo.v7x

variable {F : FTy → Type} [FloatOps F]

abbrev grid0 : Pipeline.Grid := ⟨2, ![2, 28], ![false, false]⟩

def k0_cond2 (i : grid0.Coords) : BitVec 1 :=
  let arg1 : BitVec 32 := BitVec.ofNat 32 (i 1).val
  let c27_i32 : BitVec 32 := 27#32
  let v14 : BitVec 1 := Scalar.cmpi .eq arg1 c27_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1024x1024 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1024x1024 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S512x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

class Facts₀ : Prop where
  shapeCasts_S512x1024x7x7_S512x50176 : S512x1024x7x7.ShapeCasts S512x50176
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x1792_S256x1792_0_0 : ∀ a, (![0, 0] : Fin 2 → Nat) a + S256x1792.size a ≤ S256x1792.size a
  h_S256x1792 : 0 < S256x1792.numel
  shapeCasts_S256x1792_S256x1792 : S256x1792.ShapeCasts S256x1792
  bitsLt_bf16_f32 : FTy.bits .bf16 < FTy.bits .f32
  inb_S1024x1792_S1024x1792_0_0 : ∀ a, (![0, 0] : Fin 2 → Nat) a + S1024x1792.size a ≤ S1024x1792.size a
  h_S1024x1792 : 0 < S1024x1792.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S512x1024 : S1x1024.Broadcasts S512x1024
  reduces_S512x512_S512 : S512x512.Reduces [1] S512
  shapeCasts_S512_S512x1 : S512.ShapeCasts S512x1
  broadcasts_S512x1_S512x512 : S512x1.Broadcasts S512x512
  dot_S256x1792_S1024x1792_S256x1024_1_1_0_0_n_n_wf : DotDims.WF S256x1792 S1024x1792 S256x1024 [1] [1] [0] [0] [] []
  dot_S512x1024_S1024x1024_S512x1024_1_1_0_0_n_n_wf : DotDims.WF S512x1024 S1024x1024 S512x1024 [1] [1] [0] [0] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1792.size a ≤ S512x50176.size a
  hwx0_0 : ∀ i : grid0.Coords, EltTy.bits .f32 = 32 ∨ (Rect.block (s := S512x50176) S256x1792.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1792.size a ≤ S1024x50176.size a
  hwx0_1 : ∀ i : grid0.Coords, EltTy.bits .f32 = 32 ∨ (Rect.block (s := S1024x50176) S1024x1792.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S512x1024.size a
  hwx0_3 : ∀ i : grid0.Coords, EltTy.bits .f32 = 32 ∨ (Rect.block (s := S512x1024) S256x1024.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x1024.size a
  hwx1_0 : ∀ i : grid1.Coords, EltTy.bits .f32 = 32 ∨ (Rect.block (s := S512x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024.size a ≤ S1024.size a
  hwx1_6 : ∀ i : grid1.Coords, EltTy.bits .f32 = 32 ∨ (Rect.block (s := S1024) S1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S1024x1024.size a
  hwx1_7 : ∀ i : grid1.Coords, EltTy.bits .bf16 = 32 ∨ (Rect.block (s := S1024x1024) S1024x1024.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1024.size a ≤ S1024.size a
  hwx1_8 : ∀ i : grid1.Coords, EltTy.bits .f32 = 32 ∨ (Rect.block (s := S1024) S1024.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1024x1024.size a ≤ S1024x1024.size a
  hwx1_9 : ∀ i : grid1.Coords, EltTy.bits .bf16 = 32 ∨ (Rect.block (s := S1024x1024) S1024x1024.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1024.size a ≤ S1024.size a
  hwx1_10 : ∀ i : grid1.Coords, EltTy.bits .f32 = 32 ∨ (Rect.block (s := S1024) S1024.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1024x1024.size a ≤ S1024x1024.size a
  hwx1_11 : ∀ i : grid1.Coords, EltTy.bits .bf16 = 32 ∨ (Rect.block (s := S1024x1024) S1024x1024.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1024.size a ≤ S1024.size a
  hwx1_12 : ∀ i : grid1.Coords, EltTy.bits .f32 = 32 ∨ (Rect.block (s := S1024) S1024.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1024x1024.size a ≤ S1024x1024.size a
  hwx1_13 : ∀ i : grid1.Coords, EltTy.bits .bf16 = 32 ∨ (Rect.block (s := S1024x1024) S1024x1024.size (cc1_transform_13 i) (hinb1_13 i)).WholeWords (EltTy.packing .bf16)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1024.size a ≤ S1024.size a
  hwx1_14 : ∀ i : grid1.Coords, EltTy.bits .f32 = 32 ∨ (Rect.block (s := S1024) S1024.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S512x1024.size a ≤ S512x1024.size a
  hwx1_15 : ∀ i : grid1.Coords, EltTy.bits .f32 = 32 ∨ (Rect.block (s := S512x1024) S512x1024.size (cc1_transform_15 i) (hinb1_15 i)).WholeWords (EltTy.packing .f32)

variable [Facts₀]

def dot_S256x1792_S1024x1792_S256x1024_1_1_0_0_n_n : DotDims S256x1792 S1024x1792 S256x1024 where
  lhsContracting := [1]
  rhsContracting := [1]
  lhsNonContracting := [0]
  rhsNonContracting := [0]
  lhsBatch := []
  rhsBatch := []
  wf := dot_S256x1792_S1024x1792_S256x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S256x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1792.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S512x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S1024x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v6) S1024x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg12) S1024.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v7) S1024x1024.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg14) S1024.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v8) S1024x1024.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg16) S1024.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v9) S512x1024.size cc1_transform_15 reads1_15 true true 1 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S512x1024x7x7 : Shape := ⟨4, ![512, 1024, 7, 7]⟩
abbrev S1024x50176 : Shape := ⟨2, ![1024, 50176]⟩
abbrev S1024 : Shape := ⟨1, ![1024]⟩
abbrev S1024x1024 : Shape := ⟨2, ![1024, 1024]⟩
abbrev S512x50176 : Shape := ⟨2, ![512, 50176]⟩
abbrev S50176x1024 : Shape := ⟨2, ![50176, 1024]⟩
abbrev S512x1024 : Shape := ⟨2, ![512, 1024]⟩
abbrev S1x1024 : Shape := ⟨2, ![1, 1024]⟩
abbrev S1024x512 : Shape := ⟨2, ![1024, 512]⟩
abbrev S512x512 : Shape := ⟨2, ![512, 512]⟩
abbrev S_ : Shape := ⟨0, ![]⟩
abbrev S512 : Shape := ⟨1, ![512]⟩
abbrev S512x1 : Shape := ⟨2, ![512, 1]⟩

abbrev nBuf : Space → Nat
  | .hbm => 107
  | .vmem => 0
  | .smem => 0
  | _ => 0

abbrev bufTy : (tb : Table) → Fin (tcTables nBuf tb) → BufTy
  | .hbm, ⟨0, _⟩ => ⟨S512x1024x7x7, .f32⟩
  | .hbm, ⟨1, _⟩ => ⟨S1024x50176, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S512x50176, .f32⟩
  | .hbm, ⟨18, _⟩ => ⟨S50176x1024, .f32⟩
  | .hbm, ⟨19, _⟩ => ⟨S512x1024, .f32⟩
  | .hbm, ⟨20, _⟩ => ⟨S1x1024, .f32⟩
  | .hbm, ⟨21, _⟩ => ⟨S512x1024, .f32⟩
  | .hbm, ⟨22, _⟩ => ⟨S512x1024, .f32⟩
  | .hbm, ⟨23, _⟩ => ⟨S1024x1024, .f32⟩
  | .hbm, ⟨24, _⟩ => ⟨S512x1024, .f32⟩
  | .hbm, ⟨25, _⟩ => ⟨S1x1024, .f32⟩
  | .hbm, ⟨26, _⟩ => ⟨S512x1024, .f32⟩
  | .hbm, ⟨27, _⟩ => ⟨S512x1024, .f32⟩
  | .hbm, ⟨28, _⟩ => ⟨S1024x1024, .f32⟩
  | .hbm, ⟨29, _⟩ => ⟨S512x1024, .f32⟩
  | .hbm, ⟨30, _⟩ => ⟨S1x1024, .f32⟩
  | .hbm, ⟨31, _⟩ => ⟨S512x1024, .f32⟩
  | .hbm, ⟨32, _⟩ => ⟨S512x1024, .f32⟩
  | .hbm, ⟨33, _⟩ => ⟨S1024x512, .f32⟩
  | .hbm, ⟨34, _⟩ => ⟨S512x512, .f32⟩
  | .hbm, ⟨35, _⟩ => ⟨S_, .f32⟩
  | .hbm, ⟨36, _⟩ => ⟨S512x512, .f32⟩
  | .hbm, ⟨37, _⟩ => ⟨S512x512, .f32⟩
  | .hbm, ⟨38, _⟩ => ⟨S_, .f32⟩
  | .hbm, ⟨39, _⟩ => ⟨S512, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S512x1, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S_, .f32⟩
  | .hbm, ⟨48, _⟩ => ⟨S512, .f32⟩
  | .hbm, ⟨49, _⟩ => ⟨S512x1, .f32⟩
  | .hbm, ⟨50, _⟩ => ⟨S512x512, .f32⟩
  | .hbm, ⟨51, _⟩ => ⟨S512x512, .f32⟩
  | .hbm, ⟨52, _⟩ => ⟨S512x1024, .f32⟩
  | .hbm, ⟨53, _⟩ => ⟨S1024x1024, .f32⟩
  | .hbm, ⟨54, _⟩ => ⟨S512x1024, .f32⟩
  | .hbm, ⟨55, _⟩ => ⟨S1x1024, .f32⟩
  | .hbm, ⟨56, _⟩ => ⟨S512x1024, .f32⟩
  | .hbm, ⟨57, _⟩ => ⟨S512x1024, .f32⟩
  | .hbm, ⟨58, _⟩ => ⟨S512x1024, .f32⟩
  | .hbm, ⟨59, _⟩ => ⟨S_, .f32⟩
  | .hbm, ⟨60, _⟩ => ⟨S512x1024, .f32⟩
  | .hbm, ⟨61, _⟩ => ⟨S512x1024, .f32⟩
  | .hbm, ⟨62, _⟩ => ⟨S1024x1024, .f32⟩
  | .hbm, ⟨63, _⟩ => ⟨S512x1024, .f32⟩
  | .hbm, ⟨64, _⟩ => ⟨S1x1024, .f32⟩
  | .hbm, ⟨65, _⟩ => ⟨S512x1024, .f32⟩
  | .hbm, ⟨66, _⟩ => ⟨S512x1024, .f32⟩
  | .hbm, ⟨67, _⟩ => ⟨S1024x1024, .f32⟩
  | .hbm, ⟨68, _⟩ => ⟨S512x1024, .f32⟩
  | .hbm, ⟨69, _⟩ => ⟨S1x1024, .f32⟩
  | .hbm, ⟨70, _⟩ => ⟨S512x1024, .f32⟩
  | .hbm, ⟨71, _⟩ => ⟨S512x1024, .f32⟩
  | .hbm, ⟨72, _⟩ => ⟨S1024x1024, .f32⟩
  | .hbm, ⟨73, _⟩ => ⟨S512x1024, .f32⟩
  | .hbm, ⟨74, _⟩ => ⟨S1x1024, .f32⟩
  | .hbm, ⟨75, _⟩ => ⟨S512x1024, .f32⟩
  | .hbm, ⟨76, _⟩ => ⟨S512x1024, .f32⟩
  | .hbm, ⟨77, _⟩ => ⟨S1024x512, .f32⟩
  | .hbm, ⟨78, _⟩ => ⟨S512x512, .f32⟩
  | .hbm, ⟨79, _⟩ => ⟨S_, .f32⟩
  | .hbm, ⟨80, _⟩ => ⟨S512x512, .f32⟩
  | .hbm, ⟨81, _⟩ => ⟨S512x512, .f32⟩
  | .hbm, ⟨82, _⟩ => ⟨S_, .f32⟩
  | .hbm, ⟨83, _⟩ => ⟨S512, .f32⟩
  | .hbm, ⟨84, _⟩ => ⟨S_, .f32⟩
  | .hbm, ⟨85, _⟩ => ⟨S512, .f32⟩
  | .hbm, ⟨86, _⟩ => ⟨S512, .f32⟩
  | .hbm, ⟨87, _⟩ => ⟨S512x1, .f32⟩
  | .hbm, ⟨88, _⟩ => ⟨S512x512, .f32⟩
  | .hbm, ⟨89, _⟩ => ⟨S512x512, .f32⟩
  | .hbm, ⟨90, _⟩ => ⟨S512x512, .f32⟩
  | .hbm, ⟨91, _⟩ => ⟨S_, .f32⟩
  | .hbm, ⟨92, _⟩ => ⟨S512, .f32⟩
  | .hbm, ⟨93, _⟩ => ⟨S512x1, .f32⟩
  | .hbm, ⟨94, _⟩ => ⟨S512x512, .f32⟩
  | .hbm, ⟨95, _⟩ => ⟨S512x512, .f32⟩
  | .hbm, ⟨96, _⟩ => ⟨S512x1024, .f32⟩
  | .hbm, ⟨97, _⟩ => ⟨S1024x1024, .f32⟩
  | .hbm, ⟨98, _⟩ => ⟨S512x1024, .f32⟩
  | .hbm, ⟨99, _⟩ => ⟨S1x1024, .f32⟩
  | .hbm, ⟨100, _⟩ => ⟨S512x1024, .f32⟩
  | .hbm, ⟨101, _⟩ => ⟨S512x1024, .f32⟩
  | .hbm, ⟨102, _⟩ => ⟨S512x1024, .f32⟩
  | .hbm, ⟨103, _⟩ => ⟨S512x1024, .f32⟩
  | .hbm, ⟨104, _⟩ => ⟨S_, .f32⟩
  | .hbm, ⟨105, _⟩ => ⟨S512x1024, .f32⟩
  | .hbm, ⟨106, _⟩ => ⟨S512x1024, .f32⟩
  | _, _ => ⟨S512x1024x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_cst_0 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call0_cst : Ref sig .tc := ⟨.hbm, 59, rfl⟩
abbrev main_call0_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_3 : Ref sig .tc := ⟨.hbm, 79, rfl⟩
abbrev main_v56 : Ref sig .tc := ⟨.hbm, 80, rfl⟩
abbrev main_v57 : Ref sig .tc := ⟨.hbm, 81, rfl⟩
abbrev main_cst_4 : Ref sig .tc := ⟨.hbm, 82, rfl⟩
abbrev main_v58 : Ref sig .tc := ⟨.hbm, 83, rfl⟩
abbrev main_cst_5 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_6 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call1_cst : Ref sig .tc := ⟨.hbm, 104, rfl⟩
abbrev main_call1_v0 : Ref sig .tc := ⟨.hbm, 105, rfl⟩
abbrev main_v77 : Ref sig .tc := ⟨.hbm, 106, rfl⟩

abbrev nD : Nat := 1
abbrev τ : Topo := Topo.v7x

variable {F : FTy → Type} [FloatOps F]

class Facts₀ : Prop where
  shapeCasts_S512x1024x7x7_S512x50176 : S512x1024x7x7.ShapeCasts S512x50176
  transposes_S1024x50176_S50176x1024_1_0 : S1024x50176.Transposes [1, 0] S50176x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  transposes_S1024x1024_S1024x1024_1_0 : S1024x1024.Transposes [1, 0] S1024x1024
  transposes_S512x1024_S1024x512_1_0 : S512x1024.Transposes [1, 0] S1024x512
  bcast_S_S512x512 : S_.BroadcastsInDim S512x512 (![] : Fin 0 → Fin S512x512.rank)
  reducesTo_S512x512_S512_d1 : S512x512.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S_S512x1024 : S_.BroadcastsInDim S512x1024 (![] : Fin 0 → Fin S512x1024.rank)
  dot_S512x50176_S50176x1024_S512x1024_1_0_0_1_n_n_wf : DotDims.WF S512x50176 S50176x1024 S512x1024 [1] [0] [0] [1] [] []
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []

variable [Facts₀]

def dot_S512x50176_S50176x1024_S512x1024_1_0_0_1_n_n : DotDims S512x50176 S50176x1024 S512x1024 where
  lhsContracting := [1]
  rhsContracting := [0]
  lhsNonContracting := [0]
  rhsNonContracting := [1]
  lhsBatch := []
  rhsBatch := []
  wf := dot_S512x50176_S50176x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

class Facts : Prop extends Facts₀ where

variable [Facts]
-- ==== Proof.K.R0Defs.lean ====
/-
  The first linear layer's region (the pallas_call with grid 2 x 28): the data its frame and its value are
  stated over. Grid point t = 28 * mi + ki handles rows 256*mi .. 256*mi+255 of the output and columns
  1792*ki .. 1792*ki+1791 of the contracted axis. A scratch accumulator of shape 256 x 1024 is carried from
  point to point: it is reset at ki = 0, a block product is added to it at every point, and at ki = 27 the
  bias is added and the sum is stored to the output block, which the pipeline writes back there and only
  there.
-/
import proofs.«109190_j31490700214886_1_alg».proof.Proof.Gen.Kernel.Launch
import proofs.«109190_j31490700214886_1_alg».proof.Proof.Gen.Kernel.Skeleton
import proofs.«109190_j31490700214886_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 256 x 1792 block of the flattened input at point `t`. -/
abbrev xblk (c : Dev nD) (t : Fin cfg0.N) : Vec F S256x1792 .f32 := iblk0 V c 0 t
/-- The 1024 x 1792 block of the weight at point `t`. -/
abbrev wblk (c : Dev nD) (t : Fin cfg0.N) : Vec F S1024x1792 .f32 := iblk0 V c 1 t
/-- The bias (its one block) at point `t`. -/
abbrev bblk (c : Dev nD) (t : Fin cfg0.N) : Vec F S1024 .f32 := iblk0 V c 2 t

/-- What the accumulator holds after the body at position `n`: the block product of that point added to zero at
    the first point of a row block (n ≡ 0 mod 28), and to what the point before left otherwise. -/
def accAt0 (c : Dev nD) : (n : ℕ) → n < cfg0.N → Vec F S256x1024 .f32
  | 0, hn => k0_pay2 (xblk V c ⟨0, hn⟩) (wblk V c ⟨0, hn⟩) (k0_pay1 (F := F))
  | n + 1, hn =>
    if (n + 1) % 28 = 0 then k0_pay2 (xblk V c ⟨n + 1, hn⟩) (wblk V c ⟨n + 1, hn⟩) (k0_pay1 (F := F))
    else k0_pay2 (xblk V c ⟨n + 1, hn⟩) (wblk V c ⟨n + 1, hn⟩) (accAt0 c n (Nat.lt_of_succ_lt hn))

theorem accAt0_reset (c : Dev nD) (t : Fin cfg0.N) (h : t.val % 28 = 0) :
    accAt0 V c t.val t.isLt = k0_pay2 (xblk V c t) (wblk V c t) (k0_pay1 (F := F)) := by
  obtain ⟨n, hn⟩ := t
  cases n with
  | zero => rfl
  | succ n => exact if_pos h

theorem accAt0_step (c : Dev nD) (t : Fin cfg0.N) (h : ¬ t.val % 28 = 0) :
    accAt0 V c t.val t.isLt
      = k0_pay2 (xblk V c t) (wblk V c t) (accAt0 V c (t.val - 1) (Nat.lt_of_le_of_lt (Nat.sub_le _ _) t.isLt)) := by
  obtain ⟨n, hn⟩ := t
  cases n with
  | zero => exact absurd (Nat.zero_mod _) h
  | succ n => exact if_neg h

/-- The scratch accumulator as a memref. -/
abbrev scM0 : Memref sig .tc .vmem S256x1024 .f32 := Memref.whole cc0_scratch0

/-- The region's invariant before position `n`: before the first point the scoped rest at anything and the generator
    register; afterwards the accumulator at what the point before left, the other scoped buffers no window of this region stages
    (the later region's staging buffers) at anything, and the generator register. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of the region on core `c`: the arrays as the region finds them; after the body at point `t`
    each input's buffer at its block and the output's at the accumulator plus the bias; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt) (bblk V c t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (accAt0 V c t.val t.isLt) (bblk V c t) := by dsimp only [dat0]
theorem Phi0_castSucc (c : Dev nD) (t : Fin cfg0.N) :
    (dat0 V c).Φ t.castSucc = PhiS0 V c t.val (Nat.le_of_lt t.isLt) := by
  dsimp only [dat0]; simp only [Fin.coe_castSucc]

end Region0

end Cert.Kernel.Gen

end
-- ==== Proof.K.R0Body.lean ====
/-
  The first linear layer's region: its body obligation. At every grid point the body adds the point's block product
  to the carried accumulator (after resetting it at the first point of a row block) and, at the last point of a row
  block, stores accumulator plus bias to the output block. Three cases by the position ki = t mod 28 in the row
  block: first (ki = 0), middle, last (ki = 27).
-/
import proofs.«109190_j31490700214886_1_alg».proof.Proof.Gen.Kernel.Launch
import proofs.«109190_j31490700214886_1_alg».proof.Proof.Gen.Kernel.Skeleton
import proofs.«109190_j31490700214886_1_alg».proof.Proof.Gen.Kernel.Points
import proofs.«109190_j31490700214886_1_alg».proof.Proof.K.R0Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions of the body, in closed form over the 56 grid points -/

/-- The body resets the accumulator: the position in the row block is zero. -/
abbrev isFirst0 (i : grid0.Coords) : Prop :=
  (Scalar.cmpi .ne (Scalar.extui (Scalar.cmpi .eq (BitVec.ofNat 32 (i 1).val) 0#32)) 0#32) = 1#1
/-- The body adds the bias and stores the output block: the position in the row block is the last one. -/
abbrev isLast0 (i : grid0.Coords) : Prop := k0_cond2 i = 1#1

/-- The reset happens exactly at the points t ≡ 0 (mod 28). -/
theorem isFirst0_iff : ∀ t : Fin cfg0.N, isFirst0 (grid0.coords t) ↔ t.val % 28 = 0 :=
  (by decide +kernel : ∀ t : Fin grid0.N, isFirst0 (grid0.coords t) ↔ t.val % 28 = 0)
/-- The output store happens exactly at the points t ≡ 27 (mod 28). -/
theorem isLast0_iff : ∀ t : Fin cfg0.N, isLast0 (grid0.coords t) ↔ t.val % 28 = 27 :=
  (by decide +kernel : ∀ t : Fin grid0.N, isLast0 (grid0.coords t) ↔ t.val % 28 = 27)

/-! ## Whole-rectangle offsets are zero offsets -/

theorem zeroOff_x : (![0, 0] : Fin S256x1792.rank → Nat) = fun _ => 0 := by
  funext a; fin_cases a <;> rfl
theorem zeroOff_w : (![0, 0] : Fin S1024x1792.rank → Nat) = fun _ => 0 := by
  funext a; fin_cases a <;> rfl
theorem zeroOff_acc : (![0, 0] : Fin S256x1024.rank → Nat) = fun _ => 0 := by
  funext a; fin_cases a <;> rfl
theorem zeroOff_b : (![0] : Fin S1024.rank → Nat) = fun _ => 0 := by
  funext a; fin_cases a; rfl

/-! ## The body on any whole memrefs, case by case -/

set_option maxHeartbeats 1000000 in
/-- First point of a row block (ki = 0, not the last): the accumulator, whatever it held, ends at the block product
    added to zero; the inputs and the output buffer are handed back as they were. -/
theorem run0_first (c : Dev nD) (i : grid0.Coords)
    (arg2 : Memref sig .tc .vmem S256x1792 .f32) (harg2 : arg2.IsWhole)
    (arg3 : Memref sig .tc .vmem S1024x1792 .f32) (harg3 : arg3.IsWhole)
    (arg4 : Memref sig .tc .vmem S1024 .f32) (harg4 : arg4.IsWhole)
    (arg5 : Memref sig .tc .vmem S256x1024 .f32) (harg5 : arg5.IsWhole)
    (arg6 : Memref sig .tc .vmem S256x1024 .f32) (harg6 : arg6.IsWhole)
    (hc0 : isFirst0 i) (hc1 : ¬ isLast0 i)
    (x : Vec F S256x1792 .f32) (w : Vec F S1024x1792 .f32) (b : Vec F S1024 .f32) (o : Vec F S256x1024 .f32)
    (E : Set ℕ) (K : PUnit → sProp 𝕄) :
    iprop(owns (c : Thread nD τ) arg2 fullShare x ∗ owns (c : Thread nD τ) arg3 fullShare w
        ∗ owns (c : Thread nD τ) arg4 fullShare b ∗ owns (c : Thread nD τ) arg5 fullShare o
        ∗ (∃ d, owns (c : Thread nD τ) arg6 fullShare d)
        ∗ (iprop(owns (c : Thread nD τ) arg2 fullShare x ∗ owns (c : Thread nD τ) arg3 fullShare w
            ∗ owns (c : Thread nD τ) arg4 fullShare b ∗ owns (c : Thread nD τ) arg5 fullShare o
            ∗ owns (c : Thread nD τ) arg6 fullShare (k0_pay2 x w (k0_pay1 (F := F)))) -∗ K ⟨⟩))
      ⊢ wp frame (wpE (defs₀ (F := F)) Variants.none c none) E (cc0__fc1_kernel i arg2 harg2 arg3 harg3 arg4 harg4 arg5 harg5 arg6 harg6) K := by
  simp only [cc0__fc1_kernel_eq_skeleton]; unfold cc0__fc1_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_words
  rw [View.read_writes_eq_canon _ _ _ (fun y => ⟨_, List.mem_cons_self .., View.mem_set_unit_zero zeroOff_acc inb_S256x1024_S256x1024_0_0 y⟩)]
  rw [View.canon_cons_unit_zero zeroOff_acc]
  simp only [View.readAt_eq_ld, harg2.read_unread, harg3.read_unread, View.ld_unit_zero (S := S256x1792) zeroOff_x,
    View.ld_unit_zero (S := S1024x1792) zeroOff_w, View.readCov_unit_zero (S := S256x1024) _ zeroOff_acc]

set_option maxHeartbeats 1000000 in
/-- A middle point of a row block (neither first nor last): the accumulator goes from `a` to the block product added
    to `a`; the inputs and the output buffer are handed back as they were. -/
theorem run0_mid (c : Dev nD) (i : grid0.Coords)
    (arg2 : Memref sig .tc .vmem S256x1792 .f32) (harg2 : arg2.IsWhole)
    (arg3 : Memref sig .tc .vmem S1024x1792 .f32) (harg3 : arg3.IsWhole)
    (arg4 : Memref sig .tc .vmem S1024 .f32) (harg4 : arg4.IsWhole)
    (arg5 : Memref sig .tc .vmem S256x1024 .f32) (harg5 : arg5.IsWhole)
    (arg6 : Memref sig .tc .vmem S256x1024 .f32) (harg6 : arg6.IsWhole)
    (hc0 : ¬ isFirst0 i) (hc1 : ¬ isLast0 i)
    (x : Vec F S256x1792 .f32) (w : Vec F S1024x1792 .f32) (b : Vec F S1024 .f32) (o : Vec F S256x1024 .f32)
    (a : Vec F S256x1024 .f32)
    (E : Set ℕ) (K : PUnit → sProp 𝕄) :
    iprop(owns (c : Thread nD τ) arg2 fullShare x ∗ owns (c : Thread nD τ) arg3 fullShare w
        ∗ owns (c : Thread nD τ) arg4 fullShare b ∗ owns (c : Thread nD τ) arg5 fullShare o
        ∗ owns (c : Thread nD τ) arg6 fullShare a
        ∗ (iprop(owns (c : Thread nD τ) arg2 fullShare x ∗ owns (c : Thread nD τ) arg3 fullShare w
            ∗ owns (c : Thread nD τ) arg4 fullShare b ∗ owns (c : Thread nD τ) arg5 fullShare o
            ∗ owns (c : Thread nD τ) arg6 fullShare (k0_pay2 x w a)) -∗ K ⟨⟩))
      ⊢ wp frame (wpE (defs₀ (F := F)) Variants.none c none) E (cc0__fc1_kernel i arg2 harg2 arg3 harg3 arg4 harg4 arg5 harg5 arg6 harg6) K := by
  simp only [cc0__fc1_kernel_eq_skeleton]; unfold cc0__fc1_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_words
  rw [View.read_writes_eq_canon _ _ _ (fun y => ⟨_, List.mem_cons_self .., View.mem_set_unit_zero zeroOff_acc inb_S256x1024_S256x1024_0_0 y⟩)]
  rw [View.canon_cons_unit_zero zeroOff_acc]
  simp only [View.readAt_eq_ld, harg2.read_unread, harg3.read_unread, harg6.read_unread, View.ld_unit_zero (S := S256x1792) zeroOff_x,
    View.ld_unit_zero (S := S1024x1792) zeroOff_w, View.ld_unit_zero (S := S256x1024) zeroOff_acc]

set_option maxHeartbeats 1000000 in
/-- The last point of a row block (ki = 27): the accumulator goes from `a` to the block product added to `a`, and the
    output buffer, whatever it held, ends at that sum plus the bias; the inputs are handed back as they were. -/
theorem run0_last (c : Dev nD) (i : grid0.Coords)
    (arg2 : Memref sig .tc .vmem S256x1792 .f32) (harg2 : arg2.IsWhole)
    (arg3 : Memref sig .tc .vmem S1024x1792 .f32) (harg3 : arg3.IsWhole)
    (arg4 : Memref sig .tc .vmem S1024 .f32) (harg4 : arg4.IsWhole)
    (arg5 : Memref sig .tc .vmem S256x1024 .f32) (harg5 : arg5.IsWhole)
    (arg6 : Memref sig .tc .vmem S256x1024 .f32) (harg6 : arg6.IsWhole)
    (hc0 : ¬ isFirst0 i) (hc1 : isLast0 i)
    (x : Vec F S256x1792 .f32) (w : Vec F S1024x1792 .f32) (b : Vec F S1024 .f32)
    (a : Vec F S256x1024 .f32)
    (E : Set ℕ) (K : PUnit → sProp 𝕄) :
    iprop(owns (c : Thread nD τ) arg2 fullShare x ∗ owns (c : Thread nD τ) arg3 fullShare w
        ∗ owns (c : Thread nD τ) arg4 fullShare b ∗ (∃ d, owns (c : Thread nD τ) arg5 fullShare d)
        ∗ owns (c : Thread nD τ) arg6 fullShare a
        ∗ (iprop(owns (c : Thread nD τ) arg2 fullShare x ∗ owns (c : Thread nD τ) arg3 fullShare w
            ∗ owns (c : Thread nD τ) arg4 fullShare b ∗ owns (c : Thread nD τ) arg5 fullShare (k0_pay3 (k0_pay2 x w a) b)
            ∗ owns (c : Thread nD τ) arg6 fullShare (k0_pay2 x w a)) -∗ K ⟨⟩))
      ⊢ wp frame (wpE (defs₀ (F := F)) Variants.none c none) E (cc0__fc1_kernel i arg2 harg2 arg3 harg3 arg4 harg4 arg5 harg5 arg6 harg6) K := by
  simp only [cc0__fc1_kernel_eq_skeleton]; unfold cc0__fc1_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [View.read_writes_eq_canon _ _ _ (fun y => ⟨_, List.mem_cons_self .., View.mem_set_unit_zero zeroOff_acc inb_S256x1024_S256x1024_0_0 y⟩)]
    rw [View.canon_cons_unit_zero zeroOff_acc]
    simp only [View.readAt_eq_ld, harg2.read_unread, harg3.read_unread, harg4.read_unread, harg6.read_unread,
      View.ld_unit_zero (S := S256x1792) zeroOff_x, View.ld_unit_zero (S := S1024x1792) zeroOff_w,
      View.ld_unit_zero (S := S256x1024) zeroOff_acc, View.ld_unit_zero (S := S1024) zeroOff_b,
      View.readCov_unit_zero (S := S256x1024) _ zeroOff_acc]
  iexists _; isplitr
  swap; · iexact H6
  ipureintro
  sl_unfold_words
  rw [View.read_writes_eq_canon _ _ _ (fun y => ⟨_, List.mem_cons_self .., View.mem_set_unit_zero zeroOff_acc inb_S256x1024_S256x1024_0_0 y⟩)]
  rw [View.canon_cons_unit_zero zeroOff_acc]
  simp only [View.readAt_eq_ld, harg2.read_unread, harg3.read_unread, harg6.read_unread, View.ld_unit_zero (S := S256x1792) zeroOff_x,
    View.ld_unit_zero (S := S1024x1792) zeroOff_w, View.ld_unit_zero (S := S256x1024) zeroOff_acc]

/-! ## Where the windows are live, and where the output window is idle -/

/-- The three input windows are live at every point. -/
theorem live0_x : ∀ t : Fin cfg0.N, cfg0.idle 0 (grid0.coords t) = false := by decide +kernel
theorem live0_w : ∀ t : Fin cfg0.N, cfg0.idle 1 (grid0.coords t) = false := by decide +kernel
theorem live0_b : ∀ t : Fin cfg0.N, cfg0.idle 2 (grid0.coords t) = false := by decide +kernel
/-- Away from the last point of a row block the output window is idle, -/
theorem idle0_out : ∀ t : Fin cfg0.N, ¬ isLast0 (grid0.coords t) → cfg0.idle 3 (grid0.coords t) = true := by decide +kernel
/-- and its block is not written back there; -/
theorem noFlush0_out : ∀ t : Fin cfg0.N, ¬ isLast0 (grid0.coords t) → (cfg0.win 3).flush t = false := by decide +kernel
/-- at the last point of a row block it is live. -/
theorem live0_out : ∀ t : Fin cfg0.N, isLast0 (grid0.coords t) → cfg0.idle 3 (grid0.coords t) = false := by decide +kernel

/-! ## The staging memrefs the body is called with at a point -/

abbrev mx0 (t : Fin cfg0.N) : Memref sig .tc .vmem S256x1792 .f32 := win0_0.stage (cfg0.slots t 0)
abbrev hmx0 (t : Fin cfg0.N) : (mx0 t).IsWhole := hstage0_0 ((cfg0.slots t 0).cast nbuf0_0)
abbrev mw0 (t : Fin cfg0.N) : Memref sig .tc .vmem S1024x1792 .f32 := win0_1.stage (cfg0.slots t 1)
abbrev hmw0 (t : Fin cfg0.N) : (mw0 t).IsWhole := hstage0_1 ((cfg0.slots t 1).cast nbuf0_1)
abbrev mb0 (t : Fin cfg0.N) : Memref sig .tc .vmem S1024 .f32 := win0_2.stage (cfg0.slots t 2)
abbrev hmb0 (t : Fin cfg0.N) : (mb0 t).IsWhole := hstage0_2 ((cfg0.slots t 2).cast nbuf0_2)
abbrev mo0 (t : Fin cfg0.N) : Memref sig .tc .vmem S256x1024 .f32 := win0_3.stage (cfg0.slots t 3)
abbrev hmo0 (t : Fin cfg0.N) : (mo0 t).IsWhole := hstage0_3 ((cfg0.slots t 3).cast nbuf0_3)

/-- The scoped buffers of the core that are neither a staging buffer of this region nor its accumulator. -/
abbrev otherScoped0 (c : Dev nD) : sProp 𝕄 :=
  Pipeline.scopedRestBut (Ix := Unit) (Name := ℕ) (U := UR sig nD τ) (Lvl := ℕ) (Val := Elt F) spec0 c [cc0_scratch0]

/-- What the launch hands the region, with the accumulator split off as a memref owned at something. -/
theorem PhiA0_split (c : Dev nD) :
    (Pipeline.ΦA spec0 c : sProp 𝕄)
      = iprop(iprop((∃ d, owns (c : Thread nD τ) scM0 fullShare d) ∗ otherScoped0 (F := F) c) ∗ (∃ r, prngReg c r)) := by
  unfold Pipeline.ΦA
  rw [Pipeline.scopedRest_split_of_list spec0 c [cc0_scratch0] (by decide) (by decide)]
  simp only [scM0, owns_whole]
  rfl

section Region0
variable (V : (c : Dev nD) → (b : Ref sig .tc) → Buf (Elt F) ((c : Thread nD τ).loc b))

/-! ## The input windows hold their blocks at every point -/

/-- The flattened input's staging buffer holds its 256 x 1792 block at every point. -/
theorem before0_x (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
/-- The weight's staging buffer holds its 1024 x 1792 block at every point. -/
theorem before0_w (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
/-- The bias's staging buffer holds the bias at every point (it is fetched once, and its index never moves). -/
theorem before0_b (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body obligation at a point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (mx0 t) fullShare ((dat0 V c).before 0 t d))
    ∗ (∃ d, owns (c : Thread nD τ) (mw0 t) fullShare ((dat0 V c).before 1 t d))
    ∗ (∃ d, owns (c : Thread nD τ) (mb0 t) fullShare ((dat0 V c).before 2 t d))
    ∗ (∃ d, owns (c : Thread nD τ) (mo0 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The input buffers hold their blocks; the position in the row block selects the case. At the
    first point of a row block the accumulator (at anything at the very first point, at what the previous row block left
    otherwise) is reset and ends at the block product added to zero; at the other points it goes from what the point
    before left to that plus the block product; at the last point the output buffer receives the accumulator plus the
    bias, and elsewhere it is handed back as found. The other scoped buffers and the generator register pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_x V, before0_w V, before0_b V]
  rw [show (dat0 V c).owesAt () t.succ = (dat0 V c).owesAt () t.castSucc from rfl]
  rw [show (dat0 V c).Φ t.succ = PhiS0 V c (t.val + 1) t.isLt from rfl, PhiS0_succ]
  have hN : t.val < 56 := lt_of_lt_of_eq t.isLt (show cfg0.N = 56 from N_0)
  rw [show (dat0 V c).leavesExact 0 t = owns (c : Thread nD τ) (mx0 t) fullShare ((dat0 V c).after 0 t) from by
    unfold Dat.leavesExact; rw [live0_x t], after0_0]
  rw [show (dat0 V c).leavesExact 1 t = owns (c : Thread nD τ) (mw0 t) fullShare ((dat0 V c).after 1 t) from by
    unfold Dat.leavesExact; rw [live0_w t], after0_1]
  rw [show (dat0 V c).leavesExact 2 t = owns (c : Thread nD τ) (mb0 t) fullShare ((dat0 V c).after 2 t) from by
    unfold Dat.leavesExact; rw [live0_b t], after0_2]
  by_cases h0 : t.val % 28 = 0
  · have h1 : ¬ t.val % 28 = 27 := by omega
    have hc0 : isFirst0 (grid0.coords t) := (isFirst0_iff t).mpr h0
    have hc1 : ¬ isLast0 (grid0.coords t) := fun h => h1 ((isLast0_iff t).mp h)
    rw [Dat.leavesExact_idle (dat0 V c) 3 t (idle0_out t hc1) (noFlush0_out t hc1)]
    rw [accAt0_reset V c t h0]
    by_cases hz : t.val = 0
    · rw [Phi0_castSucc V c t, PhiS0_zero V c _ _ hz, PhiA0_split]
      iintro ⟨⟨⟨HS, HR⟩, Hg⟩, Ho, ⟨%d0, H0⟩, ⟨%d1, H1⟩, ⟨%d2, H2⟩, ⟨%d3, H3⟩⟩
      iapply (run0_first c (grid0.coords t) (mx0 t) (hmx0 t) (mw0 t) (hmw0 t) (mb0 t) (hmb0 t) (mo0 t) (hmo0 t) scM0 (Memref.isWhole_whole _)
        hc0 hc1 (xblk V c t) (wblk V c t) (bblk V c t) ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (run0_first c (grid0.coords t) (mx0 t) (hmx0 t) (mw0 t) (hmw0 t) (mb0 t) (hmb0 t) (mo0 t) (hmo0 t) scM0 (Memref.isWhole_whole _)
        hc0 hc1 (xblk V c t) (wblk V c t) (bblk V c t) ((dat0 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬ isFirst0 (grid0.coords t) := fun h => h0 ((isFirst0_iff t).mp h)
    rw [accAt0_step V c t h0]
    rw [Phi0_castSucc V c t, PhiS0_pos V c _ _ hz]
    by_cases h1 : t.val % 28 = 27
    · have hc1 : isLast0 (grid0.coords t) := (isLast0_iff t).mpr h1
      rw [show (dat0 V c).leavesExact 3 t = owns (c : Thread nD τ) (mo0 t) fullShare ((dat0 V c).after 3 t) from by
        unfold Dat.leavesExact; rw [live0_out t hc1], after0_3, accAt0_step V c t h0]
      iintro ⟨⟨⟨HS, HR⟩, Hg⟩, Ho, ⟨%d0, H0⟩, ⟨%d1, H1⟩, ⟨%d2, H2⟩, ⟨%d3, H3⟩⟩
      iapply (run0_last c (grid0.coords t) (mx0 t) (hmx0 t) (mw0 t) (hmw0 t) (mb0 t) (hmb0 t) (mo0 t) (hmo0 t) scM0 (Memref.isWhole_whole _)
        hc0 hc1 (xblk V c t) (wblk V c t) (bblk V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc1 : ¬ isLast0 (grid0.coords t) := fun h => h1 ((isLast0_iff t).mp h)
      rw [Dat.leavesExact_idle (dat0 V c) 3 t (idle0_out t hc1) (noFlush0_out t hc1)]
      iintro ⟨⟨⟨HS, HR⟩, Hg⟩, Ho, ⟨%d0, H0⟩, ⟨%d1, H1⟩, ⟨%d2, H2⟩, ⟨%d3, H3⟩⟩
      iapply (run0_mid c (grid0.coords t) (mx0 t) (hmx0 t) (mw0 t) (hmw0 t) (mb0 t) (hmb0 t) (mo0 t) (hmo0 t) scM0 (Memref.isWhole_whole _)
        hc0 hc1 (xblk V c t) (wblk V c t) (bblk V c t) ((dat0 V c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation for the region's proof data, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the scoped rest and the generator register back: the accumulator's
    contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 56 := N_0; omega), PhiA0_split]
  iintro ⟨⟨HS, HR⟩, Hg⟩
  isplitl [HS HR]
  · isplitl [HS]
    · iexists _; iexact HS
    iexact HR
  iexact Hg

end Region0

end Cert.Kernel.Gen

end
-- ==== Proof.K.HeadK.lean ====
/-
  The second region (attention head) computes ONE function of its fifteen operand arrays: the whole body's value, the
  payloads of its three printed parts composed in program order. `xN` is what kernel operand N holds (operand 1 the
  activations out of the first linear layer; 2, 3 the second linear layer's weight and bias; 4..9 the first attention
  block's query, key and output projections; 10..15 the second block's).
-/
import proofs.«109190_j31490700214886_1_alg».proof.Proof.Gen.Kernel.Skeleton

noncomputable section

namespace Cert.Kernel.Gen

open Idealize.ShloMosaic

variable {F : FTy → Type} [FloatOps F]

/-- The first attention block's output projected, before its bias (the first printed part's second result). -/
abbrev head38 (x1 : Vec F S512x1024 .f32) (x4 : Vec F S1024x1024 .bf16) (x5 : Vec F S1024 .f32) (x6 : Vec F S1024x1024 .bf16)
    (x7 : Vec F S1024 .f32) (x8 : Vec F S1024x1024 .bf16) : FVec F S512x1024 .f32 :=
  k1_pay3 x1 x4 x5 x6 x7 x8

/-- The head's result from its operands' contents. -/
def headK (x1 : Vec F S512x1024 .f32) (x2 : Vec F S1024x1024 .bf16) (x3 : Vec F S1024 .f32)
    (x4 : Vec F S1024x1024 .bf16) (x5 : Vec F S1024 .f32) (x6 : Vec F S1024x1024 .bf16) (x7 : Vec F S1024 .f32)
    (x8 : Vec F S1024x1024 .bf16) (x9 : Vec F S1024 .f32)
    (x10 : Vec F S1024x1024 .bf16) (x11 : Vec F S1024 .f32) (x12 : Vec F S1024x1024 .bf16) (x13 : Vec F S1024 .f32)
    (x14 : Vec F S1024x1024 .bf16) (x15 : Vec F S1024 .f32) : FVec F S512x1024 .f32 :=
  k1_pay1 (k1_pay2 x1)
    (k1_pay4 (k1_pay2 x1) (head38 x1 x4 x5 x6 x7 x8) x9 x2 x3)
    (k1_pay5 (k1_pay2 x1) (head38 x1 x4 x5 x6 x7 x8) x9 x2 x3)
    (k1_pay6 (k1_pay2 x1) (head38 x1 x4 x5 x6 x7 x8) x9 x2 x3 x10 x11 x12 x13)
    x14 x15

end Cert.Kernel.Gen

end
-- ==== Proof.K.R1.lean ====
/-
  The attention head's region (one grid point, every window its whole array): its proof data, its body obligation, and
  the value it leaves in its output array, the head function of its fifteen operand arrays.
-/
import proofs.«109190_j31490700214886_1_alg».proof.Proof.Gen.Kernel.Launch
import proofs.«109190_j31490700214886_1_alg».proof.Proof.Gen.Kernel.Skeleton
import proofs.«109190_j31490700214886_1_alg».proof.Proof.Gen.Kernel.Points
import proofs.«109190_j31490700214886_1_alg».proof.Proof.K.HeadK
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at the region's one point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 512 x 1024 rectangle: the activations' load and the body's one store. -/
abbrev r1_full : Rect S512x1024 := Rect.unit (s := S512x1024) ![0, 0] S512x1024.size inb_S512x1024_S512x1024_0_0
/-- The whole 1024 x 1024 rectangle: every projection weight is loaded through it. -/
abbrev r1_weight : Rect S1024x1024 := Rect.unit (s := S1024x1024) ![0, 0] S1024x1024.size inb_S1024x1024_S1024x1024_0_0
/-- The whole row of 1024: every bias is loaded through it. -/
abbrev r1_bias : Rect S1024 := Rect.unit (s := S1024) ![0] S1024.size inb_S1024_S1024_0

/-- What the body leaves in the output window's buffer, from the operand blocks: the head function of the fifteen
    operands, each as its load through its whole rectangle reads it, stored through the whole rectangle. -/
def out1_15 (x1 : Vec F S512x1024 .f32) (x2 : Vec F S1024x1024 .bf16) (x3 : Vec F S1024 .f32) (x4 : Vec F S1024x1024 .bf16) (x5 : Vec F S1024 .f32) (x6 : Vec F S1024x1024 .bf16) (x7 : Vec F S1024 .f32) (x8 : Vec F S1024x1024 .bf16) (x9 : Vec F S1024 .f32) (x10 : Vec F S1024x1024 .bf16) (x11 : Vec F S1024 .f32) (x12 : Vec F S1024x1024 .bf16) (x13 : Vec F S1024 .f32) (x14 : Vec F S1024x1024 .bf16) (x15 : Vec F S1024 .f32) : Vec F S512x1024 .f32 :=
  View.canon [⟨r1_full, headK (View.ld x1 r1_full) (View.ld x2 r1_weight) (View.ld x3 r1_bias) (View.ld x4 r1_weight) (View.ld x5 r1_bias) (View.ld x6 r1_weight) (View.ld x7 r1_bias) (View.ld x8 r1_weight) (View.ld x9 r1_bias) (View.ld x10 r1_weight) (View.ld x11 r1_bias) (View.ld x12 r1_weight) (View.ld x13 r1_bias) (View.ld x14 r1_weight) (View.ld x15 r1_bias)⟩]

/-- Zero offsets, however spelt. -/
theorem zeros2 : (![0, 0] : Fin 2 → Nat) = fun _ => 0 := funext fun a => by fin_cases a <;> rfl
theorem zeros1 : (![0] : Fin 1 → Nat) = fun _ => 0 := funext fun a => by fin_cases a <;> rfl

/-- The one store is through the whole rectangle, so it covers the output buffer. -/
theorem head_store_covers (p : Vec F S512x1024 .f32) (y : S512x1024.Idx) :
    ∃ pc ∈ ([⟨r1_full, p⟩] : List (View.Piece (Elt F) S512x1024 .f32)), y ∈ pc.1.set :=
  ⟨⟨r1_full, p⟩, List.mem_singleton_self _, View.mem_set_unit_zero zeros2 inb_S512x1024_S512x1024_0_0 y⟩

set_option maxHeartbeats 2000000 in
/-- The head body on whole staging memrefs, the fifteen operands' at contents `x1 … x15` and the result's at anything,
    runs to the continuation holding the operands' as they were and the result's at `out1_15` of them: the three
    printed parts load the operands (six, seven, two), nothing is stored but the result, once. -/
theorem head_body_runs (c : Dev nD) (E : Set ℕ) (i : grid1.Coords)
    (arg1 : Memref sig .tc .vmem S512x1024 .f32) (harg1 : arg1.IsWhole)
    (arg2 : Memref sig .tc .vmem S1024x1024 .bf16) (harg2 : arg2.IsWhole)
    (arg3 : Memref sig .tc .vmem S1024 .f32) (harg3 : arg3.IsWhole)
    (arg4 : Memref sig .tc .vmem S1024x1024 .bf16) (harg4 : arg4.IsWhole)
    (arg5 : Memref sig .tc .vmem S1024 .f32) (harg5 : arg5.IsWhole)
    (arg6 : Memref sig .tc .vmem S1024x1024 .bf16) (harg6 : arg6.IsWhole)
    (arg7 : Memref sig .tc .vmem S1024 .f32) (harg7 : arg7.IsWhole)
    (arg8 : Memref sig .tc .vmem S1024x1024 .bf16) (harg8 : arg8.IsWhole)
    (arg9 : Memref sig .tc .vmem S1024 .f32) (harg9 : arg9.IsWhole)
    (arg10 : Memref sig .tc .vmem S1024x1024 .bf16) (harg10 : arg10.IsWhole)
    (arg11 : Memref sig .tc .vmem S1024 .f32) (harg11 : arg11.IsWhole)
    (arg12 : Memref sig .tc .vmem S1024x1024 .bf16) (harg12 : arg12.IsWhole)
    (arg13 : Memref sig .tc .vmem S1024 .f32) (harg13 : arg13.IsWhole)
    (arg14 : Memref sig .tc .vmem S1024x1024 .bf16) (harg14 : arg14.IsWhole)
    (arg15 : Memref sig .tc .vmem S1024 .f32) (harg15 : arg15.IsWhole)
    (arg16 : Memref sig .tc .vmem S512x1024 .f32) (harg16 : arg16.IsWhole)
    (x1 : Vec F S512x1024 .f32) (x2 : Vec F S1024x1024 .bf16) (x3 : Vec F S1024 .f32) (x4 : Vec F S1024x1024 .bf16) (x5 : Vec F S1024 .f32) (x6 : Vec F S1024x1024 .bf16) (x7 : Vec F S1024 .f32) (x8 : Vec F S1024x1024 .bf16) (x9 : Vec F S1024 .f32) (x10 : Vec F S1024x1024 .bf16) (x11 : Vec F S1024 .f32) (x12 : Vec F S1024x1024 .bf16) (x13 : Vec F S1024 .f32) (x14 : Vec F S1024x1024 .bf16) (x15 : Vec F S1024 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (out1_15 x1 x2 x3 x4 x5 x6 x7 x8 x9 x10 x11 x12 x13 x14 x15)) -∗ K ⟨⟩))
      ⊢ wp frame (wpE (defs₀ (F := F)) Variants.none c none) E (cc1__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__head_kernel_eq_skeleton, k1_part1_eq_skeleton, k1_part2_eq_skeleton]
  unfold cc1__head_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf1; subst hf2; subst hf3; subst hf4; subst hf5; subst hf6; subst hf7; subst hf8; subst hf9; subst hf10; subst hf11; subst hf12; subst hf13; subst hf14; subst hf15
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  exact View.read_writes_eq_canon _ _ _ (head_store_covers _)

/-- The proof data of the region on core `c`: the arrays as the region finds them; after the body each input's buffer
    at its block and the output's at the head function of the input blocks; the class's invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 16, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

/-! What the body leaves in each window's buffer: an operand's block stays, the result's buffer takes the head
    function of the operand blocks. -/
theorem left1_0 (c : Dev nD) (t : Fin cfg1.N) : (dat1 V c).after 0 t = iblk1 V c 0 t := by dsimp only [dat1]
theorem left1_1 (c : Dev nD) (t : Fin cfg1.N) : (dat1 V c).after 1 t = iblk1 V c 1 t := by dsimp only [dat1]
theorem left1_2 (c : Dev nD) (t : Fin cfg1.N) : (dat1 V c).after 2 t = iblk1 V c 2 t := by dsimp only [dat1]
theorem left1_3 (c : Dev nD) (t : Fin cfg1.N) : (dat1 V c).after 3 t = iblk1 V c 3 t := by dsimp only [dat1]
theorem left1_4 (c : Dev nD) (t : Fin cfg1.N) : (dat1 V c).after 4 t = iblk1 V c 4 t := by dsimp only [dat1]
theorem left1_5 (c : Dev nD) (t : Fin cfg1.N) : (dat1 V c).after 5 t = iblk1 V c 5 t := by dsimp only [dat1]
theorem left1_6 (c : Dev nD) (t : Fin cfg1.N) : (dat1 V c).after 6 t = iblk1 V c 6 t := by dsimp only [dat1]
theorem left1_7 (c : Dev nD) (t : Fin cfg1.N) : (dat1 V c).after 7 t = iblk1 V c 7 t := by dsimp only [dat1]
theorem left1_8 (c : Dev nD) (t : Fin cfg1.N) : (dat1 V c).after 8 t = iblk1 V c 8 t := by dsimp only [dat1]
theorem left1_9 (c : Dev nD) (t : Fin cfg1.N) : (dat1 V c).after 9 t = iblk1 V c 9 t := by dsimp only [dat1]
theorem left1_10 (c : Dev nD) (t : Fin cfg1.N) : (dat1 V c).after 10 t = iblk1 V c 10 t := by dsimp only [dat1]
theorem left1_11 (c : Dev nD) (t : Fin cfg1.N) : (dat1 V c).after 11 t = iblk1 V c 11 t := by dsimp only [dat1]
theorem left1_12 (c : Dev nD) (t : Fin cfg1.N) : (dat1 V c).after 12 t = iblk1 V c 12 t := by dsimp only [dat1]
theorem left1_13 (c : Dev nD) (t : Fin cfg1.N) : (dat1 V c).after 13 t = iblk1 V c 13 t := by dsimp only [dat1]
theorem left1_14 (c : Dev nD) (t : Fin cfg1.N) : (dat1 V c).after 14 t = iblk1 V c 14 t := by dsimp only [dat1]
theorem left1_15 (c : Dev nD) (t : Fin cfg1.N) :
    (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]

/-! Every operand window is fetched at the region's point, so when the body runs its staging buffer holds its block
    (the windows are uncut: the fetch fills the whole buffer). -/
theorem staged1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem staged1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)
theorem staged1_2 (c : Dev nD) (t : Fin cfg1.N) (d) : (dat1 V c).before 2 t d = iblk1 V c 2 t :=
  ((dat1 V c).before_fetched 2 t (fetch1_2 t) d).trans (by unfold Dat.fetched Dat.blockOf iblk1; rw [A_eq1]; try rfl)
theorem staged1_3 (c : Dev nD) (t : Fin cfg1.N) (d) : (dat1 V c).before 3 t d = iblk1 V c 3 t :=
  ((dat1 V c).before_fetched 3 t (fetch1_3 t) d).trans (by unfold Dat.fetched Dat.blockOf iblk1; rw [A_eq1]; try rfl)
theorem staged1_4 (c : Dev nD) (t : Fin cfg1.N) (d) : (dat1 V c).before 4 t d = iblk1 V c 4 t :=
  ((dat1 V c).before_fetched 4 t (fetch1_4 t) d).trans (by unfold Dat.fetched Dat.blockOf iblk1; rw [A_eq1]; try rfl)
theorem staged1_5 (c : Dev nD) (t : Fin cfg1.N) (d) : (dat1 V c).before 5 t d = iblk1 V c 5 t :=
  ((dat1 V c).before_fetched 5 t (fetch1_5 t) d).trans (by unfold Dat.fetched Dat.blockOf iblk1; rw [A_eq1]; try rfl)
theorem staged1_6 (c : Dev nD) (t : Fin cfg1.N) (d) : (dat1 V c).before 6 t d = iblk1 V c 6 t :=
  ((dat1 V c).before_fetched 6 t (fetch1_6 t) d).trans (by unfold Dat.fetched Dat.blockOf iblk1; rw [A_eq1]; try rfl)
theorem staged1_7 (c : Dev nD) (t : Fin cfg1.N) (d) : (dat1 V c).before 7 t d = iblk1 V c 7 t :=
  ((dat1 V c).before_fetched 7 t (fetch1_7 t) d).trans (by unfold Dat.fetched Dat.blockOf iblk1; rw [A_eq1]; try rfl)
theorem staged1_8 (c : Dev nD) (t : Fin cfg1.N) (d) : (dat1 V c).before 8 t d = iblk1 V c 8 t :=
  ((dat1 V c).before_fetched 8 t (fetch1_8 t) d).trans (by unfold Dat.fetched Dat.blockOf iblk1; rw [A_eq1]; try rfl)
theorem staged1_9 (c : Dev nD) (t : Fin cfg1.N) (d) : (dat1 V c).before 9 t d = iblk1 V c 9 t :=
  ((dat1 V c).before_fetched 9 t (fetch1_9 t) d).trans (by unfold Dat.fetched Dat.blockOf iblk1; rw [A_eq1]; try rfl)
theorem staged1_10 (c : Dev nD) (t : Fin cfg1.N) (d) : (dat1 V c).before 10 t d = iblk1 V c 10 t :=
  ((dat1 V c).before_fetched 10 t (fetch1_10 t) d).trans (by unfold Dat.fetched Dat.blockOf iblk1; rw [A_eq1]; try rfl)
theorem staged1_11 (c : Dev nD) (t : Fin cfg1.N) (d) : (dat1 V c).before 11 t d = iblk1 V c 11 t :=
  ((dat1 V c).before_fetched 11 t (fetch1_11 t) d).trans (by unfold Dat.fetched Dat.blockOf iblk1; rw [A_eq1]; try rfl)
theorem staged1_12 (c : Dev nD) (t : Fin cfg1.N) (d) : (dat1 V c).before 12 t d = iblk1 V c 12 t :=
  ((dat1 V c).before_fetched 12 t (fetch1_12 t) d).trans (by unfold Dat.fetched Dat.blockOf iblk1; rw [A_eq1]; try rfl)
theorem staged1_13 (c : Dev nD) (t : Fin cfg1.N) (d) : (dat1 V c).before 13 t d = iblk1 V c 13 t :=
  ((dat1 V c).before_fetched 13 t (fetch1_13 t) d).trans (by unfold Dat.fetched Dat.blockOf iblk1; rw [A_eq1]; try rfl)
theorem staged1_14 (c : Dev nD) (t : Fin cfg1.N) (d) : (dat1 V c).before 14 t d = iblk1 V c 14 t :=
  ((dat1 V c).before_fetched 14 t (fetch1_14 t) d).trans (by unfold Dat.fetched Dat.blockOf iblk1; rw [A_eq1]; try rfl)

/-- What the body is handed at the point: the invariant, what the core owes, and the sixteen staging buffers, -/
def headPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d)))

/-- and what it hands back. -/
def headPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t))

/-- The body at the point: the operands' buffers hold their blocks, so the body's run applies; the invariant and
    what the core owes pass through unread. -/
theorem head_body_at_point (c : Dev nD) (t : Fin cfg1.N) :
    headPre V c t ⊢ wp frame (wpE (defs₀ (F := F)) Variants.none c none) Set.univ (bodyAt1 t) (fun _ => headPost V c t) := by
  unfold headPre headPost bodyAt1
  simp only [staged1_0, staged1_1, staged1_2, staged1_3, staged1_4, staged1_5, staged1_6, staged1_7, staged1_8, staged1_9, staged1_10, staged1_11, staged1_12, staged1_13, staged1_14]
  rw [show (dat1 V c).Φ t.succ = (dat1 V c).Φ t.castSucc from rfl,
    show (dat1 V c).owesAt () t.succ = (dat1 V c).owesAt () t.castSucc from rfl,
    left1_0, left1_1, left1_2, left1_3, left1_4, left1_5, left1_6, left1_7, left1_8, left1_9, left1_10, left1_11, left1_12, left1_13, left1_14, left1_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (head_body_runs c Set.univ _ _ _ _ _ _ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation for the region's proof data. -/
theorem body_obligation1 (c : Dev nD) : BodyObligation (dat1 (F := F) V c) (defs₀ (F := F)) Variants.none () Set.univ := fun t => by
  rw [bigSep_W1, bigSep_W1]
  exact head_body_at_point V c t

/-! ## From the one block to the array

Every window's block is its whole array: each index map is constantly zero and each block has the array's extents, so a
block coordinate IS the array coordinate. -/

theorem iblk1_whole_0 (c : Dev nD) (t : Fin cfg1.N) : iblk1 V c 0 t = V c main_v1 := by
  funext j
  show V c main_v1 (((cfg1.win 0).blk t).view.emb j) = V c main_v1 j
  refine congrArg (V c main_v1) (funext fun a => Fin.ext ?_)
  match a with
    | ⟨0, _⟩ => show win1_0.index t (0 : Fin 2) * 512 + 1 * (j 0).val = (j 0).val; rw [show win1_0.index t (0 : Fin 2) = 0 from rfl]; omega
    | ⟨1, _⟩ => show win1_0.index t (1 : Fin 2) * 1024 + 1 * (j 1).val = (j 1).val; rw [show win1_0.index t (1 : Fin 2) = 0 from rfl]; omega
theorem iblk1_whole_1 (c : Dev nD) (t : Fin cfg1.N) : iblk1 V c 1 t = V c main_v2 := by
  funext j
  show V c main_v2 (((cfg1.win 1).blk t).view.emb j) = V c main_v2 j
  refine congrArg (V c main_v2) (funext fun a => Fin.ext ?_)
  match a with
    | ⟨0, _⟩ => show win1_1.index t (0 : Fin 2) * 1024 + 1 * (j 0).val = (j 0).val; rw [show win1_1.index t (0 : Fin 2) = 0 from rfl]; omega
    | ⟨1, _⟩ => show win1_1.index t (1 : Fin 2) * 1024 + 1 * (j 1).val = (j 1).val; rw [show win1_1.index t (1 : Fin 2) = 0 from rfl]; omega
theorem iblk1_whole_2 (c : Dev nD) (t : Fin cfg1.N) : iblk1 V c 2 t = V c main_arg4 := by
  funext j
  show V c main_arg4 (((cfg1.win 2).blk t).view.emb j) = V c main_arg4 j
  refine congrArg (V c main_arg4) (funext fun a => Fin.ext ?_)
  match a with
    | ⟨0, _⟩ => show win1_2.index t (0 : Fin 1) * 1024 + 1 * (j 0).val = (j 0).val; rw [show win1_2.index t (0 : Fin 1) = 0 from rfl]; omega
theorem iblk1_whole_3 (c : Dev nD) (t : Fin cfg1.N) : iblk1 V c 3 t = V c main_v3 := by
  funext j
  show V c main_v3 (((cfg1.win 3).blk t).view.emb j) = V c main_v3 j
  refine congrArg (V c main_v3) (funext fun a => Fin.ext ?_)
  match a with
    | ⟨0, _⟩ => show win1_3.index t (0 : Fin 2) * 1024 + 1 * (j 0).val = (j 0).val; rw [show win1_3.index t (0 : Fin 2) = 0 from rfl]; omega
    | ⟨1, _⟩ => show win1_3.index t (1 : Fin 2) * 1024 + 1 * (j 1).val = (j 1).val; rw [show win1_3.index t (1 : Fin 2) = 0 from rfl]; omega
theorem iblk1_whole_4 (c : Dev nD) (t : Fin cfg1.N) : iblk1 V c 4 t = V c main_arg6 := by
  funext j
  show V c main_arg6 (((cfg1.win 4).blk t).view.emb j) = V c main_arg6 j
  refine congrArg (V c main_arg6) (funext fun a => Fin.ext ?_)
  match a with
    | ⟨0, _⟩ => show win1_4.index t (0 : Fin 1) * 1024 + 1 * (j 0).val = (j 0).val; rw [show win1_4.index t (0 : Fin 1) = 0 from rfl]; omega
theorem iblk1_whole_5 (c : Dev nD) (t : Fin cfg1.N) : iblk1 V c 5 t = V c main_v4 := by
  funext j
  show V c main_v4 (((cfg1.win 5).blk t).view.emb j) = V c main_v4 j
  refine congrArg (V c main_v4) (funext fun a => Fin.ext ?_)
  match a with
    | ⟨0, _⟩ => show win1_5.index t (0 : Fin 2) * 1024 + 1 * (j 0).val = (j 0).val; rw [show win1_5.index t (0 : Fin 2) = 0 from rfl]; omega
    | ⟨1, _⟩ => show win1_5.index t (1 : Fin 2) * 1024 + 1 * (j 1).val = (j 1).val; rw [show win1_5.index t (1 : Fin 2) = 0 from rfl]; omega
theorem iblk1_whole_6 (c : Dev nD) (t : Fin cfg1.N) : iblk1 V c 6 t = V c main_arg8 := by
  funext j
  show V c main_arg8 (((cfg1.win 6).blk t).view.emb j) = V c main_arg8 j
  refine congrArg (V c main_arg8) (funext fun a => Fin.ext ?_)
  match a with
    | ⟨0, _⟩ => show win1_6.index t (0 : Fin 1) * 1024 + 1 * (j 0).val = (j 0).val; rw [show win1_6.index t (0 : Fin 1) = 0 from rfl]; omega
theorem iblk1_whole_7 (c : Dev nD) (t : Fin cfg1.N) : iblk1 V c 7 t = V c main_v5 := by
  funext j
  show V c main_v5 (((cfg1.win 7).blk t).view.emb j) = V c main_v5 j
  refine congrArg (V c main_v5) (funext fun a => Fin.ext ?_)
  match a with
    | ⟨0, _⟩ => show win1_7.index t (0 : Fin 2) * 1024 + 1 * (j 0).val = (j 0).val; rw [show win1_7.index t (0 : Fin 2) = 0 from rfl]; omega
    | ⟨1, _⟩ => show win1_7.index t (1 : Fin 2) * 1024 + 1 * (j 1).val = (j 1).val; rw [show win1_7.index t (1 : Fin 2) = 0 from rfl]; omega
theorem iblk1_whole_8 (c : Dev nD) (t : Fin cfg1.N) : iblk1 V c 8 t = V c main_arg10 := by
  funext j
  show V c main_arg10 (((cfg1.win 8).blk t).view.emb j) = V c main_arg10 j
  refine congrArg (V c main_arg10) (funext fun a => Fin.ext ?_)
  match a with
    | ⟨0, _⟩ => show win1_8.index t (0 : Fin 1) * 1024 + 1 * (j 0).val = (j 0).val; rw [show win1_8.index t (0 : Fin 1) = 0 from rfl]; omega
theorem iblk1_whole_9 (c : Dev nD) (t : Fin cfg1.N) : iblk1 V c 9 t = V c main_v6 := by
  funext j
  show V c main_v6 (((cfg1.win 9).blk t).view.emb j) = V c main_v6 j
  refine congrArg (V c main_v6) (funext fun a => Fin.ext ?_)
  match a with
    | ⟨0, _⟩ => show win1_9.index t (0 : Fin 2) * 1024 + 1 * (j 0).val = (j 0).val; rw [show win1_9.index t (0 : Fin 2) = 0 from rfl]; omega
    | ⟨1, _⟩ => show win1_9.index t (1 : Fin 2) * 1024 + 1 * (j 1).val = (j 1).val; rw [show win1_9.index t (1 : Fin 2) = 0 from rfl]; omega
theorem iblk1_whole_10 (c : Dev nD) (t : Fin cfg1.N) : iblk1 V c 10 t = V c main_arg12 := by
  funext j
  show V c main_arg12 (((cfg1.win 10).blk t).view.emb j) = V c main_arg12 j
  refine congrArg (V c main_arg12) (funext fun a => Fin.ext ?_)
  match a with
    | ⟨0, _⟩ => show win1_10.index t (0 : Fin 1) * 1024 + 1 * (j 0).val = (j 0).val; rw [show win1_10.index t (0 : Fin 1) = 0 from rfl]; omega
theorem iblk1_whole_11 (c : Dev nD) (t : Fin cfg1.N) : iblk1 V c 11 t = V c main_v7 := by
  funext j
  show V c main_v7 (((cfg1.win 11).blk t).view.emb j) = V c main_v7 j
  refine congrArg (V c main_v7) (funext fun a => Fin.ext ?_)
  match a with
    | ⟨0, _⟩ => show win1_11.index t (0 : Fin 2) * 1024 + 1 * (j 0).val = (j 0).val; rw [show win1_11.index t (0 : Fin 2) = 0 from rfl]; omega
    | ⟨1, _⟩ => show win1_11.index t (1 : Fin 2) * 1024 + 1 * (j 1).val = (j 1).val; rw [show win1_11.index t (1 : Fin 2) = 0 from rfl]; omega
theorem iblk1_whole_12 (c : Dev nD) (t : Fin cfg1.N) : iblk1 V c 12 t = V c main_arg14 := by
  funext j
  show V c main_arg14 (((cfg1.win 12).blk t).view.emb j) = V c main_arg14 j
  refine congrArg (V c main_arg14) (funext fun a => Fin.ext ?_)
  match a with
    | ⟨0, _⟩ => show win1_12.index t (0 : Fin 1) * 1024 + 1 * (j 0).val = (j 0).val; rw [show win1_12.index t (0 : Fin 1) = 0 from rfl]; omega
theorem iblk1_whole_13 (c : Dev nD) (t : Fin cfg1.N) : iblk1 V c 13 t = V c main_v8 := by
  funext j
  show V c main_v8 (((cfg1.win 13).blk t).view.emb j) = V c main_v8 j
  refine congrArg (V c main_v8) (funext fun a => Fin.ext ?_)
  match a with
    | ⟨0, _⟩ => show win1_13.index t (0 : Fin 2) * 1024 + 1 * (j 0).val = (j 0).val; rw [show win1_13.index t (0 : Fin 2) = 0 from rfl]; omega
    | ⟨1, _⟩ => show win1_13.index t (1 : Fin 2) * 1024 + 1 * (j 1).val = (j 1).val; rw [show win1_13.index t (1 : Fin 2) = 0 from rfl]; omega
theorem iblk1_whole_14 (c : Dev nD) (t : Fin cfg1.N) : iblk1 V c 14 t = V c main_arg16 := by
  funext j
  show V c main_arg16 (((cfg1.win 14).blk t).view.emb j) = V c main_arg16 j
  refine congrArg (V c main_arg16) (funext fun a => Fin.ext ?_)
  match a with
    | ⟨0, _⟩ => show win1_14.index t (0 : Fin 1) * 1024 + 1 * (j 0).val = (j 0).val; rw [show win1_14.index t (0 : Fin 1) = 0 from rfl]; omega

/-- The body's result block is the head function of the operand blocks: the store and every load go through whole
    rectangles at zero offsets. -/
theorem out1_15_eq_headK (x1 : Vec F S512x1024 .f32) (x2 : Vec F S1024x1024 .bf16) (x3 : Vec F S1024 .f32) (x4 : Vec F S1024x1024 .bf16) (x5 : Vec F S1024 .f32) (x6 : Vec F S1024x1024 .bf16) (x7 : Vec F S1024 .f32) (x8 : Vec F S1024x1024 .bf16) (x9 : Vec F S1024 .f32) (x10 : Vec F S1024x1024 .bf16) (x11 : Vec F S1024 .f32) (x12 : Vec F S1024x1024 .bf16) (x13 : Vec F S1024 .f32) (x14 : Vec F S1024x1024 .bf16) (x15 : Vec F S1024 .f32) :
    out1_15 x1 x2 x3 x4 x5 x6 x7 x8 x9 x10 x11 x12 x13 x14 x15 = headK x1 x2 x3 x4 x5 x6 x7 x8 x9 x10 x11 x12 x13 x14 x15 := by
  unfold out1_15
  rw [View.canon_unit_zero zeros2]
  simp only [View.ld_unit_zero (S := S512x1024) zeros2, View.ld_unit_zero (S := S1024x1024) zeros2, View.ld_unit_zero (S := S1024) zeros1]

/-- The output window's block is its whole array too: a read of contents through it is the contents. -/
theorem head_block_read (t : Fin cfg1.N) (G : Vec F S512x1024 .f32) :
    ((cfg1.win 15).blk t).view.read (Elt F) G = G := by
  funext j
  show G (((cfg1.win 15).blk t).view.emb j) = G j
  refine congrArg G (funext fun a => Fin.ext ?_)
  match a with
    | ⟨0, _⟩ => show win1_15.index t (0 : Fin 2) * 512 + 1 * (j 0).val = (j 0).val; rw [show win1_15.index t (0 : Fin 2) = 0 from rfl]; omega
    | ⟨1, _⟩ => show win1_15.index t (1 : Fin 2) * 1024 + 1 * (j 1).val = (j 1).val; rw [show win1_15.index t (1 : Fin 2) = 0 from rfl]; omega

/-- Every index of the output array lies in the one point's block. -/
theorem head_block_covers (t : Fin cfg1.N) (i : S512x1024.Idx) : i ∈ ((cfg1.win 15).blk t).view.set := by
  show i ∈ ((View.whole main_v9).slice (win1_15.rect t)).set
  rw [View.set_slice_whole, Rect.mem_set_unit]
  intro a
  match a with
    | ⟨0, _⟩ =>
      show win1_15.index t (0 : Fin 2) * 512 ≤ (i 0).val ∧ (i 0).val < win1_15.index t (0 : Fin 2) * 512 + 512
      have h : (i 0).val < 512 := (i 0).isLt
      rw [show win1_15.index t (0 : Fin 2) = 0 from rfl]; omega
    | ⟨1, _⟩ =>
      show win1_15.index t (1 : Fin 2) * 1024 ≤ (i 1).val ∧ (i 1).val < win1_15.index t (1 : Fin 2) * 1024 + 1024
      have h : (i 1).val < 1024 := (i 1).isLt
      rw [show win1_15.index t (1 : Fin 2) = 0 from rfl]; omega

/-- The output array after the region is the head function of the operand arrays as the region found them: the one
    point writes its block back, the block is the whole array, and the block the body left is the head function of
    the operand blocks, which are the operand arrays. -/
theorem arrAt1_15 (c : Dev nD) :
    (dat1 V c).arrAt 15 cfg1.N = headK (V c main_v1) (V c main_v2) (V c main_arg4) (V c main_v3) (V c main_arg6) (V c main_v4) (V c main_arg8) (V c main_v5) (V c main_arg10) (V c main_v6) (V c main_arg12) (V c main_v7) (V c main_arg14) (V c main_v8) (V c main_arg16) := by
  refine (dat1 V c).arrAt_eq_of_cover 15 _ (fun t _ => ?_) (fun i => ⟨t1_0, flush1_15 t1_0, head_block_covers t1_0 i⟩)
  show (cfg1.win 15).cut (grid1.coords t) ((dat1 V c).after 15 t) = _
  rw [left1_15, out1_15_eq_headK, iblk1_whole_0, iblk1_whole_1, iblk1_whole_2, iblk1_whole_3, iblk1_whole_4, iblk1_whole_5, iblk1_whole_6, iblk1_whole_7, iblk1_whole_8, iblk1_whole_9, iblk1_whole_10, iblk1_whole_11, iblk1_whole_12, iblk1_whole_13, iblk1_whole_14]
  exact (head_block_read t _).symm

end Region1

end Cert.Kernel.Gen

end
-- ==== Proof.K.Launch.lean ====
/-
  The whole program, launched: the flattening of the input, the first linear layer's region, the seven weight
  roundings, the attention head's region. Between two items a core holds every unscoped array whole at named
  contents; the first region leaves the layer's activations in its output array, the head's region reads them
  there and leaves the head function of its fifteen operands in the program's result array; no item writes an
  argument array.
-/
import proofs.«109190_j31490700214886_1_alg».proof.Proof.Gen.Kernel.Launch
import proofs.«109190_j31490700214886_1_alg».proof.Proof.Gen.Kernel.Skeleton
import proofs.«109190_j31490700214886_1_alg».proof.Proof.Gen.Kernel.Points
import proofs.«109190_j31490700214886_1_alg».proof.Proof.Gen.Kernel.Regions
import proofs.«109190_j31490700214886_1_alg».proof.Proof.K.R0Defs
import proofs.«109190_j31490700214886_1_alg».proof.Proof.K.R0Body
import proofs.«109190_j31490700214886_1_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between the items -/

/-- What the first region finds in the TensorCore's arrays: the launch contents, the input flattened. -/
abbrev U1 : (c : Dev nD) → (b : Ref sig .tc) → Buf (Elt F) ((c : Thread nD τ).loc b) := fun c b => V1 m c b

/-- What the first region leaves in its output array: the layer's activations. -/
def o1 (c : Dev nD) : Buf (Elt F) ((c : Thread nD τ).loc main_v1) := (dat0 (U1 m) c).arrAt 3 cfg0.N

/-- The arrays after the first region: as it found them, its output array at the activations. -/
def U2 (c : Dev nD) : Valuation τ sig (Elt F) := Function.update (V1 m c) main_v1 (o1 m c)

/-- What the head's region finds: those, the seven weights rounded. -/
def U3 (c : Dev nD) : Valuation τ sig (Elt F) := StableHlo.after hostOps1 (U2 m c)

/-- What the head's region leaves in the result array. -/
def o9 (c : Dev nD) : Buf (Elt F) ((c : Thread nD τ).loc main_v9) := (dat1 (fun c b => U3 m c b) c).arrAt 15 cfg1.N

/-- What the regions leave in the arrays they may change: the activations in the first region's output array, the
    head's value in the result array. -/
def outs : Outs (F := F) := fun _ r c =>
  if h : r = main_v1 then h ▸ o1 m c else if h : r = main_v9 then h ▸ o9 m c else V1 m c r

theorem outs_v1 (J : ℕ) (c : Dev nD) : outs m J main_v1 c = o1 m c := by
  unfold outs; rw [dif_pos rfl]
theorem outs_v9 (J : ℕ) (c : Dev nD) : outs m J main_v9 c = o9 m c := by
  unfold outs; rw [dif_neg (by decide), dif_pos rfl]

/-- After the first region its output array holds the activations, -/
theorem V2_main_v1 (c : Dev nD) : V2 m (outs m) c main_v1 = o1 m c :=
  (Function.update_self _ _ _).trans (outs_v1 m 2 c)
/-- so the head's region is entered from the contents named above, -/
theorem V3_outs (c : Dev nD) : V3 m (outs m) c = U3 m c := by
  unfold U3 U2; rw [← outs_v1 m 2 c]
/-- and after it the result array holds the head's value. -/
theorem V4_main_v9 (c : Dev nD) : V4 m (outs m) c main_v9 = o9 m c :=
  (Function.update_self _ _ _).trans (outs_v9 m 4 c)

/-! ### What the regions find in their operand arrays -/

/-- The first region's first operand is the input flattened to 512 rows; -/
theorem U1_main_v0 (c : Dev nD) :
    U1 m c main_v0 = shapeCast S512x50176 (m ((c : Thread nD τ).loc main_arg0)) shapeCasts_S512x1024x7x7_S512x50176 := by
  show StableHlo.after hostOps0 (V0 m c) (Proc.devRef .tc main_v0) = _
  after_results; rfl
/-- its weight and bias are the launch's. -/
theorem U1_main_arg1 (c : Dev nD) : U1 m c main_arg1 = m ((c : Thread nD τ).loc main_arg1) :=
  (V1_of m c main_arg1 (by decide)).trans rfl
theorem U1_main_arg2 (c : Dev nD) : U1 m c main_arg2 = m ((c : Thread nD τ).loc main_arg2) :=
  (V1_of m c main_arg2 (by decide)).trans rfl

/-- An array neither region's output nor the flattening's result is the launch's when the head's region is entered, before
    the roundings -/
theorem U2_launch (c : Dev nD) (r : Ref sig .tc) (h1 : r ≠ main_v1) (h0 : r ∉ hostOps0_W) :
    U2 m c r = m ((c : Thread nD τ).loc r) :=
  (Function.update_of_ne (StableHlo.devRef_ne_of_ne h1) _ _).trans ((V1_of m c r h0).trans rfl)
/-- and after them, if no rounding writes it. -/
theorem U3_launch (c : Dev nD) (r : Ref sig .tc) (h1 : r ≠ main_v1) (h0 : r ∉ hostOps0_W) (h3 : r ∉ hostOps1_W) :
    U3 m c r = m ((c : Thread nD τ).loc r) :=
  (StableHlo.after_of_writes_sub hostOps1 _ hostOps1_writes h3).trans (U2_launch m c r h1 h0)

/-- The head's first operand is the activations; -/
theorem U3_main_v1 (c : Dev nD) : U3 m c main_v1 = o1 m c :=
  (StableHlo.after_of_writes_sub hostOps1 _ hostOps1_writes (by decide)).trans (Function.update_self _ _ _)

/-- its weights are the launch's rounded to bf16; -/
theorem U3_main_v2 (c : Dev nD) :
    U3 m c main_v2 = truncf .bf16 (m ((c : Thread nD τ).loc main_arg3) : Vec F S1024x1024 .f32) bitsLt_bf16_f32 := by
  show StableHlo.after hostOps1 (U2 m c) (Proc.devRef .tc main_v2) = _
  after_results
  rw [U2_launch m c main_arg3 (by decide) (by decide)]
theorem U3_main_v3 (c : Dev nD) :
    U3 m c main_v3 = truncf .bf16 (m ((c : Thread nD τ).loc main_arg5) : Vec F S1024x1024 .f32) bitsLt_bf16_f32 := by
  show StableHlo.after hostOps1 (U2 m c) (Proc.devRef .tc main_v3) = _
  after_results
  rw [U2_launch m c main_arg5 (by decide) (by decide)]
theorem U3_main_v4 (c : Dev nD) :
    U3 m c main_v4 = truncf .bf16 (m ((c : Thread nD τ).loc main_arg7) : Vec F S1024x1024 .f32) bitsLt_bf16_f32 := by
  show StableHlo.after hostOps1 (U2 m c) (Proc.devRef .tc main_v4) = _
  after_results
  rw [U2_launch m c main_arg7 (by decide) (by decide)]
theorem U3_main_v5 (c : Dev nD) :
    U3 m c main_v5 = truncf .bf16 (m ((c : Thread nD τ).loc main_arg9) : Vec F S1024x1024 .f32) bitsLt_bf16_f32 := by
  show StableHlo.after hostOps1 (U2 m c) (Proc.devRef .tc main_v5) = _
  after_results
  rw [U2_launch m c main_arg9 (by decide) (by decide)]
theorem U3_main_v6 (c : Dev nD) :
    U3 m c main_v6 = truncf .bf16 (m ((c : Thread nD τ).loc main_arg11) : Vec F S1024x1024 .f32) bitsLt_bf16_f32 := by
  show StableHlo.after hostOps1 (U2 m c) (Proc.devRef .tc main_v6) = _
  after_results
  rw [U2_launch m c main_arg11 (by decide) (by decide)]
theorem U3_main_v7 (c : Dev nD) :
    U3 m c main_v7 = truncf .bf16 (m ((c : Thread nD τ).loc main_arg13) : Vec F S1024x1024 .f32) bitsLt_bf16_f32 := by
  show StableHlo.after hostOps1 (U2 m c) (Proc.devRef .tc main_v7) = _
  after_results
  rw [U2_launch m c main_arg13 (by decide) (by decide)]
theorem U3_main_v8 (c : Dev nD) :
    U3 m c main_v8 = truncf .bf16 (m ((c : Thread nD τ).loc main_arg15) : Vec F S1024x1024 .f32) bitsLt_bf16_f32 := by
  show StableHlo.after hostOps1 (U2 m c) (Proc.devRef .tc main_v8) = _
  after_results
  rw [U2_launch m c main_arg15 (by decide) (by decide)]
/-- its biases are the launch's. -/
theorem U3_main_arg4 (c : Dev nD) : U3 m c main_arg4 = m ((c : Thread nD τ).loc main_arg4) :=
  U3_launch m c main_arg4 (by decide) (by decide) (by decide)
theorem U3_main_arg6 (c : Dev nD) : U3 m c main_arg6 = m ((c : Thread nD τ).loc main_arg6) :=
  U3_launch m c main_arg6 (by decide) (by decide) (by decide)
theorem U3_main_arg8 (c : Dev nD) : U3 m c main_arg8 = m ((c : Thread nD τ).loc main_arg8) :=
  U3_launch m c main_arg8 (by decide) (by decide) (by decide)
theorem U3_main_arg10 (c : Dev nD) : U3 m c main_arg10 = m ((c : Thread nD τ).loc main_arg10) :=
  U3_launch m c main_arg10 (by decide) (by decide) (by decide)
theorem U3_main_arg12 (c : Dev nD) : U3 m c main_arg12 = m ((c : Thread nD τ).loc main_arg12) :=
  U3_launch m c main_arg12 (by decide) (by decide) (by decide)
theorem U3_main_arg14 (c : Dev nD) : U3 m c main_arg14 = m ((c : Thread nD τ).loc main_arg14) :=
  U3_launch m c main_arg14 (by decide) (by decide) (by decide)
theorem U3_main_arg16 (c : Dev nD) : U3 m c main_arg16 = m ((c : Thread nD τ).loc main_arg16) :=
  U3_launch m c main_arg16 (by decide) (by decide) (by decide)

/-! ## The proof data family and the thread state -/

/-- Both regions' proof data, each at what its region finds. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (fun c b => U3 m c b) c

/-- No core owes another anything: no level is assigned. -/
abbrev Lz : GSem nD τ sig → Finset Unit := fun _ => ∅
abbrev lvz : GSem nD τ sig → Unit → ℕ := fun _ _ => 0

/-- Beside the arrays a core keeps its generator register, at some state, and owes nothing. -/
abbrev Rst (c : Dev nD) : sProp 𝕄 :=
  iprop((∃ r, prngReg c r) ∗ ∃ W, owes (c : Thread nD τ) (0 : CellTallies nD τ sig Unit) W)

/-- An unscoped array is among those a core holds between two items. -/
theorem mem_held (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ### Where each region's arrays end -/

/-- When the first region ends, its three operand arrays hold what it found and its output array the activations: the
    contents named after it. -/
theorem ends0 (c : Dev nD) :
    ∀ w : Fin 4, (dat0 (U1 m) c).arrAt w cfg0.N = V2 m (outs m) c (Pipeline.arrRef spec0 w)
  | ⟨0, _⟩ => (((dat0 (U1 m) c).arrAt_in 0 rfl _).trans (A_eq0 (U1 m) c 0)).trans (V2_of m (outs m) c main_v0 (by decide)).symm
  | ⟨1, _⟩ => (((dat0 (U1 m) c).arrAt_in 1 rfl _).trans (A_eq0 (U1 m) c 1)).trans (V2_of m (outs m) c main_arg1 (by decide)).symm
  | ⟨2, _⟩ => (((dat0 (U1 m) c).arrAt_in 2 rfl _).trans (A_eq0 (U1 m) c 2)).trans (V2_of m (outs m) c main_arg2 (by decide)).symm
  | ⟨3, _⟩ => (V2_main_v1 m c).symm
/-- Every array that is none of the first region's is as the region found it. -/
theorem rest0 (c : Dev nD) (b : Ref sig .tc) (hb : b ∉ Finset.univ.image (Pipeline.arrRef spec0)) :
    V2 m (outs m) c b = U1 m c b :=
  V2_of m (outs m) c b fun h =>
    hb (Finset.mem_image.mpr ⟨3, Finset.mem_univ _, (List.mem_singleton.mp h).symm⟩)

/-- When the head's region ends, its fifteen operand arrays hold what it found and the result array the head's value. -/
theorem ends1 (c : Dev nD) (w : Fin 16) :
    (dat1 (fun c b => U3 m c b) c).arrAt w cfg1.N = V4 m (outs m) c (Pipeline.arrRef spec1 w) := by
  by_cases hw : w = 15
  · subst hw; exact (V4_main_v9 m c).symm
  · have hin : (cfg1.win w).isOut = false := by revert w; decide
    have hne : Pipeline.arrRef spec1 w ∉ ([main_v9] : List (Ref sig .tc)) := by revert w; decide
    rw [(dat1 (fun c b => U3 m c b) c).arrAt_in w hin, A_eq1, V4_of m (outs m) c _ hne, V3_outs]
/-- Every array that is none of the head's is as the region found it. -/
theorem rest1 (c : Dev nD) (b : Ref sig .tc) (hb : b ∉ Finset.univ.image (Pipeline.arrRef spec1)) :
    V4 m (outs m) c b = U3 m c b :=
  (V4_of m (outs m) c b fun h =>
    hb (Finset.mem_image.mpr ⟨15, Finset.mem_univ _, (List.mem_singleton.mp h).symm⟩)).trans (congrFun (V3_outs m c) _)

/-! ## The regions as segments -/

set_option backward.isDefEq.respectTransparency.types false in
/-- The first linear layer's region between the thread states before and after it: its four arrays taken out of the
    unscoped arrays at what the region finds and put back at what it leaves; the generator register and the scoped rest
    into the accumulator's invariant at its first end and out of it at its last; nothing owed; no semaphore of the
    kernel's own. -/
def reg0 : RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ Lz lvz 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hbufs, Hreg, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩
      iexists W
      isplitr; · ipureintro; exact fun _ _ => Or.inl trivial
      iexact Howe
    isplitl [Hreg]; · iexact Hreg
    iexact Hrest
  hin c := by
    refine .trans ?_ (hin0 (U1 m) c)
    unfold Pipeline.ΦA
    iintro ⟨Hreg, -, Hsc⟩
    isplitl [Hsc]; · iexact Hsc
    iexact Hreg
  hout c := by
    rw [Pipeline.ownSems0_none]
    refine (hout0 (U1 m) c).trans ?_
    unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (fun b => V2 m (outs m) c b) ((pdats m 0 c).arrAt · cfg0.N) (ends0 m c) (rest0 m c)
    rw [Pipeline.unscopedBufs_held] at hjoin
    iintro ⟨Harr, Howe, Hreg, Hrest⟩
    imodintro
    isplitl [Harr Hrest]
    · iapply hjoin; isplitl [Harr] <;> iassumption
    isplitl [Hreg]; · iexact Hreg
    unfold Pipeline.Dat.owesAt Pipeline.owesWithin
    icases Howe with ⟨%W, -, Howe⟩
    iexists W; iexact Howe

set_option backward.isDefEq.respectTransparency.types false in
/-- The head's region between the thread states before and after it: its sixteen arrays taken out of the unscoped
    arrays at what the region finds (the activations, the rounded weights, the biases) and put back at what it leaves;
    the generator register and the scoped rest through the region's invariant; nothing owed; no semaphore of the
    kernel's own. -/
def reg1 : RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (fun c b => U3 m c b) c).loose
  hwaits := Pipeline.hwaits_of_owed_zero _ _ _ _ Lz lvz 1 fun _ _ => rfl
  pre c := iprop(StableHlo.held (c : Thread nD τ) (Pipeline.ucRefs τ sig) (V3 m (outs m) c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (fun b => U3 m c b)
  hentry c := by
    rw [Pipeline.ownSems0_none, V3_outs]
    have hsplit := Pipeline.arrays_of_unscopedBufs (p := 1) (pcfgs (F := F)) adm (pdats m) launch1.win launch1.arr_whole c
      ((pdats m 1 c).share_full fun _ => rfl) (fun b => U3 m c b) fun _ => rfl
    rw [Pipeline.unscopedBufs_held] at hsplit
    iintro ⟨⟨Hbufs, Hreg, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩
      iexists W
      isplitr; · ipureintro; exact fun _ _ => Or.inl trivial
      iexact Howe
    isplitl [Hreg]; · iexact Hreg
    iexact Hrest
  hin c := by
    rw [show (pdats m 1 c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]; unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => U3 m c b) (fun b => V4 m (outs m) c b) ((pdats m 1 c).arrAt · cfg1.N) (ends1 m c) (rest1 m c)
    rw [Pipeline.unscopedBufs_held] at hjoin
    iintro ⟨Harr, Howe, Hreg, Hrest⟩
    imodintro
    isplitl [Harr Hrest]
    · iapply hjoin; isplitl [Harr] <;> iassumption
    isplitl [Hreg]; · iexact Hreg
    unfold Pipeline.Dat.owesAt Pipeline.owesWithin
    icases Howe with ⟨%W, -, Howe⟩
    iexists W; iexact Howe

/-! ## The launch -/

/-- The launch's ghost element is the pipelines' own; no core is given anything besides. -/
theorem launch_elt :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · iempintro

/-- From what the launch deals a core, its generator register and its owing nothing are kept beside the arrays. -/
theorem rest_launch :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
      ⊢ (|={Set.univ}=> bigSep Finset.univ (Rst (F := F)) : sProp 𝕄) := by
  refine Pipeline.initEach Lz lvz fun c => ?_
  iintro ⟨⟨-, Howe, -, Hreg, -⟩, -⟩
  imodintro
  isplitl [Hreg]; · iexists _; iexact Hreg
  iexists ∅; iexact Howe

/-- At the end a core owes nothing. -/
theorem rest_end (c : Dev nD) :
    Rst (F := F) c ⊢ (iprop(∃ W, owes (c : Thread nD τ) (0 : CellTallies nD τ sig Unit) W) : sProp 𝕄) := by
  iintro ⟨-, Howe⟩; iexact Howe

set_option backward.isDefEq.respectTransparency.types false in
/-- THE FRAME: from any memory with zero counters every weakly fair execution of the program terminates and every
    argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_cond m emb₁ () Variants.none Lz lvz (fun _ _ => rfl) ρ (outs m) (pdats m) 0 (fun _ => iprop(emp))
    (initOf (Pipeline.cells cfgs cellOf_inj) (Pipeline.launchToks cfgs cellOf_inj)) launch_elt
    (fun _ => Rst) (rest_launch ρ) rest_end
    (reg0 m) (fun _ => .rfl) (fun _ => .rfl) (reg1 m) (fun _ => .rfl) (fun _ => .rfl)

set_option backward.isDefEq.respectTransparency.types false in
/-- THE RUN WITH ITS VALUE: moreover the result array ends holding the head's value of what the head's region found. -/
theorem run_value : θ_run defs (onTc (τ := τ) (main (F := F))) ⟨m, fun _ => 0, ρ⟩ (fun r => ∀ c : Dev nD,
      r.2.mem ((c.tc : Thread nD τ).loc main_v9) = o9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine Pipeline.θ_run_regions_kit_dev (pcfgs (F := F)) adm (pdats m) () cellOf_inj emb₁ defs₀ Variants.none Lz lvz m ρ main
    (segs m (outs m) Variants.none Lz lvz (fun _ => Rst) () (pdats m) (reg0 m) (reg1 m))
    (fun c Q => by
      rewrite [main_chain c, Seg.run_eq_chain]
      exact .rfl)
    (fun c => by simp only [segs, Seg.pipes_host, Seg.pipes_region, Seg.pipes_nil]; decide)
    0 (fun _ _ => rfl) (fun _ => iprop(emp))
    (initOf (Pipeline.cells cfgs cellOf_inj) (Pipeline.launchToks cfgs cellOf_inj)) launch_elt
    (T₀ := fun c => iprop(StableHlo.held (c : Thread nD τ) (Pipeline.ucRefs τ sig) (V0 m c) ∗ Rst c))
    (Tₙ := fun c => StableHlo.held (c : Thread nD τ) (Pipeline.ucRefs τ sig) (V4 m (outs m) c))
    (hch := fun c => ⟨.rfl, .rfl, .rfl, .rfl, sep_mono .rfl (rest_end c)⟩)
    (hinit := ?_)
    (QY := fun c s => s.mem ((c.tc : Thread nD τ).loc main_v9) = o9 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16))
    (hfin := fun c s' => ?_) (hQ := fun _ h => h)
  · -- the launch: every core's unscoped arrays at the launch contents, its register and its owing nothing beside them
    refine Pipeline.initEach Lz lvz fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hbufs, -, Howe, -, Hreg, -⟩, -⟩
    imodintro
    isplitl [Hbufs]; · iexact Hbufs
    isplitl [Hreg]; · iexists _; iexact Hreg
    iexists ∅; iexact Howe
  · -- the end: the result array and each argument array read off the last contents
    unfold StableHlo.held
    iintro ⟨Hbufs, HSI⟩
    ihave Hr := (pointsTo_read_all (Pipeline.ucRefs τ sig) (fun b => ((c : Thread nD τ).1, b)) (V4 m (outs m) c) s') $$ [Hbufs HSI]
    · isplitl [Hbufs] <;> iassumption
    icases Hr with ⟨%h, HSI⟩
    imodintro
    isplitr
    · ipureintro
      exact ⟨(h _ (mem_held main_v9 (by decide))).trans (V4_main_v9 m c),
        (h _ (mem_held main_arg0 (by decide))).trans (V4_main_arg0 m (outs m) c),
        (h _ (mem_held main_arg1 (by decide))).trans (V4_main_arg1 m (outs m) c),
        (h _ (mem_held main_arg2 (by decide))).trans (V4_main_arg2 m (outs m) c),
        (h _ (mem_held main_arg3 (by decide))).trans (V4_main_arg3 m (outs m) c),
        (h _ (mem_held main_arg4 (by decide))).trans (V4_main_arg4 m (outs m) c),
        (h _ (mem_held main_arg5 (by decide))).trans (V4_main_arg5 m (outs m) c),
        (h _ (mem_held main_arg6 (by decide))).trans (V4_main_arg6 m (outs m) c),
        (h _ (mem_held main_arg7 (by decide))).trans (V4_main_arg7 m (outs m) c),
        (h _ (mem_held main_arg8 (by decide))).trans (V4_main_arg8 m (outs m) c),
        (h _ (mem_held main_arg9 (by decide))).trans (V4_main_arg9 m (outs m) c),
        (h _ (mem_held main_arg10 (by decide))).trans (V4_main_arg10 m (outs m) c),
        (h _ (mem_held main_arg11 (by decide))).trans (V4_main_arg11 m (outs m) c),
        (h _ (mem_held main_arg12 (by decide))).trans (V4_main_arg12 m (outs m) c),
        (h _ (mem_held main_arg13 (by decide))).trans (V4_main_arg13 m (outs m) c),
        (h _ (mem_held main_arg14 (by decide))).trans (V4_main_arg14 m (outs m) c),
        (h _ (mem_held main_arg15 (by decide))).trans (V4_main_arg15 m (outs m) c),
        (h _ (mem_held main_arg16 (by decide))).trans (V4_main_arg16 m (outs m) c)⟩
    · iexact HSI

end Cert.Kernel.Gen

end
-- ==== Proof.KI.R0Defs.lean ====
/-
  The first linear layer's region (the pallas_call with grid 2 x 28): the data its frame and its value are
  stated over. Grid point t = 28 * mi + ki handles rows 256*mi .. 256*mi+255 of the output and columns
  1792*ki .. 1792*ki+1791 of the contracted axis. A scratch accumulator of shape 256 x 1024 is carried from
  point to point: it is reset at ki = 0, a block product is added to it at every point, and at ki = 27 the
  bias is added and the sum is stored to the output block, which the pipeline writes back there and only
  there.
-/
import proofs.«109190_j31490700214886_1_alg».proof.Proof.Gen.KernelIdeal.Launch
import proofs.«109190_j31490700214886_1_alg».proof.Proof.Gen.KernelIdeal.Skeleton
import proofs.«109190_j31490700214886_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 256 x 1792 block of the flattened input at point `t`. -/
abbrev xblk (c : Dev nD) (t : Fin cfg0.N) : Vec F S256x1792 .f32 := iblk0 V c 0 t
/-- The 1024 x 1792 block of the weight at point `t`. -/
abbrev wblk (c : Dev nD) (t : Fin cfg0.N) : Vec F S1024x1792 .f32 := iblk0 V c 1 t
/-- The bias (its one block) at point `t`. -/
abbrev bblk (c : Dev nD) (t : Fin cfg0.N) : Vec F S1024 .f32 := iblk0 V c 2 t

/-- What the accumulator holds after the body at position `n`: the block product of that point added to zero at
    the first point of a row block (n ≡ 0 mod 28), and to what the point before left otherwise. -/
def accAt0 (c : Dev nD) : (n : ℕ) → n < cfg0.N → Vec F S256x1024 .f32
  | 0, hn => k0_pay2 (xblk V c ⟨0, hn⟩) (wblk V c ⟨0, hn⟩) (k0_pay1 (F := F))
  | n + 1, hn =>
    if (n + 1) % 28 = 0 then k0_pay2 (xblk V c ⟨n + 1, hn⟩) (wblk V c ⟨n + 1, hn⟩) (k0_pay1 (F := F))
    else k0_pay2 (xblk V c ⟨n + 1, hn⟩) (wblk V c ⟨n + 1, hn⟩) (accAt0 c n (Nat.lt_of_succ_lt hn))

theorem accAt0_reset (c : Dev nD) (t : Fin cfg0.N) (h : t.val % 28 = 0) :
    accAt0 V c t.val t.isLt = k0_pay2 (xblk V c t) (wblk V c t) (k0_pay1 (F := F)) := by
  obtain ⟨n, hn⟩ := t
  cases n with
  | zero => rfl
  | succ n => exact if_pos h

theorem accAt0_step (c : Dev nD) (t : Fin cfg0.N) (h : ¬ t.val % 28 = 0) :
    accAt0 V c t.val t.isLt
      = k0_pay2 (xblk V c t) (wblk V c t) (accAt0 V c (t.val - 1) (Nat.lt_of_le_of_lt (Nat.sub_le _ _) t.isLt)) := by
  obtain ⟨n, hn⟩ := t
  cases n with
  | zero => exact absurd (Nat.zero_mod _) h
  | succ n => exact if_neg h

/-- The scratch accumulator as a memref. -/
abbrev scM0 : Memref sig .tc .vmem S256x1024 .f32 := Memref.whole cc0_scratch0

/-- The region's invariant before position `n`: before the first point the scoped rest at anything and the generator
    register; afterwards the accumulator at what the point before left, the other scoped buffers no window of this region stages
    (the later region's staging buffers) at anything, and the generator register. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of the region on core `c`: the arrays as the region finds them; after the body at point `t`
    each input's buffer at its block and the output's at the accumulator plus the bias; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt) (bblk V c t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (accAt0 V c t.val t.isLt) (bblk V c t) := by dsimp only [dat0]
theorem Phi0_castSucc (c : Dev nD) (t : Fin cfg0.N) :
    (dat0 V c).Φ t.castSucc = PhiS0 V c t.val (Nat.le_of_lt t.isLt) := by
  dsimp only [dat0]; simp only [Fin.coe_castSucc]

end Region0

end Cert.KernelIdeal.Gen

end
-- ==== Proof.KI.R0Body.lean ====
/-
  The first linear layer's region: its body obligation. At every grid point the body adds the point's block product
  to the carried accumulator (after resetting it at the first point of a row block) and, at the last point of a row
  block, stores accumulator plus bias to the output block. Three cases by the position ki = t mod 28 in the row
  block: first (ki = 0), middle, last (ki = 27).
-/
import proofs.«109190_j31490700214886_1_alg».proof.Proof.Gen.KernelIdeal.Launch
import proofs.«109190_j31490700214886_1_alg».proof.Proof.Gen.KernelIdeal.Skeleton
import proofs.«109190_j31490700214886_1_alg».proof.Proof.Gen.KernelIdeal.Points
import proofs.«109190_j31490700214886_1_alg».proof.Proof.KI.R0Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions of the body, in closed form over the 56 grid points -/

/-- The body resets the accumulator: the position in the row block is zero. -/
abbrev isFirst0 (i : grid0.Coords) : Prop :=
  (Scalar.cmpi .ne (Scalar.extui (Scalar.cmpi .eq (BitVec.ofNat 32 (i 1).val) 0#32)) 0#32) = 1#1
/-- The body adds the bias and stores the output block: the position in the row block is the last one. -/
abbrev isLast0 (i : grid0.Coords) : Prop := k0_cond2 i = 1#1

/-- The reset happens exactly at the points t ≡ 0 (mod 28). -/
theorem isFirst0_iff : ∀ t : Fin cfg0.N, isFirst0 (grid0.coords t) ↔ t.val % 28 = 0 :=
  (by decide +kernel : ∀ t : Fin grid0.N, isFirst0 (grid0.coords t) ↔ t.val % 28 = 0)
/-- The output store happens exactly at the points t ≡ 27 (mod 28). -/
theorem isLast0_iff : ∀ t : Fin cfg0.N, isLast0 (grid0.coords t) ↔ t.val % 28 = 27 :=
  (by decide +kernel : ∀ t : Fin grid0.N, isLast0 (grid0.coords t) ↔ t.val % 28 = 27)

/-! ## Whole-rectangle offsets are zero offsets -/

theorem zeroOff_x : (![0, 0] : Fin S256x1792.rank → Nat) = fun _ => 0 := by
  funext a; fin_cases a <;> rfl
theorem zeroOff_w : (![0, 0] : Fin S1024x1792.rank → Nat) = fun _ => 0 := by
  funext a; fin_cases a <;> rfl
theorem zeroOff_acc : (![0, 0] : Fin S256x1024.rank → Nat) = fun _ => 0 := by
  funext a; fin_cases a <;> rfl
theorem zeroOff_b : (![0] : Fin S1024.rank → Nat) = fun _ => 0 := by
  funext a; fin_cases a; rfl

/-! ## The body on any whole memrefs, case by case -/

set_option maxHeartbeats 1000000 in
/-- First point of a row block (ki = 0, not the last): the accumulator, whatever it held, ends at the block product
    added to zero; the inputs and the output buffer are handed back as they were. -/
theorem run0_first (c : Dev nD) (i : grid0.Coords)
    (arg2 : Memref sig .tc .vmem S256x1792 .f32) (harg2 : arg2.IsWhole)
    (arg3 : Memref sig .tc .vmem S1024x1792 .f32) (harg3 : arg3.IsWhole)
    (arg4 : Memref sig .tc .vmem S1024 .f32) (harg4 : arg4.IsWhole)
    (arg5 : Memref sig .tc .vmem S256x1024 .f32) (harg5 : arg5.IsWhole)
    (arg6 : Memref sig .tc .vmem S256x1024 .f32) (harg6 : arg6.IsWhole)
    (hc0 : isFirst0 i) (hc1 : ¬ isLast0 i)
    (x : Vec F S256x1792 .f32) (w : Vec F S1024x1792 .f32) (b : Vec F S1024 .f32) (o : Vec F S256x1024 .f32)
    (E : Set ℕ) (K : PUnit → sProp 𝕄) :
    iprop(owns (c : Thread nD τ) arg2 fullShare x ∗ owns (c : Thread nD τ) arg3 fullShare w
        ∗ owns (c : Thread nD τ) arg4 fullShare b ∗ owns (c : Thread nD τ) arg5 fullShare o
        ∗ (∃ d, owns (c : Thread nD τ) arg6 fullShare d)
        ∗ (iprop(owns (c : Thread nD τ) arg2 fullShare x ∗ owns (c : Thread nD τ) arg3 fullShare w
            ∗ owns (c : Thread nD τ) arg4 fullShare b ∗ owns (c : Thread nD τ) arg5 fullShare o
            ∗ owns (c : Thread nD τ) arg6 fullShare (k0_pay2 x w (k0_pay1 (F := F)))) -∗ K ⟨⟩))
      ⊢ wp frame (wpE (defs₀ (F := F)) Variants.none c none) E (cc0__fc1_kernel i arg2 harg2 arg3 harg3 arg4 harg4 arg5 harg5 arg6 harg6) K := by
  simp only [cc0__fc1_kernel_eq_skeleton]; unfold cc0__fc1_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_words
  rw [View.read_writes_eq_canon _ _ _ (fun y => ⟨_, List.mem_cons_self .., View.mem_set_unit_zero zeroOff_acc inb_S256x1024_S256x1024_0_0 y⟩)]
  rw [View.canon_cons_unit_zero zeroOff_acc]
  simp only [View.readAt_eq_ld, harg2.read_unread, harg3.read_unread, View.ld_unit_zero (S := S256x1792) zeroOff_x,
    View.ld_unit_zero (S := S1024x1792) zeroOff_w, View.readCov_unit_zero (S := S256x1024) _ zeroOff_acc]

set_option maxHeartbeats 1000000 in
/-- A middle point of a row block (neither first nor last): the accumulator goes from `a` to the block product added
    to `a`; the inputs and the output buffer are handed back as they were. -/
theorem run0_mid (c : Dev nD) (i : grid0.Coords)
    (arg2 : Memref sig .tc .vmem S256x1792 .f32) (harg2 : arg2.IsWhole)
    (arg3 : Memref sig .tc .vmem S1024x1792 .f32) (harg3 : arg3.IsWhole)
    (arg4 : Memref sig .tc .vmem S1024 .f32) (harg4 : arg4.IsWhole)
    (arg5 : Memref sig .tc .vmem S256x1024 .f32) (harg5 : arg5.IsWhole)
    (arg6 : Memref sig .tc .vmem S256x1024 .f32) (harg6 : arg6.IsWhole)
    (hc0 : ¬ isFirst0 i) (hc1 : ¬ isLast0 i)
    (x : Vec F S256x1792 .f32) (w : Vec F S1024x1792 .f32) (b : Vec F S1024 .f32) (o : Vec F S256x1024 .f32)
    (a : Vec F S256x1024 .f32)
    (E : Set ℕ) (K : PUnit → sProp 𝕄) :
    iprop(owns (c : Thread nD τ) arg2 fullShare x ∗ owns (c : Thread nD τ) arg3 fullShare w
        ∗ owns (c : Thread nD τ) arg4 fullShare b ∗ owns (c : Thread nD τ) arg5 fullShare o
        ∗ owns (c : Thread nD τ) arg6 fullShare a
        ∗ (iprop(owns (c : Thread nD τ) arg2 fullShare x ∗ owns (c : Thread nD τ) arg3 fullShare w
            ∗ owns (c : Thread nD τ) arg4 fullShare b ∗ owns (c : Thread nD τ) arg5 fullShare o
            ∗ owns (c : Thread nD τ) arg6 fullShare (k0_pay2 x w a)) -∗ K ⟨⟩))
      ⊢ wp frame (wpE (defs₀ (F := F)) Variants.none c none) E (cc0__fc1_kernel i arg2 harg2 arg3 harg3 arg4 harg4 arg5 harg5 arg6 harg6) K := by
  simp only [cc0__fc1_kernel_eq_skeleton]; unfold cc0__fc1_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_words
  rw [View.read_writes_eq_canon _ _ _ (fun y => ⟨_, List.mem_cons_self .., View.mem_set_unit_zero zeroOff_acc inb_S256x1024_S256x1024_0_0 y⟩)]
  rw [View.canon_cons_unit_zero zeroOff_acc]
  simp only [View.readAt_eq_ld, harg2.read_unread, harg3.read_unread, harg6.read_unread, View.ld_unit_zero (S := S256x1792) zeroOff_x,
    View.ld_unit_zero (S := S1024x1792) zeroOff_w, View.ld_unit_zero (S := S256x1024) zeroOff_acc]

set_option maxHeartbeats 1000000 in
/-- The last point of a row block (ki = 27): the accumulator goes from `a` to the block product added to `a`, and the
    output buffer, whatever it held, ends at that sum plus the bias; the inputs are handed back as they were. -/
theorem run0_last (c : Dev nD) (i : grid0.Coords)
    (arg2 : Memref sig .tc .vmem S256x1792 .f32) (harg2 : arg2.IsWhole)
    (arg3 : Memref sig .tc .vmem S1024x1792 .f32) (harg3 : arg3.IsWhole)
    (arg4 : Memref sig .tc .vmem S1024 .f32) (harg4 : arg4.IsWhole)
    (arg5 : Memref sig .tc .vmem S256x1024 .f32) (harg5 : arg5.IsWhole)
    (arg6 : Memref sig .tc .vmem S256x1024 .f32) (harg6 : arg6.IsWhole)
    (hc0 : ¬ isFirst0 i) (hc1 : isLast0 i)
    (x : Vec F S256x1792 .f32) (w : Vec F S1024x1792 .f32) (b : Vec F S1024 .f32)
    (a : Vec F S256x1024 .f32)
    (E : Set ℕ) (K : PUnit → sProp 𝕄) :
    iprop(owns (c : Thread nD τ) arg2 fullShare x ∗ owns (c : Thread nD τ) arg3 fullShare w
        ∗ owns (c : Thread nD τ) arg4 fullShare b ∗ (∃ d, owns (c : Thread nD τ) arg5 fullShare d)
        ∗ owns (c : Thread nD τ) arg6 fullShare a
        ∗ (iprop(owns (c : Thread nD τ) arg2 fullShare x ∗ owns (c : Thread nD τ) arg3 fullShare w
            ∗ owns (c : Thread nD τ) arg4 fullShare b ∗ owns (c : Thread nD τ) arg5 fullShare (k0_pay3 (k0_pay2 x w a) b)
            ∗ owns (c : Thread nD τ) arg6 fullShare (k0_pay2 x w a)) -∗ K ⟨⟩))
      ⊢ wp frame (wpE (defs₀ (F := F)) Variants.none c none) E (cc0__fc1_kernel i arg2 harg2 arg3 harg3 arg4 harg4 arg5 harg5 arg6 harg6) K := by
  simp only [cc0__fc1_kernel_eq_skeleton]; unfold cc0__fc1_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [View.read_writes_eq_canon _ _ _ (fun y => ⟨_, List.mem_cons_self .., View.mem_set_unit_zero zeroOff_acc inb_S256x1024_S256x1024_0_0 y⟩)]
    rw [View.canon_cons_unit_zero zeroOff_acc]
    simp only [View.readAt_eq_ld, harg2.read_unread, harg3.read_unread, harg4.read_unread, harg6.read_unread,
      View.ld_unit_zero (S := S256x1792) zeroOff_x, View.ld_unit_zero (S := S1024x1792) zeroOff_w,
      View.ld_unit_zero (S := S256x1024) zeroOff_acc, View.ld_unit_zero (S := S1024) zeroOff_b,
      View.readCov_unit_zero (S := S256x1024) _ zeroOff_acc]
  iexists _; isplitr
  swap; · iexact H6
  ipureintro
  sl_unfold_words
  rw [View.read_writes_eq_canon _ _ _ (fun y => ⟨_, List.mem_cons_self .., View.mem_set_unit_zero zeroOff_acc inb_S256x1024_S256x1024_0_0 y⟩)]
  rw [View.canon_cons_unit_zero zeroOff_acc]
  simp only [View.readAt_eq_ld, harg2.read_unread, harg3.read_unread, harg6.read_unread, View.ld_unit_zero (S := S256x1792) zeroOff_x,
    View.ld_unit_zero (S := S1024x1792) zeroOff_w, View.ld_unit_zero (S := S256x1024) zeroOff_acc]

/-! ## Where the windows are live, and where the output window is idle -/

/-- The three input windows are live at every point. -/
theorem live0_x : ∀ t : Fin cfg0.N, cfg0.idle 0 (grid0.coords t) = false := by decide +kernel
theorem live0_w : ∀ t : Fin cfg0.N, cfg0.idle 1 (grid0.coords t) = false := by decide +kernel
theorem live0_b : ∀ t : Fin cfg0.N, cfg0.idle 2 (grid0.coords t) = false := by decide +kernel
/-- Away from the last point of a row block the output window is idle, -/
theorem idle0_out : ∀ t : Fin cfg0.N, ¬ isLast0 (grid0.coords t) → cfg0.idle 3 (grid0.coords t) = true := by decide +kernel
/-- and its block is not written back there; -/
theorem noFlush0_out : ∀ t : Fin cfg0.N, ¬ isLast0 (grid0.coords t) → (cfg0.win 3).flush t = false := by decide +kernel
/-- at the last point of a row block it is live. -/
theorem live0_out : ∀ t : Fin cfg0.N, isLast0 (grid0.coords t) → cfg0.idle 3 (grid0.coords t) = false := by decide +kernel

/-! ## The staging memrefs the body is called with at a point -/

abbrev mx0 (t : Fin cfg0.N) : Memref sig .tc .vmem S256x1792 .f32 := win0_0.stage (cfg0.slots t 0)
abbrev hmx0 (t : Fin cfg0.N) : (mx0 t).IsWhole := hstage0_0 ((cfg0.slots t 0).cast nbuf0_0)
abbrev mw0 (t : Fin cfg0.N) : Memref sig .tc .vmem S1024x1792 .f32 := win0_1.stage (cfg0.slots t 1)
abbrev hmw0 (t : Fin cfg0.N) : (mw0 t).IsWhole := hstage0_1 ((cfg0.slots t 1).cast nbuf0_1)
abbrev mb0 (t : Fin cfg0.N) : Memref sig .tc .vmem S1024 .f32 := win0_2.stage (cfg0.slots t 2)
abbrev hmb0 (t : Fin cfg0.N) : (mb0 t).IsWhole := hstage0_2 ((cfg0.slots t 2).cast nbuf0_2)
abbrev mo0 (t : Fin cfg0.N) : Memref sig .tc .vmem S256x1024 .f32 := win0_3.stage (cfg0.slots t 3)
abbrev hmo0 (t : Fin cfg0.N) : (mo0 t).IsWhole := hstage0_3 ((cfg0.slots t 3).cast nbuf0_3)

/-- The scoped buffers of the core that are neither a staging buffer of this region nor its accumulator. -/
abbrev otherScoped0 (c : Dev nD) : sProp 𝕄 :=
  Pipeline.scopedRestBut (Ix := Unit) (Name := ℕ) (U := UR sig nD τ) (Lvl := ℕ) (Val := Elt F) spec0 c [cc0_scratch0]

/-- What the launch hands the region, with the accumulator split off as a memref owned at something. -/
theorem PhiA0_split (c : Dev nD) :
    (Pipeline.ΦA spec0 c : sProp 𝕄)
      = iprop(iprop((∃ d, owns (c : Thread nD τ) scM0 fullShare d) ∗ otherScoped0 (F := F) c) ∗ (∃ r, prngReg c r)) := by
  unfold Pipeline.ΦA
  rw [Pipeline.scopedRest_split_of_list spec0 c [cc0_scratch0] (by decide) (by decide)]
  simp only [scM0, owns_whole]
  rfl

section Region0
variable (V : (c : Dev nD) → (b : Ref sig .tc) → Buf (Elt F) ((c : Thread nD τ).loc b))

/-! ## The input windows hold their blocks at every point -/

/-- The flattened input's staging buffer holds its 256 x 1792 block at every point. -/
theorem before0_x (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
/-- The weight's staging buffer holds its 1024 x 1792 block at every point. -/
theorem before0_w (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
/-- The bias's staging buffer holds the bias at every point (it is fetched once, and its index never moves). -/
theorem before0_b (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body obligation at a point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (mx0 t) fullShare ((dat0 V c).before 0 t d))
    ∗ (∃ d, owns (c : Thread nD τ) (mw0 t) fullShare ((dat0 V c).before 1 t d))
    ∗ (∃ d, owns (c : Thread nD τ) (mb0 t) fullShare ((dat0 V c).before 2 t d))
    ∗ (∃ d, owns (c : Thread nD τ) (mo0 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The input buffers hold their blocks; the position in the row block selects the case. At the
    first point of a row block the accumulator (at anything at the very first point, at what the previous row block left
    otherwise) is reset and ends at the block product added to zero; at the other points it goes from what the point
    before left to that plus the block product; at the last point the output buffer receives the accumulator plus the
    bias, and elsewhere it is handed back as found. The other scoped buffers and the generator register pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_x V, before0_w V, before0_b V]
  rw [show (dat0 V c).owesAt () t.succ = (dat0 V c).owesAt () t.castSucc from rfl]
  rw [show (dat0 V c).Φ t.succ = PhiS0 V c (t.val + 1) t.isLt from rfl, PhiS0_succ]
  have hN : t.val < 56 := lt_of_lt_of_eq t.isLt (show cfg0.N = 56 from N_0)
  rw [show (dat0 V c).leavesExact 0 t = owns (c : Thread nD τ) (mx0 t) fullShare ((dat0 V c).after 0 t) from by
    unfold Dat.leavesExact; rw [live0_x t], after0_0]
  rw [show (dat0 V c).leavesExact 1 t = owns (c : Thread nD τ) (mw0 t) fullShare ((dat0 V c).after 1 t) from by
    unfold Dat.leavesExact; rw [live0_w t], after0_1]
  rw [show (dat0 V c).leavesExact 2 t = owns (c : Thread nD τ) (mb0 t) fullShare ((dat0 V c).after 2 t) from by
    unfold Dat.leavesExact; rw [live0_b t], after0_2]
  by_cases h0 : t.val % 28 = 0
  · have h1 : ¬ t.val % 28 = 27 := by omega
    have hc0 : isFirst0 (grid0.coords t) := (isFirst0_iff t).mpr h0
    have hc1 : ¬ isLast0 (grid0.coords t) := fun h => h1 ((isLast0_iff t).mp h)
    rw [Dat.leavesExact_idle (dat0 V c) 3 t (idle0_out t hc1) (noFlush0_out t hc1)]
    rw [accAt0_reset V c t h0]
    by_cases hz : t.val = 0
    · rw [Phi0_castSucc V c t, PhiS0_zero V c _ _ hz, PhiA0_split]
      iintro ⟨⟨⟨HS, HR⟩, Hg⟩, Ho, ⟨%d0, H0⟩, ⟨%d1, H1⟩, ⟨%d2, H2⟩, ⟨%d3, H3⟩⟩
      iapply (run0_first c (grid0.coords t) (mx0 t) (hmx0 t) (mw0 t) (hmw0 t) (mb0 t) (hmb0 t) (mo0 t) (hmo0 t) scM0 (Memref.isWhole_whole _)
        hc0 hc1 (xblk V c t) (wblk V c t) (bblk V c t) ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (run0_first c (grid0.coords t) (mx0 t) (hmx0 t) (mw0 t) (hmw0 t) (mb0 t) (hmb0 t) (mo0 t) (hmo0 t) scM0 (Memref.isWhole_whole _)
        hc0 hc1 (xblk V c t) (wblk V c t) (bblk V c t) ((dat0 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬ isFirst0 (grid0.coords t) := fun h => h0 ((isFirst0_iff t).mp h)
    rw [accAt0_step V c t h0]
    rw [Phi0_castSucc V c t, PhiS0_pos V c _ _ hz]
    by_cases h1 : t.val % 28 = 27
    · have hc1 : isLast0 (grid0.coords t) := (isLast0_iff t).mpr h1
      rw [show (dat0 V c).leavesExact 3 t = owns (c : Thread nD τ) (mo0 t) fullShare ((dat0 V c).after 3 t) from by
        unfold Dat.leavesExact; rw [live0_out t hc1], after0_3, accAt0_step V c t h0]
      iintro ⟨⟨⟨HS, HR⟩, Hg⟩, Ho, ⟨%d0, H0⟩, ⟨%d1, H1⟩, ⟨%d2, H2⟩, ⟨%d3, H3⟩⟩
      iapply (run0_last c (grid0.coords t) (mx0 t) (hmx0 t) (mw0 t) (hmw0 t) (mb0 t) (hmb0 t) (mo0 t) (hmo0 t) scM0 (Memref.isWhole_whole _)
        hc0 hc1 (xblk V c t) (wblk V c t) (bblk V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc1 : ¬ isLast0 (grid0.coords t) := fun h => h1 ((isLast0_iff t).mp h)
      rw [Dat.leavesExact_idle (dat0 V c) 3 t (idle0_out t hc1) (noFlush0_out t hc1)]
      iintro ⟨⟨⟨HS, HR⟩, Hg⟩, Ho, ⟨%d0, H0⟩, ⟨%d1, H1⟩, ⟨%d2, H2⟩, ⟨%d3, H3⟩⟩
      iapply (run0_mid c (grid0.coords t) (mx0 t) (hmx0 t) (mw0 t) (hmw0 t) (mb0 t) (hmb0 t) (mo0 t) (hmo0 t) scM0 (Memref.isWhole_whole _)
        hc0 hc1 (xblk V c t) (wblk V c t) (bblk V c t) ((dat0 V c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation for the region's proof data, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the scoped rest and the generator register back: the accumulator's
    contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 56 := N_0; omega), PhiA0_split]
  iintro ⟨⟨HS, HR⟩, Hg⟩
  isplitl [HS HR]
  · isplitl [HS]
    · iexists _; iexact HS
    iexact HR
  iexact Hg

end Region0

end Cert.KernelIdeal.Gen

end
-- ==== Proof.KI.HeadK.lean ====
/-
  The second region (attention head) computes ONE function of its fifteen operand arrays: the whole body's value, the
  payloads of its three printed parts composed in program order. `xN` is what kernel operand N holds (operand 1 the
  activations out of the first linear layer; 2, 3 the second linear layer's weight and bias; 4..9 the first attention
  block's query, key and output projections; 10..15 the second block's).
-/
import proofs.«109190_j31490700214886_1_alg».proof.Proof.Gen.KernelIdeal.Skeleton

noncomputable section

namespace Cert.KernelIdeal.Gen

open Idealize.ShloMosaic

variable {F : FTy → Type} [FloatOps F]

/-- The first attention block's output projected, before its bias (the first printed part's second result). -/
abbrev head38 (x1 : Vec F S512x1024 .f32) (x4 : Vec F S1024x1024 .bf16) (x5 : Vec F S1024 .f32) (x6 : Vec F S1024x1024 .bf16)
    (x7 : Vec F S1024 .f32) (x8 : Vec F S1024x1024 .bf16) : FVec F S512x1024 .f32 :=
  k1_pay3 x1 x4 x5 x6 x7 x8

/-- The head's result from its operands' contents. -/
def headK (x1 : Vec F S512x1024 .f32) (x2 : Vec F S1024x1024 .bf16) (x3 : Vec F S1024 .f32)
    (x4 : Vec F S1024x1024 .bf16) (x5 : Vec F S1024 .f32) (x6 : Vec F S1024x1024 .bf16) (x7 : Vec F S1024 .f32)
    (x8 : Vec F S1024x1024 .bf16) (x9 : Vec F S1024 .f32)
    (x10 : Vec F S1024x1024 .bf16) (x11 : Vec F S1024 .f32) (x12 : Vec F S1024x1024 .bf16) (x13 : Vec F S1024 .f32)
    (x14 : Vec F S1024x1024 .bf16) (x15 : Vec F S1024 .f32) : FVec F S512x1024 .f32 :=
  k1_pay1 (k1_pay2 x1)
    (k1_pay4 (k1_pay2 x1) (head38 x1 x4 x5 x6 x7 x8) x9 x2 x3)
    (k1_pay5 (k1_pay2 x1) (head38 x1 x4 x5 x6 x7 x8) x9 x2 x3)
    (k1_pay6 (k1_pay2 x1) (head38 x1 x4 x5 x6 x7 x8) x9 x2 x3 x10 x11 x12 x13)
    x14 x15

end Cert.KernelIdeal.Gen

end
-- ==== Proof.KI.R1.lean ====
/-
  The attention head's region (one grid point, every window its whole array): its proof data, its body obligation, and
  the value it leaves in its output array, the head function of its fifteen operand arrays.
-/
import proofs.«109190_j31490700214886_1_alg».proof.Proof.Gen.KernelIdeal.Launch
import proofs.«109190_j31490700214886_1_alg».proof.Proof.Gen.KernelIdeal.Skeleton
import proofs.«109190_j31490700214886_1_alg».proof.Proof.Gen.KernelIdeal.Points
import proofs.«109190_j31490700214886_1_alg».proof.Proof.KI.HeadK
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at the region's one point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 512 x 1024 rectangle: the activations' load and the body's one store. -/
abbrev r1_full : Rect S512x1024 := Rect.unit (s := S512x1024) ![0, 0] S512x1024.size inb_S512x1024_S512x1024_0_0
/-- The whole 1024 x 1024 rectangle: every projection weight is loaded through it. -/
abbrev r1_weight : Rect S1024x1024 := Rect.unit (s := S1024x1024) ![0, 0] S1024x1024.size inb_S1024x1024_S1024x1024_0_0
/-- The whole row of 1024: every bias is loaded through it. -/
abbrev r1_bias : Rect S1024 := Rect.unit (s := S1024) ![0] S1024.size inb_S1024_S1024_0

/-- What the body leaves in the output window's buffer, from the operand blocks: the head function of the fifteen
    operands, each as its load through its whole rectangle reads it, stored through the whole rectangle. -/
def out1_15 (x1 : Vec F S512x1024 .f32) (x2 : Vec F S1024x1024 .bf16) (x3 : Vec F S1024 .f32) (x4 : Vec F S1024x1024 .bf16) (x5 : Vec F S1024 .f32) (x6 : Vec F S1024x1024 .bf16) (x7 : Vec F S1024 .f32) (x8 : Vec F S1024x1024 .bf16) (x9 : Vec F S1024 .f32) (x10 : Vec F S1024x1024 .bf16) (x11 : Vec F S1024 .f32) (x12 : Vec F S1024x1024 .bf16) (x13 : Vec F S1024 .f32) (x14 : Vec F S1024x1024 .bf16) (x15 : Vec F S1024 .f32) : Vec F S512x1024 .f32 :=
  View.canon [⟨r1_full, headK (View.ld x1 r1_full) (View.ld x2 r1_weight) (View.ld x3 r1_bias) (View.ld x4 r1_weight) (View.ld x5 r1_bias) (View.ld x6 r1_weight) (View.ld x7 r1_bias) (View.ld x8 r1_weight) (View.ld x9 r1_bias) (View.ld x10 r1_weight) (View.ld x11 r1_bias) (View.ld x12 r1_weight) (View.ld x13 r1_bias) (View.ld x14 r1_weight) (View.ld x15 r1_bias)⟩]

/-- Zero offsets, however spelt. -/
theorem zeros2 : (![0, 0] : Fin 2 → Nat) = fun _ => 0 := funext fun a => by fin_cases a <;> rfl
theorem zeros1 : (![0] : Fin 1 → Nat) = fun _ => 0 := funext fun a => by fin_cases a <;> rfl

/-- The one store is through the whole rectangle, so it covers the output buffer. -/
theorem head_store_covers (p : Vec F S512x1024 .f32) (y : S512x1024.Idx) :
    ∃ pc ∈ ([⟨r1_full, p⟩] : List (View.Piece (Elt F) S512x1024 .f32)), y ∈ pc.1.set :=
  ⟨⟨r1_full, p⟩, List.mem_singleton_self _, View.mem_set_unit_zero zeros2 inb_S512x1024_S512x1024_0_0 y⟩

set_option maxHeartbeats 2000000 in
/-- The head body on whole staging memrefs, the fifteen operands' at contents `x1 … x15` and the result's at anything,
    runs to the continuation holding the operands' as they were and the result's at `out1_15` of them: the three
    printed parts load the operands (six, seven, two), nothing is stored but the result, once. -/
theorem head_body_runs (c : Dev nD) (E : Set ℕ) (i : grid1.Coords)
    (arg1 : Memref sig .tc .vmem S512x1024 .f32) (harg1 : arg1.IsWhole)
    (arg2 : Memref sig .tc .vmem S1024x1024 .bf16) (harg2 : arg2.IsWhole)
    (arg3 : Memref sig .tc .vmem S1024 .f32) (harg3 : arg3.IsWhole)
    (arg4 : Memref sig .tc .vmem S1024x1024 .bf16) (harg4 : arg4.IsWhole)
    (arg5 : Memref sig .tc .vmem S1024 .f32) (harg5 : arg5.IsWhole)
    (arg6 : Memref sig .tc .vmem S1024x1024 .bf16) (harg6 : arg6.IsWhole)
    (arg7 : Memref sig .tc .vmem S1024 .f32) (harg7 : arg7.IsWhole)
    (arg8 : Memref sig .tc .vmem S1024x1024 .bf16) (harg8 : arg8.IsWhole)
    (arg9 : Memref sig .tc .vmem S1024 .f32) (harg9 : arg9.IsWhole)
    (arg10 : Memref sig .tc .vmem S1024x1024 .bf16) (harg10 : arg10.IsWhole)
    (arg11 : Memref sig .tc .vmem S1024 .f32) (harg11 : arg11.IsWhole)
    (arg12 : Memref sig .tc .vmem S1024x1024 .bf16) (harg12 : arg12.IsWhole)
    (arg13 : Memref sig .tc .vmem S1024 .f32) (harg13 : arg13.IsWhole)
    (arg14 : Memref sig .tc .vmem S1024x1024 .bf16) (harg14 : arg14.IsWhole)
    (arg15 : Memref sig .tc .vmem S1024 .f32) (harg15 : arg15.IsWhole)
    (arg16 : Memref sig .tc .vmem S512x1024 .f32) (harg16 : arg16.IsWhole)
    (x1 : Vec F S512x1024 .f32) (x2 : Vec F S1024x1024 .bf16) (x3 : Vec F S1024 .f32) (x4 : Vec F S1024x1024 .bf16) (x5 : Vec F S1024 .f32) (x6 : Vec F S1024x1024 .bf16) (x7 : Vec F S1024 .f32) (x8 : Vec F S1024x1024 .bf16) (x9 : Vec F S1024 .f32) (x10 : Vec F S1024x1024 .bf16) (x11 : Vec F S1024 .f32) (x12 : Vec F S1024x1024 .bf16) (x13 : Vec F S1024 .f32) (x14 : Vec F S1024x1024 .bf16) (x15 : Vec F S1024 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (out1_15 x1 x2 x3 x4 x5 x6 x7 x8 x9 x10 x11 x12 x13 x14 x15)) -∗ K ⟨⟩))
      ⊢ wp frame (wpE (defs₀ (F := F)) Variants.none c none) E (cc1__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__head_kernel_eq_skeleton, k1_part1_eq_skeleton, k1_part2_eq_skeleton]
  unfold cc1__head_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf1; subst hf2; subst hf3; subst hf4; subst hf5; subst hf6; subst hf7; subst hf8; subst hf9; subst hf10; subst hf11; subst hf12; subst hf13; subst hf14; subst hf15
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  exact View.read_writes_eq_canon _ _ _ (head_store_covers _)

/-- The proof data of the region on core `c`: the arrays as the region finds them; after the body each input's buffer
    at its block and the output's at the head function of the input blocks; the class's invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 16, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

/-! What the body leaves in each window's buffer: an operand's block stays, the result's buffer takes the head
    function of the operand blocks. -/
theorem left1_0 (c : Dev nD) (t : Fin cfg1.N) : (dat1 V c).after 0 t = iblk1 V c 0 t := by dsimp only [dat1]
theorem left1_1 (c : Dev nD) (t : Fin cfg1.N) : (dat1 V c).after 1 t = iblk1 V c 1 t := by dsimp only [dat1]
theorem left1_2 (c : Dev nD) (t : Fin cfg1.N) : (dat1 V c).after 2 t = iblk1 V c 2 t := by dsimp only [dat1]
theorem left1_3 (c : Dev nD) (t : Fin cfg1.N) : (dat1 V c).after 3 t = iblk1 V c 3 t := by dsimp only [dat1]
theorem left1_4 (c : Dev nD) (t : Fin cfg1.N) : (dat1 V c).after 4 t = iblk1 V c 4 t := by dsimp only [dat1]
theorem left1_5 (c : Dev nD) (t : Fin cfg1.N) : (dat1 V c).after 5 t = iblk1 V c 5 t := by dsimp only [dat1]
theorem left1_6 (c : Dev nD) (t : Fin cfg1.N) : (dat1 V c).after 6 t = iblk1 V c 6 t := by dsimp only [dat1]
theorem left1_7 (c : Dev nD) (t : Fin cfg1.N) : (dat1 V c).after 7 t = iblk1 V c 7 t := by dsimp only [dat1]
theorem left1_8 (c : Dev nD) (t : Fin cfg1.N) : (dat1 V c).after 8 t = iblk1 V c 8 t := by dsimp only [dat1]
theorem left1_9 (c : Dev nD) (t : Fin cfg1.N) : (dat1 V c).after 9 t = iblk1 V c 9 t := by dsimp only [dat1]
theorem left1_10 (c : Dev nD) (t : Fin cfg1.N) : (dat1 V c).after 10 t = iblk1 V c 10 t := by dsimp only [dat1]
theorem left1_11 (c : Dev nD) (t : Fin cfg1.N) : (dat1 V c).after 11 t = iblk1 V c 11 t := by dsimp only [dat1]
theorem left1_12 (c : Dev nD) (t : Fin cfg1.N) : (dat1 V c).after 12 t = iblk1 V c 12 t := by dsimp only [dat1]
theorem left1_13 (c : Dev nD) (t : Fin cfg1.N) : (dat1 V c).after 13 t = iblk1 V c 13 t := by dsimp only [dat1]
theorem left1_14 (c : Dev nD) (t : Fin cfg1.N) : (dat1 V c).after 14 t = iblk1 V c 14 t := by dsimp only [dat1]
theorem left1_15 (c : Dev nD) (t : Fin cfg1.N) :
    (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]

/-! Every operand window is fetched at the region's point, so when the body runs its staging buffer holds its block
    (the windows are uncut: the fetch fills the whole buffer). -/
theorem staged1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem staged1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)
theorem staged1_2 (c : Dev nD) (t : Fin cfg1.N) (d) : (dat1 V c).before 2 t d = iblk1 V c 2 t :=
  ((dat1 V c).before_fetched 2 t (fetch1_2 t) d).trans (by unfold Dat.fetched Dat.blockOf iblk1; rw [A_eq1]; try rfl)
theorem staged1_3 (c : Dev nD) (t : Fin cfg1.N) (d) : (dat1 V c).before 3 t d = iblk1 V c 3 t :=
  ((dat1 V c).before_fetched 3 t (fetch1_3 t) d).trans (by unfold Dat.fetched Dat.blockOf iblk1; rw [A_eq1]; try rfl)
theorem staged1_4 (c : Dev nD) (t : Fin cfg1.N) (d) : (dat1 V c).before 4 t d = iblk1 V c 4 t :=
  ((dat1 V c).before_fetched 4 t (fetch1_4 t) d).trans (by unfold Dat.fetched Dat.blockOf iblk1; rw [A_eq1]; try rfl)
theorem staged1_5 (c : Dev nD) (t : Fin cfg1.N) (d) : (dat1 V c).before 5 t d = iblk1 V c 5 t :=
  ((dat1 V c).before_fetched 5 t (fetch1_5 t) d).trans (by unfold Dat.fetched Dat.blockOf iblk1; rw [A_eq1]; try rfl)
theorem staged1_6 (c : Dev nD) (t : Fin cfg1.N) (d) : (dat1 V c).before 6 t d = iblk1 V c 6 t :=
  ((dat1 V c).before_fetched 6 t (fetch1_6 t) d).trans (by unfold Dat.fetched Dat.blockOf iblk1; rw [A_eq1]; try rfl)
theorem staged1_7 (c : Dev nD) (t : Fin cfg1.N) (d) : (dat1 V c).before 7 t d = iblk1 V c 7 t :=
  ((dat1 V c).before_fetched 7 t (fetch1_7 t) d).trans (by unfold Dat.fetched Dat.blockOf iblk1; rw [A_eq1]; try rfl)
theorem staged1_8 (c : Dev nD) (t : Fin cfg1.N) (d) : (dat1 V c).before 8 t d = iblk1 V c 8 t :=
  ((dat1 V c).before_fetched 8 t (fetch1_8 t) d).trans (by unfold Dat.fetched Dat.blockOf iblk1; rw [A_eq1]; try rfl)
theorem staged1_9 (c : Dev nD) (t : Fin cfg1.N) (d) : (dat1 V c).before 9 t d = iblk1 V c 9 t :=
  ((dat1 V c).before_fetched 9 t (fetch1_9 t) d).trans (by unfold Dat.fetched Dat.blockOf iblk1; rw [A_eq1]; try rfl)
theorem staged1_10 (c : Dev nD) (t : Fin cfg1.N) (d) : (dat1 V c).before 10 t d = iblk1 V c 10 t :=
  ((dat1 V c).before_fetched 10 t (fetch1_10 t) d).trans (by unfold Dat.fetched Dat.blockOf iblk1; rw [A_eq1]; try rfl)
theorem staged1_11 (c : Dev nD) (t : Fin cfg1.N) (d) : (dat1 V c).before 11 t d = iblk1 V c 11 t :=
  ((dat1 V c).before_fetched 11 t (fetch1_11 t) d).trans (by unfold Dat.fetched Dat.blockOf iblk1; rw [A_eq1]; try rfl)
theorem staged1_12 (c : Dev nD) (t : Fin cfg1.N) (d) : (dat1 V c).before 12 t d = iblk1 V c 12 t :=
  ((dat1 V c).before_fetched 12 t (fetch1_12 t) d).trans (by unfold Dat.fetched Dat.blockOf iblk1; rw [A_eq1]; try rfl)
theorem staged1_13 (c : Dev nD) (t : Fin cfg1.N) (d) : (dat1 V c).before 13 t d = iblk1 V c 13 t :=
  ((dat1 V c).before_fetched 13 t (fetch1_13 t) d).trans (by unfold Dat.fetched Dat.blockOf iblk1; rw [A_eq1]; try rfl)
theorem staged1_14 (c : Dev nD) (t : Fin cfg1.N) (d) : (dat1 V c).before 14 t d = iblk1 V c 14 t :=
  ((dat1 V c).before_fetched 14 t (fetch1_14 t) d).trans (by unfold Dat.fetched Dat.blockOf iblk1; rw [A_eq1]; try rfl)

/-- What the body is handed at the point: the invariant, what the core owes, and the sixteen staging buffers, -/
def headPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d)))

/-- and what it hands back. -/
def headPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t))

/-- The body at the point: the operands' buffers hold their blocks, so the body's run applies; the invariant and
    what the core owes pass through unread. -/
theorem head_body_at_point (c : Dev nD) (t : Fin cfg1.N) :
    headPre V c t ⊢ wp frame (wpE (defs₀ (F := F)) Variants.none c none) Set.univ (bodyAt1 t) (fun _ => headPost V c t) := by
  unfold headPre headPost bodyAt1
  simp only [staged1_0, staged1_1, staged1_2, staged1_3, staged1_4, staged1_5, staged1_6, staged1_7, staged1_8, staged1_9, staged1_10, staged1_11, staged1_12, staged1_13, staged1_14]
  rw [show (dat1 V c).Φ t.succ = (dat1 V c).Φ t.castSucc from rfl,
    show (dat1 V c).owesAt () t.succ = (dat1 V c).owesAt () t.castSucc from rfl,
    left1_0, left1_1, left1_2, left1_3, left1_4, left1_5, left1_6, left1_7, left1_8, left1_9, left1_10, left1_11, left1_12, left1_13, left1_14, left1_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (head_body_runs c Set.univ _ _ _ _ _ _ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation for the region's proof data. -/
theorem body_obligation1 (c : Dev nD) : BodyObligation (dat1 (F := F) V c) (defs₀ (F := F)) Variants.none () Set.univ := fun t => by
  rw [bigSep_W1, bigSep_W1]
  exact head_body_at_point V c t

/-! ## From the one block to the array

Every window's block is its whole array: each index map is constantly zero and each block has the array's extents, so a
block coordinate IS the array coordinate. -/

theorem iblk1_whole_0 (c : Dev nD) (t : Fin cfg1.N) : iblk1 V c 0 t = V c main_v1 := by
  funext j
  show V c main_v1 (((cfg1.win 0).blk t).view.emb j) = V c main_v1 j
  refine congrArg (V c main_v1) (funext fun a => Fin.ext ?_)
  match a with
    | ⟨0, _⟩ => show win1_0.index t (0 : Fin 2) * 512 + 1 * (j 0).val = (j 0).val; rw [show win1_0.index t (0 : Fin 2) = 0 from rfl]; omega
    | ⟨1, _⟩ => show win1_0.index t (1 : Fin 2) * 1024 + 1 * (j 1).val = (j 1).val; rw [show win1_0.index t (1 : Fin 2) = 0 from rfl]; omega
theorem iblk1_whole_1 (c : Dev nD) (t : Fin cfg1.N) : iblk1 V c 1 t = V c main_v2 := by
  funext j
  show V c main_v2 (((cfg1.win 1).blk t).view.emb j) = V c main_v2 j
  refine congrArg (V c main_v2) (funext fun a => Fin.ext ?_)
  match a with
    | ⟨0, _⟩ => show win1_1.index t (0 : Fin 2) * 1024 + 1 * (j 0).val = (j 0).val; rw [show win1_1.index t (0 : Fin 2) = 0 from rfl]; omega
    | ⟨1, _⟩ => show win1_1.index t (1 : Fin 2) * 1024 + 1 * (j 1).val = (j 1).val; rw [show win1_1.index t (1 : Fin 2) = 0 from rfl]; omega
theorem iblk1_whole_2 (c : Dev nD) (t : Fin cfg1.N) : iblk1 V c 2 t = V c main_arg4 := by
  funext j
  show V c main_arg4 (((cfg1.win 2).blk t).view.emb j) = V c main_arg4 j
  refine congrArg (V c main_arg4) (funext fun a => Fin.ext ?_)
  match a with
    | ⟨0, _⟩ => show win1_2.index t (0 : Fin 1) * 1024 + 1 * (j 0).val = (j 0).val; rw [show win1_2.index t (0 : Fin 1) = 0 from rfl]; omega
theorem iblk1_whole_3 (c : Dev nD) (t : Fin cfg1.N) : iblk1 V c 3 t = V c main_v3 := by
  funext j
  show V c main_v3 (((cfg1.win 3).blk t).view.emb j) = V c main_v3 j
  refine congrArg (V c main_v3) (funext fun a => Fin.ext ?_)
  match a with
    | ⟨0, _⟩ => show win1_3.index t (0 : Fin 2) * 1024 + 1 * (j 0).val = (j 0).val; rw [show win1_3.index t (0 : Fin 2) = 0 from rfl]; omega
    | ⟨1, _⟩ => show win1_3.index t (1 : Fin 2) * 1024 + 1 * (j 1).val = (j 1).val; rw [show win1_3.index t (1 : Fin 2) = 0 from rfl]; omega
theorem iblk1_whole_4 (c : Dev nD) (t : Fin cfg1.N) : iblk1 V c 4 t = V c main_arg6 := by
  funext j
  show V c main_arg6 (((cfg1.win 4).blk t).view.emb j) = V c main_arg6 j
  refine congrArg (V c main_arg6) (funext fun a => Fin.ext ?_)
  match a with
    | ⟨0, _⟩ => show win1_4.index t (0 : Fin 1) * 1024 + 1 * (j 0).val = (j 0).val; rw [show win1_4.index t (0 : Fin 1) = 0 from rfl]; omega
theorem iblk1_whole_5 (c : Dev nD) (t : Fin cfg1.N) : iblk1 V c 5 t = V c main_v4 := by
  funext j
  show V c main_v4 (((cfg1.win 5).blk t).view.emb j) = V c main_v4 j
  refine congrArg (V c main_v4) (funext fun a => Fin.ext ?_)
  match a with
    | ⟨0, _⟩ => show win1_5.index t (0 : Fin 2) * 1024 + 1 * (j 0).val = (j 0).val; rw [show win1_5.index t (0 : Fin 2) = 0 from rfl]; omega
    | ⟨1, _⟩ => show win1_5.index t (1 : Fin 2) * 1024 + 1 * (j 1).val = (j 1).val; rw [show win1_5.index t (1 : Fin 2) = 0 from rfl]; omega
theorem iblk1_whole_6 (c : Dev nD) (t : Fin cfg1.N) : iblk1 V c 6 t = V c main_arg8 := by
  funext j
  show V c main_arg8 (((cfg1.win 6).blk t).view.emb j) = V c main_arg8 j
  refine congrArg (V c main_arg8) (funext fun a => Fin.ext ?_)
  match a with
    | ⟨0, _⟩ => show win1_6.index t (0 : Fin 1) * 1024 + 1 * (j 0).val = (j 0).val; rw [show win1_6.index t (0 : Fin 1) = 0 from rfl]; omega
theorem iblk1_whole_7 (c : Dev nD) (t : Fin cfg1.N) : iblk1 V c 7 t = V c main_v5 := by
  funext j
  show V c main_v5 (((cfg1.win 7).blk t).view.emb j) = V c main_v5 j
  refine congrArg (V c main_v5) (funext fun a => Fin.ext ?_)
  match a with
    | ⟨0, _⟩ => show win1_7.index t (0 : Fin 2) * 1024 + 1 * (j 0).val = (j 0).val; rw [show win1_7.index t (0 : Fin 2) = 0 from rfl]; omega
    | ⟨1, _⟩ => show win1_7.index t (1 : Fin 2) * 1024 + 1 * (j 1).val = (j 1).val; rw [show win1_7.index t (1 : Fin 2) = 0 from rfl]; omega
theorem iblk1_whole_8 (c : Dev nD) (t : Fin cfg1.N) : iblk1 V c 8 t = V c main_arg10 := by
  funext j
  show V c main_arg10 (((cfg1.win 8).blk t).view.emb j) = V c main_arg10 j
  refine congrArg (V c main_arg10) (funext fun a => Fin.ext ?_)
  match a with
    | ⟨0, _⟩ => show win1_8.index t (0 : Fin 1) * 1024 + 1 * (j 0).val = (j 0).val; rw [show win1_8.index t (0 : Fin 1) = 0 from rfl]; omega
theorem iblk1_whole_9 (c : Dev nD) (t : Fin cfg1.N) : iblk1 V c 9 t = V c main_v6 := by
  funext j
  show V c main_v6 (((cfg1.win 9).blk t).view.emb j) = V c main_v6 j
  refine congrArg (V c main_v6) (funext fun a => Fin.ext ?_)
  match a with
    | ⟨0, _⟩ => show win1_9.index t (0 : Fin 2) * 1024 + 1 * (j 0).val = (j 0).val; rw [show win1_9.index t (0 : Fin 2) = 0 from rfl]; omega
    | ⟨1, _⟩ => show win1_9.index t (1 : Fin 2) * 1024 + 1 * (j 1).val = (j 1).val; rw [show win1_9.index t (1 : Fin 2) = 0 from rfl]; omega
theorem iblk1_whole_10 (c : Dev nD) (t : Fin cfg1.N) : iblk1 V c 10 t = V c main_arg12 := by
  funext j
  show V c main_arg12 (((cfg1.win 10).blk t).view.emb j) = V c main_arg12 j
  refine congrArg (V c main_arg12) (funext fun a => Fin.ext ?_)
  match a with
    | ⟨0, _⟩ => show win1_10.index t (0 : Fin 1) * 1024 + 1 * (j 0).val = (j 0).val; rw [show win1_10.index t (0 : Fin 1) = 0 from rfl]; omega
theorem iblk1_whole_11 (c : Dev nD) (t : Fin cfg1.N) : iblk1 V c 11 t = V c main_v7 := by
  funext j
  show V c main_v7 (((cfg1.win 11).blk t).view.emb j) = V c main_v7 j
  refine congrArg (V c main_v7) (funext fun a => Fin.ext ?_)
  match a with
    | ⟨0, _⟩ => show win1_11.index t (0 : Fin 2) * 1024 + 1 * (j 0).val = (j 0).val; rw [show win1_11.index t (0 : Fin 2) = 0 from rfl]; omega
    | ⟨1, _⟩ => show win1_11.index t (1 : Fin 2) * 1024 + 1 * (j 1).val = (j 1).val; rw [show win1_11.index t (1 : Fin 2) = 0 from rfl]; omega
theorem iblk1_whole_12 (c : Dev nD) (t : Fin cfg1.N) : iblk1 V c 12 t = V c main_arg14 := by
  funext j
  show V c main_arg14 (((cfg1.win 12).blk t).view.emb j) = V c main_arg14 j
  refine congrArg (V c main_arg14) (funext fun a => Fin.ext ?_)
  match a with
    | ⟨0, _⟩ => show win1_12.index t (0 : Fin 1) * 1024 + 1 * (j 0).val = (j 0).val; rw [show win1_12.index t (0 : Fin 1) = 0 from rfl]; omega
theorem iblk1_whole_13 (c : Dev nD) (t : Fin cfg1.N) : iblk1 V c 13 t = V c main_v8 := by
  funext j
  show V c main_v8 (((cfg1.win 13).blk t).view.emb j) = V c main_v8 j
  refine congrArg (V c main_v8) (funext fun a => Fin.ext ?_)
  match a with
    | ⟨0, _⟩ => show win1_13.index t (0 : Fin 2) * 1024 + 1 * (j 0).val = (j 0).val; rw [show win1_13.index t (0 : Fin 2) = 0 from rfl]; omega
    | ⟨1, _⟩ => show win1_13.index t (1 : Fin 2) * 1024 + 1 * (j 1).val = (j 1).val; rw [show win1_13.index t (1 : Fin 2) = 0 from rfl]; omega
theorem iblk1_whole_14 (c : Dev nD) (t : Fin cfg1.N) : iblk1 V c 14 t = V c main_arg16 := by
  funext j
  show V c main_arg16 (((cfg1.win 14).blk t).view.emb j) = V c main_arg16 j
  refine congrArg (V c main_arg16) (funext fun a => Fin.ext ?_)
  match a with
    | ⟨0, _⟩ => show win1_14.index t (0 : Fin 1) * 1024 + 1 * (j 0).val = (j 0).val; rw [show win1_14.index t (0 : Fin 1) = 0 from rfl]; omega

/-- The body's result block is the head function of the operand blocks: the store and every load go through whole
    rectangles at zero offsets. -/
theorem out1_15_eq_headK (x1 : Vec F S512x1024 .f32) (x2 : Vec F S1024x1024 .bf16) (x3 : Vec F S1024 .f32) (x4 : Vec F S1024x1024 .bf16) (x5 : Vec F S1024 .f32) (x6 : Vec F S1024x1024 .bf16) (x7 : Vec F S1024 .f32) (x8 : Vec F S1024x1024 .bf16) (x9 : Vec F S1024 .f32) (x10 : Vec F S1024x1024 .bf16) (x11 : Vec F S1024 .f32) (x12 : Vec F S1024x1024 .bf16) (x13 : Vec F S1024 .f32) (x14 : Vec F S1024x1024 .bf16) (x15 : Vec F S1024 .f32) :
    out1_15 x1 x2 x3 x4 x5 x6 x7 x8 x9 x10 x11 x12 x13 x14 x15 = headK x1 x2 x3 x4 x5 x6 x7 x8 x9 x10 x11 x12 x13 x14 x15 := by
  unfold out1_15
  rw [View.canon_unit_zero zeros2]
  simp only [View.ld_unit_zero (S := S512x1024) zeros2, View.ld_unit_zero (S := S1024x1024) zeros2, View.ld_unit_zero (S := S1024) zeros1]

/-- The output window's block is its whole array too: a read of contents through it is the contents. -/
theorem head_block_read (t : Fin cfg1.N) (G : Vec F S512x1024 .f32) :
    ((cfg1.win 15).blk t).view.read (Elt F) G = G := by
  funext j
  show G (((cfg1.win 15).blk t).view.emb j) = G j
  refine congrArg G (funext fun a => Fin.ext ?_)
  match a with
    | ⟨0, _⟩ => show win1_15.index t (0 : Fin 2) * 512 + 1 * (j 0).val = (j 0).val; rw [show win1_15.index t (0 : Fin 2) = 0 from rfl]; omega
    | ⟨1, _⟩ => show win1_15.index t (1 : Fin 2) * 1024 + 1 * (j 1).val = (j 1).val; rw [show win1_15.index t (1 : Fin 2) = 0 from rfl]; omega

/-- Every index of the output array lies in the one point's block. -/
theorem head_block_covers (t : Fin cfg1.N) (i : S512x1024.Idx) : i ∈ ((cfg1.win 15).blk t).view.set := by
  show i ∈ ((View.whole main_v9).slice (win1_15.rect t)).set
  rw [View.set_slice_whole, Rect.mem_set_unit]
  intro a
  match a with
    | ⟨0, _⟩ =>
      show win1_15.index t (0 : Fin 2) * 512 ≤ (i 0).val ∧ (i 0).val < win1_15.index t (0 : Fin 2) * 512 + 512
      have h : (i 0).val < 512 := (i 0).isLt
      rw [show win1_15.index t (0 : Fin 2) = 0 from rfl]; omega
    | ⟨1, _⟩ =>
      show win1_15.index t (1 : Fin 2) * 1024 ≤ (i 1).val ∧ (i 1).val < win1_15.index t (1 : Fin 2) * 1024 + 1024
      have h : (i 1).val < 1024 := (i 1).isLt
      rw [show win1_15.index t (1 : Fin 2) = 0 from rfl]; omega

/-- The output array after the region is the head function of the operand arrays as the region found them: the one
    point writes its block back, the block is the whole array, and the block the body left is the head function of
    the operand blocks, which are the operand arrays. -/
theorem arrAt1_15 (c : Dev nD) :
    (dat1 V c).arrAt 15 cfg1.N = headK (V c main_v1) (V c main_v2) (V c main_arg4) (V c main_v3) (V c main_arg6) (V c main_v4) (V c main_arg8) (V c main_v5) (V c main_arg10) (V c main_v6) (V c main_arg12) (V c main_v7) (V c main_arg14) (V c main_v8) (V c main_arg16) := by
  refine (dat1 V c).arrAt_eq_of_cover 15 _ (fun t _ => ?_) (fun i => ⟨t1_0, flush1_15 t1_0, head_block_covers t1_0 i⟩)
  show (cfg1.win 15).cut (grid1.coords t) ((dat1 V c).after 15 t) = _
  rw [left1_15, out1_15_eq_headK, iblk1_whole_0, iblk1_whole_1, iblk1_whole_2, iblk1_whole_3, iblk1_whole_4, iblk1_whole_5, iblk1_whole_6, iblk1_whole_7, iblk1_whole_8, iblk1_whole_9, iblk1_whole_10, iblk1_whole_11, iblk1_whole_12, iblk1_whole_13, iblk1_whole_14]
  exact (head_block_read t _).symm

end Region1

end Cert.KernelIdeal.Gen

end
-- ==== Proof.KI.Launch.lean ====
/-
  The whole program, launched: the flattening of the input, the first linear layer's region, the seven weight
  roundings, the attention head's region. Between two items a core holds every unscoped array whole at named
  contents; the first region leaves the layer's activations in its output array, the head's region reads them
  there and leaves the head function of its fifteen operands in the program's result array; no item writes an
  argument array.
-/
import proofs.«109190_j31490700214886_1_alg».proof.Proof.Gen.KernelIdeal.Launch
import proofs.«109190_j31490700214886_1_alg».proof.Proof.Gen.KernelIdeal.Skeleton
import proofs.«109190_j31490700214886_1_alg».proof.Proof.Gen.KernelIdeal.Points
import proofs.«109190_j31490700214886_1_alg».proof.Proof.Gen.KernelIdeal.Regions
import proofs.«109190_j31490700214886_1_alg».proof.Proof.KI.R0Defs
import proofs.«109190_j31490700214886_1_alg».proof.Proof.KI.R0Body
import proofs.«109190_j31490700214886_1_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between the items -/

/-- What the first region finds in the TensorCore's arrays: the launch contents, the input flattened. -/
abbrev U1 : (c : Dev nD) → (b : Ref sig .tc) → Buf (Elt F) ((c : Thread nD τ).loc b) := fun c b => V1 m c b

/-- What the first region leaves in its output array: the layer's activations. -/
def o1 (c : Dev nD) : Buf (Elt F) ((c : Thread nD τ).loc main_v1) := (dat0 (U1 m) c).arrAt 3 cfg0.N

/-- The arrays after the first region: as it found them, its output array at the activations. -/
def U2 (c : Dev nD) : Valuation τ sig (Elt F) := Function.update (V1 m c) main_v1 (o1 m c)

/-- What the head's region finds: those, the seven weights rounded. -/
def U3 (c : Dev nD) : Valuation τ sig (Elt F) := StableHlo.after hostOps1 (U2 m c)

/-- What the head's region leaves in the result array. -/
def o9 (c : Dev nD) : Buf (Elt F) ((c : Thread nD τ).loc main_v9) := (dat1 (fun c b => U3 m c b) c).arrAt 15 cfg1.N

/-- What the regions leave in the arrays they may change: the activations in the first region's output array, the
    head's value in the result array. -/
def outs : Outs (F := F) := fun _ r c =>
  if h : r = main_v1 then h ▸ o1 m c else if h : r = main_v9 then h ▸ o9 m c else V1 m c r

theorem outs_v1 (J : ℕ) (c : Dev nD) : outs m J main_v1 c = o1 m c := by
  unfold outs; rw [dif_pos rfl]
theorem outs_v9 (J : ℕ) (c : Dev nD) : outs m J main_v9 c = o9 m c := by
  unfold outs; rw [dif_neg (by decide), dif_pos rfl]

/-- After the first region its output array holds the activations, -/
theorem V2_main_v1 (c : Dev nD) : V2 m (outs m) c main_v1 = o1 m c :=
  (Function.update_self _ _ _).trans (outs_v1 m 2 c)
/-- so the head's region is entered from the contents named above, -/
theorem V3_outs (c : Dev nD) : V3 m (outs m) c = U3 m c := by
  unfold U3 U2; rw [← outs_v1 m 2 c]
/-- and after it the result array holds the head's value. -/
theorem V4_main_v9 (c : Dev nD) : V4 m (outs m) c main_v9 = o9 m c :=
  (Function.update_self _ _ _).trans (outs_v9 m 4 c)

/-! ### What the regions find in their operand arrays -/

/-- The first region's first operand is the input flattened to 512 rows; -/
theorem U1_main_v0 (c : Dev nD) :
    U1 m c main_v0 = shapeCast S512x50176 (m ((c : Thread nD τ).loc main_arg0)) shapeCasts_S512x1024x7x7_S512x50176 := by
  show StableHlo.after hostOps0 (V0 m c) (Proc.devRef .tc main_v0) = _
  after_results; rfl
/-- its weight and bias are the launch's. -/
theorem U1_main_arg1 (c : Dev nD) : U1 m c main_arg1 = m ((c : Thread nD τ).loc main_arg1) :=
  (V1_of m c main_arg1 (by decide)).trans rfl
theorem U1_main_arg2 (c : Dev nD) : U1 m c main_arg2 = m ((c : Thread nD τ).loc main_arg2) :=
  (V1_of m c main_arg2 (by decide)).trans rfl

/-- An array neither region's output nor the flattening's result is the launch's when the head's region is entered, before
    the roundings -/
theorem U2_launch (c : Dev nD) (r : Ref sig .tc) (h1 : r ≠ main_v1) (h0 : r ∉ hostOps0_W) :
    U2 m c r = m ((c : Thread nD τ).loc r) :=
  (Function.update_of_ne (StableHlo.devRef_ne_of_ne h1) _ _).trans ((V1_of m c r h0).trans rfl)
/-- and after them, if no rounding writes it. -/
theorem U3_launch (c : Dev nD) (r : Ref sig .tc) (h1 : r ≠ main_v1) (h0 : r ∉ hostOps0_W) (h3 : r ∉ hostOps1_W) :
    U3 m c r = m ((c : Thread nD τ).loc r) :=
  (StableHlo.after_of_writes_sub hostOps1 _ hostOps1_writes h3).trans (U2_launch m c r h1 h0)

/-- The head's first operand is the activations; -/
theorem U3_main_v1 (c : Dev nD) : U3 m c main_v1 = o1 m c :=
  (StableHlo.after_of_writes_sub hostOps1 _ hostOps1_writes (by decide)).trans (Function.update_self _ _ _)

/-- its weights are the launch's rounded to bf16; -/
theorem U3_main_v2 (c : Dev nD) :
    U3 m c main_v2 = truncf .bf16 (m ((c : Thread nD τ).loc main_arg3) : Vec F S1024x1024 .f32) bitsLt_bf16_f32 := by
  show StableHlo.after hostOps1 (U2 m c) (Proc.devRef .tc main_v2) = _
  after_results
  rw [U2_launch m c main_arg3 (by decide) (by decide)]
theorem U3_main_v3 (c : Dev nD) :
    U3 m c main_v3 = truncf .bf16 (m ((c : Thread nD τ).loc main_arg5) : Vec F S1024x1024 .f32) bitsLt_bf16_f32 := by
  show StableHlo.after hostOps1 (U2 m c) (Proc.devRef .tc main_v3) = _
  after_results
  rw [U2_launch m c main_arg5 (by decide) (by decide)]
theorem U3_main_v4 (c : Dev nD) :
    U3 m c main_v4 = truncf .bf16 (m ((c : Thread nD τ).loc main_arg7) : Vec F S1024x1024 .f32) bitsLt_bf16_f32 := by
  show StableHlo.after hostOps1 (U2 m c) (Proc.devRef .tc main_v4) = _
  after_results
  rw [U2_launch m c main_arg7 (by decide) (by decide)]
theorem U3_main_v5 (c : Dev nD) :
    U3 m c main_v5 = truncf .bf16 (m ((c : Thread nD τ).loc main_arg9) : Vec F S1024x1024 .f32) bitsLt_bf16_f32 := by
  show StableHlo.after hostOps1 (U2 m c) (Proc.devRef .tc main_v5) = _
  after_results
  rw [U2_launch m c main_arg9 (by decide) (by decide)]
theorem U3_main_v6 (c : Dev nD) :
    U3 m c main_v6 = truncf .bf16 (m ((c : Thread nD τ).loc main_arg11) : Vec F S1024x1024 .f32) bitsLt_bf16_f32 := by
  show StableHlo.after hostOps1 (U2 m c) (Proc.devRef .tc main_v6) = _
  after_results
  rw [U2_launch m c main_arg11 (by decide) (by decide)]
theorem U3_main_v7 (c : Dev nD) :
    U3 m c main_v7 = truncf .bf16 (m ((c : Thread nD τ).loc main_arg13) : Vec F S1024x1024 .f32) bitsLt_bf16_f32 := by
  show StableHlo.after hostOps1 (U2 m c) (Proc.devRef .tc main_v7) = _
  after_results
  rw [U2_launch m c main_arg13 (by decide) (by decide)]
theorem U3_main_v8 (c : Dev nD) :
    U3 m c main_v8 = truncf .bf16 (m ((c : Thread nD τ).loc main_arg15) : Vec F S1024x1024 .f32) bitsLt_bf16_f32 := by
  show StableHlo.after hostOps1 (U2 m c) (Proc.devRef .tc main_v8) = _
  after_results
  rw [U2_launch m c main_arg15 (by decide) (by decide)]
/-- its biases are the launch's. -/
theorem U3_main_arg4 (c : Dev nD) : U3 m c main_arg4 = m ((c : Thread nD τ).loc main_arg4) :=
  U3_launch m c main_arg4 (by decide) (by decide) (by decide)
theorem U3_main_arg6 (c : Dev nD) : U3 m c main_arg6 = m ((c : Thread nD τ).loc main_arg6) :=
  U3_launch m c main_arg6 (by decide) (by decide) (by decide)
theorem U3_main_arg8 (c : Dev nD) : U3 m c main_arg8 = m ((c : Thread nD τ).loc main_arg8) :=
  U3_launch m c main_arg8 (by decide) (by decide) (by decide)
theorem U3_main_arg10 (c : Dev nD) : U3 m c main_arg10 = m ((c : Thread nD τ).loc main_arg10) :=
  U3_launch m c main_arg10 (by decide) (by decide) (by decide)
theorem U3_main_arg12 (c : Dev nD) : U3 m c main_arg12 = m ((c : Thread nD τ).loc main_arg12) :=
  U3_launch m c main_arg12 (by decide) (by decide) (by decide)
theorem U3_main_arg14 (c : Dev nD) : U3 m c main_arg14 = m ((c : Thread nD τ).loc main_arg14) :=
  U3_launch m c main_arg14 (by decide) (by decide) (by decide)
theorem U3_main_arg16 (c : Dev nD) : U3 m c main_arg16 = m ((c : Thread nD τ).loc main_arg16) :=
  U3_launch m c main_arg16 (by decide) (by decide) (by decide)

/-! ## The proof data family and the thread state -/

/-- Both regions' proof data, each at what its region finds. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (fun c b => U3 m c b) c

/-- No core owes another anything: no level is assigned. -/
abbrev Lz : GSem nD τ sig → Finset Unit := fun _ => ∅
abbrev lvz : GSem nD τ sig → Unit → ℕ := fun _ _ => 0

/-- Beside the arrays a core keeps its generator register, at some state, and owes nothing. -/
abbrev Rst (c : Dev nD) : sProp 𝕄 :=
  iprop((∃ r, prngReg c r) ∗ ∃ W, owes (c : Thread nD τ) (0 : CellTallies nD τ sig Unit) W)

/-- An unscoped array is among those a core holds between two items. -/
theorem mem_held (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ### Where each region's arrays end -/

/-- When the first region ends, its three operand arrays hold what it found and its output array the activations: the
    contents named after it. -/
theorem ends0 (c : Dev nD) :
    ∀ w : Fin 4, (dat0 (U1 m) c).arrAt w cfg0.N = V2 m (outs m) c (Pipeline.arrRef spec0 w)
  | ⟨0, _⟩ => (((dat0 (U1 m) c).arrAt_in 0 rfl _).trans (A_eq0 (U1 m) c 0)).trans (V2_of m (outs m) c main_v0 (by decide)).symm
  | ⟨1, _⟩ => (((dat0 (U1 m) c).arrAt_in 1 rfl _).trans (A_eq0 (U1 m) c 1)).trans (V2_of m (outs m) c main_arg1 (by decide)).symm
  | ⟨2, _⟩ => (((dat0 (U1 m) c).arrAt_in 2 rfl _).trans (A_eq0 (U1 m) c 2)).trans (V2_of m (outs m) c main_arg2 (by decide)).symm
  | ⟨3, _⟩ => (V2_main_v1 m c).symm
/-- Every array that is none of the first region's is as the region found it. -/
theorem rest0 (c : Dev nD) (b : Ref sig .tc) (hb : b ∉ Finset.univ.image (Pipeline.arrRef spec0)) :
    V2 m (outs m) c b = U1 m c b :=
  V2_of m (outs m) c b fun h =>
    hb (Finset.mem_image.mpr ⟨3, Finset.mem_univ _, (List.mem_singleton.mp h).symm⟩)

/-- When the head's region ends, its fifteen operand arrays hold what it found and the result array the head's value. -/
theorem ends1 (c : Dev nD) (w : Fin 16) :
    (dat1 (fun c b => U3 m c b) c).arrAt w cfg1.N = V4 m (outs m) c (Pipeline.arrRef spec1 w) := by
  by_cases hw : w = 15
  · subst hw; exact (V4_main_v9 m c).symm
  · have hin : (cfg1.win w).isOut = false := by revert w; decide
    have hne : Pipeline.arrRef spec1 w ∉ ([main_v9] : List (Ref sig .tc)) := by revert w; decide
    rw [(dat1 (fun c b => U3 m c b) c).arrAt_in w hin, A_eq1, V4_of m (outs m) c _ hne, V3_outs]
/-- Every array that is none of the head's is as the region found it. -/
theorem rest1 (c : Dev nD) (b : Ref sig .tc) (hb : b ∉ Finset.univ.image (Pipeline.arrRef spec1)) :
    V4 m (outs m) c b = U3 m c b :=
  (V4_of m (outs m) c b fun h =>
    hb (Finset.mem_image.mpr ⟨15, Finset.mem_univ _, (List.mem_singleton.mp h).symm⟩)).trans (congrFun (V3_outs m c) _)

/-! ## The regions as segments -/

set_option backward.isDefEq.respectTransparency.types false in
/-- The first linear layer's region between the thread states before and after it: its four arrays taken out of the
    unscoped arrays at what the region finds and put back at what it leaves; the generator register and the scoped rest
    into the accumulator's invariant at its first end and out of it at its last; nothing owed; no semaphore of the
    kernel's own. -/
def reg0 : RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ Lz lvz 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hbufs, Hreg, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩
      iexists W
      isplitr; · ipureintro; exact fun _ _ => Or.inl trivial
      iexact Howe
    isplitl [Hreg]; · iexact Hreg
    iexact Hrest
  hin c := by
    refine .trans ?_ (hin0 (U1 m) c)
    unfold Pipeline.ΦA
    iintro ⟨Hreg, -, Hsc⟩
    isplitl [Hsc]; · iexact Hsc
    iexact Hreg
  hout c := by
    rw [Pipeline.ownSems0_none]
    refine (hout0 (U1 m) c).trans ?_
    unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (fun b => V2 m (outs m) c b) ((pdats m 0 c).arrAt · cfg0.N) (ends0 m c) (rest0 m c)
    rw [Pipeline.unscopedBufs_held] at hjoin
    iintro ⟨Harr, Howe, Hreg, Hrest⟩
    imodintro
    isplitl [Harr Hrest]
    · iapply hjoin; isplitl [Harr] <;> iassumption
    isplitl [Hreg]; · iexact Hreg
    unfold Pipeline.Dat.owesAt Pipeline.owesWithin
    icases Howe with ⟨%W, -, Howe⟩
    iexists W; iexact Howe

set_option backward.isDefEq.respectTransparency.types false in
/-- The head's region between the thread states before and after it: its sixteen arrays taken out of the unscoped
    arrays at what the region finds (the activations, the rounded weights, the biases) and put back at what it leaves;
    the generator register and the scoped rest through the region's invariant; nothing owed; no semaphore of the
    kernel's own. -/
def reg1 : RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (fun c b => U3 m c b) c).loose
  hwaits := Pipeline.hwaits_of_owed_zero _ _ _ _ Lz lvz 1 fun _ _ => rfl
  pre c := iprop(StableHlo.held (c : Thread nD τ) (Pipeline.ucRefs τ sig) (V3 m (outs m) c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (fun b => U3 m c b)
  hentry c := by
    rw [Pipeline.ownSems0_none, V3_outs]
    have hsplit := Pipeline.arrays_of_unscopedBufs (p := 1) (pcfgs (F := F)) adm (pdats m) launch1.win launch1.arr_whole c
      ((pdats m 1 c).share_full fun _ => rfl) (fun b => U3 m c b) fun _ => rfl
    rw [Pipeline.unscopedBufs_held] at hsplit
    iintro ⟨⟨Hbufs, Hreg, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩
      iexists W
      isplitr; · ipureintro; exact fun _ _ => Or.inl trivial
      iexact Howe
    isplitl [Hreg]; · iexact Hreg
    iexact Hrest
  hin c := by
    rw [show (pdats m 1 c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]; unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => U3 m c b) (fun b => V4 m (outs m) c b) ((pdats m 1 c).arrAt · cfg1.N) (ends1 m c) (rest1 m c)
    rw [Pipeline.unscopedBufs_held] at hjoin
    iintro ⟨Harr, Howe, Hreg, Hrest⟩
    imodintro
    isplitl [Harr Hrest]
    · iapply hjoin; isplitl [Harr] <;> iassumption
    isplitl [Hreg]; · iexact Hreg
    unfold Pipeline.Dat.owesAt Pipeline.owesWithin
    icases Howe with ⟨%W, -, Howe⟩
    iexists W; iexact Howe

/-! ## The launch -/

/-- The launch's ghost element is the pipelines' own; no core is given anything besides. -/
theorem launch_elt :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · iempintro

/-- From what the launch deals a core, its generator register and its owing nothing are kept beside the arrays. -/
theorem rest_launch :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
      ⊢ (|={Set.univ}=> bigSep Finset.univ (Rst (F := F)) : sProp 𝕄) := by
  refine Pipeline.initEach Lz lvz fun c => ?_
  iintro ⟨⟨-, Howe, -, Hreg, -⟩, -⟩
  imodintro
  isplitl [Hreg]; · iexists _; iexact Hreg
  iexists ∅; iexact Howe

/-- At the end a core owes nothing. -/
theorem rest_end (c : Dev nD) :
    Rst (F := F) c ⊢ (iprop(∃ W, owes (c : Thread nD τ) (0 : CellTallies nD τ sig Unit) W) : sProp 𝕄) := by
  iintro ⟨-, Howe⟩; iexact Howe

set_option backward.isDefEq.respectTransparency.types false in
/-- THE FRAME: from any memory with zero counters every weakly fair execution of the program terminates and every
    argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_cond m emb₁ () Variants.none Lz lvz (fun _ _ => rfl) ρ (outs m) (pdats m) 0 (fun _ => iprop(emp))
    (initOf (Pipeline.cells cfgs cellOf_inj) (Pipeline.launchToks cfgs cellOf_inj)) launch_elt
    (fun _ => Rst) (rest_launch ρ) rest_end
    (reg0 m) (fun _ => .rfl) (fun _ => .rfl) (reg1 m) (fun _ => .rfl) (fun _ => .rfl)

set_option backward.isDefEq.respectTransparency.types false in
/-- THE RUN WITH ITS VALUE: moreover the result array ends holding the head's value of what the head's region found. -/
theorem run_value : θ_run defs (onTc (τ := τ) (main (F := F))) ⟨m, fun _ => 0, ρ⟩ (fun r => ∀ c : Dev nD,
      r.2.mem ((c.tc : Thread nD τ).loc main_v9) = o9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine Pipeline.θ_run_regions_kit_dev (pcfgs (F := F)) adm (pdats m) () cellOf_inj emb₁ defs₀ Variants.none Lz lvz m ρ main
    (segs m (outs m) Variants.none Lz lvz (fun _ => Rst) () (pdats m) (reg0 m) (reg1 m))
    (fun c Q => by
      rewrite [main_chain c, Seg.run_eq_chain]
      exact .rfl)
    (fun c => by simp only [segs, Seg.pipes_host, Seg.pipes_region, Seg.pipes_nil]; decide)
    0 (fun _ _ => rfl) (fun _ => iprop(emp))
    (initOf (Pipeline.cells cfgs cellOf_inj) (Pipeline.launchToks cfgs cellOf_inj)) launch_elt
    (T₀ := fun c => iprop(StableHlo.held (c : Thread nD τ) (Pipeline.ucRefs τ sig) (V0 m c) ∗ Rst c))
    (Tₙ := fun c => StableHlo.held (c : Thread nD τ) (Pipeline.ucRefs τ sig) (V4 m (outs m) c))
    (hch := fun c => ⟨.rfl, .rfl, .rfl, .rfl, sep_mono .rfl (rest_end c)⟩)
    (hinit := ?_)
    (QY := fun c s => s.mem ((c.tc : Thread nD τ).loc main_v9) = o9 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16))
    (hfin := fun c s' => ?_) (hQ := fun _ h => h)
  · -- the launch: every core's unscoped arrays at the launch contents, its register and its owing nothing beside them
    refine Pipeline.initEach Lz lvz fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hbufs, -, Howe, -, Hreg, -⟩, -⟩
    imodintro
    isplitl [Hbufs]; · iexact Hbufs
    isplitl [Hreg]; · iexists _; iexact Hreg
    iexists ∅; iexact Howe
  · -- the end: the result array and each argument array read off the last contents
    unfold StableHlo.held
    iintro ⟨Hbufs, HSI⟩
    ihave Hr := (pointsTo_read_all (Pipeline.ucRefs τ sig) (fun b => ((c : Thread nD τ).1, b)) (V4 m (outs m) c) s') $$ [Hbufs HSI]
    · isplitl [Hbufs] <;> iassumption
    icases Hr with ⟨%h, HSI⟩
    imodintro
    isplitr
    · ipureintro
      exact ⟨(h _ (mem_held main_v9 (by decide))).trans (V4_main_v9 m c),
        (h _ (mem_held main_arg0 (by decide))).trans (V4_main_arg0 m (outs m) c),
        (h _ (mem_held main_arg1 (by decide))).trans (V4_main_arg1 m (outs m) c),
        (h _ (mem_held main_arg2 (by decide))).trans (V4_main_arg2 m (outs m) c),
        (h _ (mem_held main_arg3 (by decide))).trans (V4_main_arg3 m (outs m) c),
        (h _ (mem_held main_arg4 (by decide))).trans (V4_main_arg4 m (outs m) c),
        (h _ (mem_held main_arg5 (by decide))).trans (V4_main_arg5 m (outs m) c),
        (h _ (mem_held main_arg6 (by decide))).trans (V4_main_arg6 m (outs m) c),
        (h _ (mem_held main_arg7 (by decide))).trans (V4_main_arg7 m (outs m) c),
        (h _ (mem_held main_arg8 (by decide))).trans (V4_main_arg8 m (outs m) c),
        (h _ (mem_held main_arg9 (by decide))).trans (V4_main_arg9 m (outs m) c),
        (h _ (mem_held main_arg10 (by decide))).trans (V4_main_arg10 m (outs m) c),
        (h _ (mem_held main_arg11 (by decide))).trans (V4_main_arg11 m (outs m) c),
        (h _ (mem_held main_arg12 (by decide))).trans (V4_main_arg12 m (outs m) c),
        (h _ (mem_held main_arg13 (by decide))).trans (V4_main_arg13 m (outs m) c),
        (h _ (mem_held main_arg14 (by decide))).trans (V4_main_arg14 m (outs m) c),
        (h _ (mem_held main_arg15 (by decide))).trans (V4_main_arg15 m (outs m) c),
        (h _ (mem_held main_arg16 (by decide))).trans (V4_main_arg16 m (outs m) c)⟩
    · iexact HSI

end Cert.KernelIdeal.Gen

end
-- ==== Proof.Spec.lean ====
/-
  The first linear layer as ONE function of the flattened input, the weight and the bias, index by index over the
  extended reals: entry (p, q) of the result is the sum over the 50176 contracted positions k of x(p, k) * w(q, k),
  plus b(q). Both programs' first stage is proved equal to it: the kernel's by adding up its 28 block products, the
  reference's by reading its transposed product and its two broadcasts at an index.
-/
import Idealize.ShloMosaic.PureOps.Ideal
import Idealize.ShloMosaic.Lib.ValueIdx

noncomputable section

namespace Cert.Proof.Spec

open Idealize.ShloMosaic Idealize.ShloMosaic.ValueIdx
open scoped BigOperators

/-- `fc1M x w b (p, q) = (∑ k, x (p, k) * w (q, k)) + b q`. -/
def fc1M (x : Vec Ideal ⟨2, ![512, 50176]⟩ .f32) (w : Vec Ideal ⟨2, ![1024, 50176]⟩ .f32) (b : Vec Ideal ⟨1, ![1024]⟩ .f32) :
    Vec Ideal ⟨2, ![512, 1024]⟩ .f32 :=
  fun j => ((∑ k : Fin 50176, (x (ix2 (j 0) k) : EReal) * (w (ix2 (j 1) k) : EReal)) + (b (ix1 (j 1)) : EReal) : EReal)

theorem fc1M_apply (x : Vec Ideal ⟨2, ![512, 50176]⟩ .f32) (w : Vec Ideal ⟨2, ![1024, 50176]⟩ .f32) (b : Vec Ideal ⟨1, ![1024]⟩ .f32)
    (p : Fin 512) (q : Fin 1024) :
    fc1M x w b (ix2 p q) = ((∑ k : Fin 50176, (x (ix2 p k) : EReal) * (w (ix2 q k) : EReal)) + (b (ix1 q) : EReal) : EReal) := rfl

end Cert.Proof.Spec

end
-- ==== Proof.KI.R0Value.lean ====
/-
  The first linear layer's region, its value. Grid point t = 28 * mi + ki works on rows 256*mi .. 256*mi+255 of the
  output and on columns 1792*ki .. 1792*ki+1791 of the contracted axis. The carried accumulator holds, after point t,
  at (r, q), the sum over the column blocks kb ≤ ki and the positions kk < 1792 inside a block of
  x(256*mi + r, 1792*kb + kk) * w(q, 1792*kb + kk). At ki = 27 the 28 blocks of 1792 columns are all 50176 columns, the
  bias is added, and the row block is written back; the two row blocks cover the 512 rows. Only that addition of
  extended reals is commutative and associative is used.
-/
import proofs.«109190_j31490700214886_1_alg».proof.Proof.KI.R0Defs
import proofs.«109190_j31490700214886_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0Value

open Idealize.ShloMosaic Idealize.ShloMosaic.TcCoe Idealize.ShloMosaic.ValueIdx
open Idealize.ShloMosaic.Pipeline (Dat)
open Cert.KernelIdeal Cert.KernelIdeal.Gen
open scoped BigOperators

/-! ## The block product's operand indices

The dot contracts axis 1 of the input block with axis 1 of the weight block: at output index (r, q) and contracted
position kk the operands are read at (r, kk) and (q, kk). -/

theorem lhs_row (j : S256x1024.Idx) (k : dot_S256x1792_S1024x1792_S256x1024_1_1_0_0_n_n.contr.Idx) :
    (dot_S256x1792_S1024x1792_S256x1024_1_1_0_0_n_n.lhsIdx j k 0).val = (j 0).val := by
  unfold DotDims.lhsIdx
  rw [dif_neg (show ¬(0 : Fin S256x1792.rank) ∈ dot_S256x1792_S1024x1792_S256x1024_1_1_0_0_n_n.lhsBatch by decide), dif_pos (show (0 : Fin S256x1792.rank) ∈ dot_S256x1792_S1024x1792_S256x1024_1_1_0_0_n_n.lhsNonContracting by decide)]
  rfl
theorem lhs_col (j : S256x1024.Idx) (k : dot_S256x1792_S1024x1792_S256x1024_1_1_0_0_n_n.contr.Idx) :
    (dot_S256x1792_S1024x1792_S256x1024_1_1_0_0_n_n.lhsIdx j k 1).val = (k ⟨0, by decide⟩).val :=
  dot_S256x1792_S1024x1792_S256x1024_1_1_0_0_n_n.lhsIdx_val_of_single rfl j k
theorem rhs_row (j : S256x1024.Idx) (k : dot_S256x1792_S1024x1792_S256x1024_1_1_0_0_n_n.contr.Idx) :
    (dot_S256x1792_S1024x1792_S256x1024_1_1_0_0_n_n.rhsIdx j k 0).val = (j 1).val := by
  unfold DotDims.rhsIdx
  rw [dif_neg (show ¬(0 : Fin S1024x1792.rank) ∈ dot_S256x1792_S1024x1792_S256x1024_1_1_0_0_n_n.rhsBatch by decide), dif_pos (show (0 : Fin S1024x1792.rank) ∈ dot_S256x1792_S1024x1792_S256x1024_1_1_0_0_n_n.rhsNonContracting by decide)]
  rfl
theorem rhs_col (j : S256x1024.Idx) (k : dot_S256x1792_S1024x1792_S256x1024_1_1_0_0_n_n.contr.Idx) :
    (dot_S256x1792_S1024x1792_S256x1024_1_1_0_0_n_n.rhsIdx j k 1).val = (k ⟨0, by decide⟩).val :=
  dot_S256x1792_S1024x1792_S256x1024_1_1_0_0_n_n.rhsIdx_val_of_single rfl j k

/-! ## The three payloads at an index -/

/-- The reset value is zero everywhere. -/
theorem reset_apply (i : S256x1024.Idx) : k0_pay1 (F := Ideal) i = 0 := by
  unfold k0_pay1
  rw [shapeCast_self]
  exact Ideal.ofBits_zero_f32

/-- One step: the accumulator's entry plus the product of row r of the input block with row q of the weight block. -/
theorem step_apply (x : Vec Ideal S256x1792 .f32) (w : Vec Ideal S1024x1792 .f32) (acc : Vec Ideal S256x1024 .f32)
    (r : Fin 256) (q : Fin 1024) :
    k0_pay2 x w acc (ix2 r q) = acc (ix2 r q) + ∑ kk : Fin 1792, x (ix2 r kk) * w (ix2 q kk) := by
  unfold k0_pay2
  rw [shapeCast_self, addf_apply]
  refine congrArg (acc (ix2 r q) + ·) ?_
  simp only [matmul]
  rw [Ideal.matmul_constant_zero_apply,
    ← Equiv.sum_comp (contrEquiv1 dot_S256x1792_S1024x1792_S256x1024_1_1_0_0_n_n 1792 rfl rfl).symm]
  refine Finset.sum_congr rfl fun kk _ => ?_
  have hk := contrEquiv1_symm_val dot_S256x1792_S1024x1792_S256x1024_1_1_0_0_n_n 1792 rfl rfl kk
  have el : dot_S256x1792_S1024x1792_S256x1024_1_1_0_0_n_n.lhsIdx (ix2 r q)
      ((contrEquiv1 dot_S256x1792_S1024x1792_S256x1024_1_1_0_0_n_n 1792 rfl rfl).symm kk) = ix2 r kk :=
    funext fun a => Fin.ext (by
      match a with
      | ⟨0, _⟩ => exact lhs_row _ _
      | ⟨1, _⟩ => exact (lhs_col _ _).trans hk)
  have er : dot_S256x1792_S1024x1792_S256x1024_1_1_0_0_n_n.rhsIdx (ix2 r q)
      ((contrEquiv1 dot_S256x1792_S1024x1792_S256x1024_1_1_0_0_n_n 1792 rfl rfl).symm kk) = ix2 q kk :=
    funext fun a => Fin.ext (by
      match a with
      | ⟨0, _⟩ => exact rhs_row _ _
      | ⟨1, _⟩ => exact (rhs_col _ _).trans hk)
  rw [el, er, truncf_apply, truncf_apply, shapeCast_self]

/-- The epilogue: the accumulator's entry plus the bias at the column. -/
theorem bias_apply (acc : Vec Ideal S256x1024 .f32) (b : Vec Ideal S1024 .f32) (r : Fin 256) (q : Fin 1024) :
    k0_pay3 acc b (ix2 r q) = acc (ix2 r q) + b (ix1 q) := by
  unfold k0_pay3
  rw [addf_apply]
  refine congrArg (acc (ix2 r q) + ·) ?_
  refine (broadcastTo_apply _ broadcasts_S1x1024_S256x1024 (ix2 r q) (ix2 (0 : Fin 1) q) (fun a => by
    match a with
    | ⟨0, _⟩ => rfl
    | ⟨1, _⟩ => rfl)).trans ?_
  exact shapeCast_apply b shapeCasts_S1024_S1x1024 (ix2 (0 : Fin 1) q) (ix1 q) (by
    rw [Shape.rowMajor_val_one, Shape.rowMajor_val_two]
    show q.val = 0 * 1024 + q.val
    omega)

/-! ## Where a block sits in its array -/

/-- The block indices at point t = 28 * mi + ki: the input block is (mi, ki), the weight block (0, ki), the bias block
    0, the output block (mi, 0). -/
theorem blockIndex : ∀ t : Fin cfg0.N,
    win0_0.index t 0 = t.val / 28 ∧ win0_0.index t 1 = t.val % 28
    ∧ win0_1.index t 0 = 0 ∧ win0_1.index t 1 = t.val % 28
    ∧ win0_2.index t 0 = 0
    ∧ win0_3.index t 0 = t.val / 28 ∧ win0_3.index t 1 = 0 :=
  (by decide +kernel : ∀ t : Fin grid0.N,
    win0_0.index t 0 = t.val / 28 ∧ win0_0.index t 1 = t.val % 28
    ∧ win0_1.index t 0 = 0 ∧ win0_1.index t 1 = t.val % 28
    ∧ win0_2.index t 0 = 0
    ∧ win0_3.index t 0 = t.val / 28 ∧ win0_3.index t 1 = 0)

section Arrays
variable (V : (c : Dev nD) → (b : Ref sig .tc) → Buf (Elt Ideal) ((c : Thread nD τ).loc b))

/-- The flattened input, 512 x 50176. -/
abbrev xarr (c : Dev nD) : Vec Ideal ⟨2, ![512, 50176]⟩ .f32 := V c main_v0
/-- The weight, 1024 x 50176. -/
abbrev warr (c : Dev nD) : Vec Ideal ⟨2, ![1024, 50176]⟩ .f32 := V c main_arg1
/-- The bias, 1024. -/
abbrev barr (c : Dev nD) : Vec Ideal ⟨1, ![1024]⟩ .f32 := V c main_arg2

/-- Entry (r, kk) of the input block at point t is entry (256 * (t / 28) + r, 1792 * (t % 28) + kk) of the input. -/
theorem xblk_apply (c : Dev nD) (t : Fin cfg0.N) (r : Fin 256) (kk : Fin 1792) (P : Fin 512) (K : Fin 50176)
    (hP : P.val = 256 * (t.val / 28) + r.val) (hK : K.val = 1792 * (t.val % 28) + kk.val) :
    xblk V c t (ix2 r kk) = xarr V c (ix2 P K) := by
  have hi := blockIndex t
  show iblk0 V c 0 t (ix2 r kk) = _
  unfold iblk0
  rw [View.read_apply]
  show V c main_v0 _ = V c main_v0 (ix2 P K)
  refine congrArg (V c main_v0) (funext fun a => Fin.ext ?_)
  match a with
  | ⟨0, _⟩ => show win0_0.index t 0 * 256 + 1 * r.val = P.val; rw [hi.1, hP]; omega
  | ⟨1, _⟩ => show win0_0.index t 1 * 1792 + 1 * kk.val = K.val; rw [hi.2.1, hK]; omega

/-- Entry (q, kk) of the weight block at point t is entry (q, 1792 * (t % 28) + kk) of the weight. -/
theorem wblk_apply (c : Dev nD) (t : Fin cfg0.N) (q : Fin 1024) (kk : Fin 1792) (K : Fin 50176)
    (hK : K.val = 1792 * (t.val % 28) + kk.val) :
    wblk V c t (ix2 q kk) = warr V c (ix2 q K) := by
  have hi := blockIndex t
  show iblk0 V c 1 t (ix2 q kk) = _
  unfold iblk0
  rw [View.read_apply]
  show V c main_arg1 _ = V c main_arg1 (ix2 q K)
  refine congrArg (V c main_arg1) (funext fun a => Fin.ext ?_)
  match a with
  | ⟨0, _⟩ => show win0_1.index t 0 * 1024 + 1 * q.val = q.val; rw [hi.2.2.1]; omega
  | ⟨1, _⟩ => show win0_1.index t 1 * 1792 + 1 * kk.val = K.val; rw [hi.2.2.2.1, hK]; omega

/-- The bias block at any point is the bias. -/
theorem bblk_apply (c : Dev nD) (t : Fin cfg0.N) (q : Fin 1024) : bblk V c t (ix1 q) = barr V c (ix1 q) := by
  have hi := blockIndex t
  show iblk0 V c 2 t (ix1 q) = _
  unfold iblk0
  rw [View.read_apply]
  show V c main_arg2 _ = V c main_arg2 (ix1 q)
  refine congrArg (V c main_arg2) (funext fun a => Fin.ext ?_)
  match a with
  | ⟨0, _⟩ => show win0_2.index t 0 * 1024 + 1 * q.val = q.val; rw [hi.2.2.2.2.1]; omega

/-! ## The accumulator is a sum of block products -/

/-- The product of point n's input block with its weight block, at an index of the output block; zero past the grid. -/
def blockTerm (c : Dev nD) (n : ℕ) (i : S256x1024.Idx) : EReal :=
  if h : n < cfg0.N then ∑ kk : Fin 1792, xblk V c ⟨n, h⟩ (ix2 (i 0) kk) * wblk V c ⟨n, h⟩ (ix2 (i 1) kk) else 0

theorem blockTerm_of_lt (c : Dev nD) (n : ℕ) (h : n < cfg0.N) (i : S256x1024.Idx) :
    blockTerm V c n i = ∑ kk : Fin 1792, xblk V c ⟨n, h⟩ (ix2 (i 0) kk) * wblk V c ⟨n, h⟩ (ix2 (i 1) kk) := dif_pos h

/-- A step from any accumulator adds the point's block product. -/
theorem step_blockTerm (c : Dev nD) (n : ℕ) (h : n < cfg0.N) (acc : Vec Ideal S256x1024 .f32) (i : S256x1024.Idx) :
    k0_pay2 (xblk V c ⟨n, h⟩) (wblk V c ⟨n, h⟩) acc i = acc i + blockTerm V c n i := by
  rw [blockTerm_of_lt V c n h i]
  obtain ⟨r, q, rfl⟩ : ∃ (r : Fin 256) (q : Fin 1024), i = ix2 r q := ⟨i 0, i 1, eq_ix2 i⟩
  exact step_apply (xblk V c ⟨n, h⟩) (wblk V c ⟨n, h⟩) acc r q

/-- After point t the accumulator holds the sum of the block products of the points of t's row block up to t. -/
theorem acc_eq_sum (c : Dev nD) (t : Fin cfg0.N) (i : S256x1024.Idx) :
    accAt0 V c t.val t.isLt i = ∑ s ∈ Finset.range (t.val % 28 + 1), blockTerm V c (28 * (t.val / 28) + s) i := by
  have h' : 28 * (t.val / 28) + t.val % 28 < cfg0.N := by rw [Nat.div_add_mod]; exact t.isLt
  have fold := Pipeline.eq_accAt_of_mod (N := cfg0.N) (accAt0 V c) 28
    (fun n h => k0_pay2 (xblk V c ⟨n, h⟩) (wblk V c ⟨n, h⟩) (k0_pay1 (F := Ideal)))
    (fun n h acc => k0_pay2 (xblk V c ⟨n, h⟩) (wblk V c ⟨n, h⟩) acc)
    (fun n h hm => accAt0_reset V c ⟨n, h⟩ hm)
    (fun n h hne => accAt0_step V c ⟨n + 1, h⟩ hne)
    (by decide) t.val t.isLt h'
  rw [fold]
  have unrolled := Pipeline.accAt_add_apply (N := cfg0.N) (ι := S256x1024.Idx) (β := EReal)
    (fun n h => k0_pay2 (xblk V c ⟨n, h⟩) (wblk V c ⟨n, h⟩) (k0_pay1 (F := Ideal)))
    (fun n h acc => k0_pay2 (xblk V c ⟨n, h⟩) (wblk V c ⟨n, h⟩) acc)
    (fun _ => 0) (blockTerm V c) (28 * (t.val / 28)) 27
    (fun h j => by
      show k0_pay2 (xblk V c ⟨_, h⟩) (wblk V c ⟨_, h⟩) (k0_pay1 (F := Ideal)) j = 0 + blockTerm V c _ j
      rw [step_blockTerm V c _ h (k0_pay1 (F := Ideal)) j, reset_apply])
    (fun n h acc j _ _ => step_blockTerm V c n h acc j)
    (t.val % 28) (by omega) h' i
  rw [unrolled, zero_add]

end Arrays

/-! ## From the 28 column blocks to all 50176 columns -/

/-- Summing over the column block and then over the position inside it is summing over every column. -/
theorem sum_colBlocks {M : Type*} [AddCommMonoid M] (f : Fin 50176 → M) :
    ∑ s : Fin 28, ∑ kk : Fin 1792, f ⟨1792 * s.val + kk.val, by have := s.isLt; have := kk.isLt; omega⟩ = ∑ k, f k := by
  rw [← Fintype.sum_prod_type (fun x : Fin 28 × Fin 1792 =>
    f ⟨1792 * x.1.val + x.2.val, by have := x.1.isLt; have := x.2.isLt; omega⟩)]
  refine Fintype.sum_equiv (finProdFinEquiv.trans (finCongr (by norm_num))) _ _ fun x => congrArg f (Fin.ext ?_)
  show 1792 * x.1.val + x.2.val = x.2.val + 1792 * x.1.val
  omega

section Value
variable (V : (c : Dev nD) → (b : Ref sig .tc) → Buf (Elt Ideal) ((c : Thread nD τ).loc b))

/-- The block product of a point in row block t / 28 and column block s, at (r, q), over the arrays: the products of
    row 256 * (n / 28) + r of the input with row q of the weight over the 1792 columns of block s. -/
theorem blockTerm_arr (c : Dev nD) (n : ℕ) (hn : n < cfg0.N) (r : Fin 256) (q : Fin 1024) (P : Fin 512)
    (hP : P.val = 256 * (n / 28) + r.val) (s : Fin 28) (hs : n % 28 = s.val) :
    blockTerm V c n (ix2 r q)
      = ∑ kk : Fin 1792,
          xarr V c (ix2 P ⟨1792 * s.val + kk.val, by have := s.isLt; have := kk.isLt; omega⟩)
            * warr V c (ix2 q ⟨1792 * s.val + kk.val, by have := s.isLt; have := kk.isLt; omega⟩) := by
  rw [blockTerm_of_lt V c n hn]
  refine Finset.sum_congr rfl fun kk _ => ?_
  show xblk V c ⟨n, hn⟩ (ix2 r kk) * wblk V c ⟨n, hn⟩ (ix2 q kk) = _
  rw [xblk_apply V c ⟨n, hn⟩ r kk P ⟨1792 * s.val + kk.val, by have := s.isLt; have := kk.isLt; omega⟩ hP
      (by show 1792 * s.val + kk.val = 1792 * (n % 28) + kk.val; rw [hs]),
    wblk_apply V c ⟨n, hn⟩ q kk ⟨1792 * s.val + kk.val, by have := s.isLt; have := kk.isLt; omega⟩
      (by show 1792 * s.val + kk.val = 1792 * (n % 28) + kk.val; rw [hs])]

/-- At the last point of a row block the accumulator plus the bias is the first linear layer at the rows of that
    block: the 28 block products add up to the sum over all 50176 columns. -/
theorem out_apply (c : Dev nD) (t : Fin cfg0.N) (ht : t.val % 28 = 27) (r : Fin 256) (q : Fin 1024) (P : Fin 512)
    (hP : P.val = 256 * (t.val / 28) + r.val) :
    k0_pay3 (accAt0 V c t.val t.isLt) (bblk V c t) (ix2 r q)
      = Cert.Proof.Spec.fc1M (xarr V c) (warr V c) (barr V c) (ix2 P q) := by
  have hN : cfg0.N = 56 := N_0
  have htN := t.isLt
  rw [bias_apply, acc_eq_sum, bblk_apply, Cert.Proof.Spec.fc1M_apply, ht]
  refine congrArg (· + barr V c (ix1 q)) ?_
  rw [Finset.sum_range, ← sum_colBlocks (fun k => xarr V c (ix2 P k) * warr V c (ix2 q k))]
  refine Finset.sum_congr rfl fun s _ => ?_
  have hs := s.isLt
  exact blockTerm_arr V c (28 * (t.val / 28) + s.val) (by omega) r q P (by omega) s (by omega)

end Value

/-! ## The output array -/

section Output
variable (V : (c : Dev nD) → (b : Ref sig .tc) → Buf (Elt Ideal) ((c : Thread nD τ).loc b))

/-- What the last point of a row block writes back is that row block of the first linear layer. -/
theorem flushed_eq (c : Dev nD) (t : Fin cfg0.N) (hf : (cfg0.win 3).flush t = true) :
    (dat0 (F := Ideal) V c).flushed 3 t
      = ((cfg0.win 3).blk t).view.read (Elt Ideal) (Cert.Proof.Spec.fc1M (xarr V c) (warr V c) (barr V c)) := by
  have ht : t.val % 28 = 27 := (flush0_3 t).mp hf
  have hi := blockIndex t
  have hN : cfg0.N = 56 := N_0
  have htN := t.isLt
  funext y
  obtain ⟨r, q, rfl⟩ : ∃ (r : Fin 256) (q : Fin 1024), y = ix2 r q := ⟨y 0, y 1, eq_ix2 y⟩
  rw [View.read_apply]
  show (dat0 (F := Ideal) V c).after 3 t (ix2 r q) = Cert.Proof.Spec.fc1M (xarr V c) (warr V c) (barr V c) _
  rw [after0_3]
  refine (out_apply V c t ht r q ⟨256 * (t.val / 28) + r.val, by omega⟩ rfl).trans ?_
  refine congrArg (Cert.Proof.Spec.fc1M (xarr V c) (warr V c) (barr V c)) (funext fun a => Fin.ext ?_)
  match a with
  | ⟨0, _⟩ => show 256 * (t.val / 28) + r.val = win0_3.index t 0 * 256 + 1 * r.val; rw [hi.2.2.2.2.2.1]; omega
  | ⟨1, _⟩ => show q.val = win0_3.index t 1 * 1024 + 1 * q.val; rw [hi.2.2.2.2.2.2]; omega

/-- Every row lies in one of the two row blocks, written back at the last point of that block. -/
theorem cover (i : S512x1024.Idx) :
    ∃ t : Fin cfg0.N, (cfg0.win 3).flush t = true ∧ i ∈ ((cfg0.win 3).blk t).view.set := by
  have hN : cfg0.N = 56 := N_0
  have h0 : (i 0).val < 512 := (i 0).isLt
  have h1 : (i 1).val < 1024 := (i 1).isLt
  have hlt : 28 * ((i 0).val / 256) + 27 < cfg0.N := by omega
  have hi := blockIndex ⟨28 * ((i 0).val / 256) + 27, hlt⟩
  refine ⟨⟨28 * ((i 0).val / 256) + 27, hlt⟩, (flush0_3 _).mpr (by show (28 * ((i 0).val / 256) + 27) % 28 = 27; omega), ?_⟩
  show i ∈ ((View.whole main_v1).slice (win0_3.rect ⟨28 * ((i 0).val / 256) + 27, hlt⟩)).set
  rw [View.set_slice_whole, Rect.mem_set_unit]
  intro a
  match a with
  | ⟨0, _⟩ =>
    show win0_3.index ⟨28 * ((i 0).val / 256) + 27, hlt⟩ 0 * 256 ≤ (i 0).val
      ∧ (i 0).val < win0_3.index ⟨28 * ((i 0).val / 256) + 27, hlt⟩ 0 * 256 + 256
    rw [hi.2.2.2.2.2.1]
    show (28 * ((i 0).val / 256) + 27) / 28 * 256 ≤ (i 0).val
      ∧ (i 0).val < (28 * ((i 0).val / 256) + 27) / 28 * 256 + 256
    omega
  | ⟨1, _⟩ =>
    show win0_3.index ⟨28 * ((i 0).val / 256) + 27, hlt⟩ 1 * 1024 ≤ (i 1).val
      ∧ (i 1).val < win0_3.index ⟨28 * ((i 0).val / 256) + 27, hlt⟩ 1 * 1024 + 1024
    rw [hi.2.2.2.2.2.2]
    omega

/-- After the region the output array holds the first linear layer of the input, the weight and the bias. -/
theorem region0_value (c : Dev nD) :
    (dat0 (F := Ideal) V c).arrAt 3 cfg0.N
      = Cert.Proof.Spec.fc1M (V c main_v0) (V c main_arg1) (V c main_arg2) :=
  (dat0 (F := Ideal) V c).arrAt_eq_of_cover 3 (Cert.Proof.Spec.fc1M (xarr V c) (warr V c) (barr V c))
    (flushed_eq V c) cover

end Output

end Cert.KernelIdeal.R0Value

end
-- ==== Proof.KI.Value.lean ====
/-
  The kernel's value: what the program leaves in its result array, as one function of the seventeen launch arrays. The
  head's region finds the first linear layer's activations in its first operand, which are that layer of the input
  flattened, its weight and its bias; its six projection weights and the second linear layer's weight rounded to bf16;
  its biases as launched. The result array ends at the head function of those.
-/
import proofs.«109190_j31490700214886_1_alg».proof.Proof.KI.Launch
import proofs.«109190_j31490700214886_1_alg».proof.Proof.KI.R0Value
import proofs.«109190_j31490700214886_1_alg».proof.Proof.KI.R1
import proofs.«109190_j31490700214886_1_alg».proof.Proof.Spec

set_option maxRecDepth 16384

noncomputable section

namespace Cert.KernelIdeal.Gen

open Idealize.ShloMosaic Idealize.ShloMosaic.TcCoe
open Idealize.ShloMosaic.Pipeline (Dat)

variable (m : (ℓ : Loc nD τ sig) → Buf (Elt Ideal) ℓ) (c : Dev nD)

/-- The activations the first region leaves are the first linear layer of the input flattened, the weight and the bias. -/
theorem o1_value :
    o1 (F := Ideal) m c
      = Cert.Proof.Spec.fc1M
          (shapeCast S512x50176 (m ((c.tc : Thread nD τ).loc main_arg0)) Cert.KernelIdeal.Gen.shapeCasts_S512x1024x7x7_S512x50176)
          (m ((c.tc : Thread nD τ).loc main_arg1)) (m ((c.tc : Thread nD τ).loc main_arg2)) := by
  unfold o1
  rw [Cert.KernelIdeal.R0Value.region0_value (U1 m) c, U1_main_v0, U1_main_arg1, U1_main_arg2]

/-- THE KERNEL'S VALUE: the result array ends at the head function of the first linear layer's activations, the rounded
    weights and the biases. -/
theorem kernel_value :
    o9 (F := Ideal) m c
      = headK (F := Ideal)
          (Cert.Proof.Spec.fc1M
            (shapeCast S512x50176 (m ((c.tc : Thread nD τ).loc main_arg0)) Cert.KernelIdeal.Gen.shapeCasts_S512x1024x7x7_S512x50176)
            (m ((c.tc : Thread nD τ).loc main_arg1)) (m ((c.tc : Thread nD τ).loc main_arg2)))
          (truncf (F := Ideal) .bf16 (m ((c.tc : Thread nD τ).loc main_arg3) : FVec Ideal S1024x1024 .f32) Cert.KernelIdeal.Gen.bitsLt_bf16_f32) (m ((c.tc : Thread nD τ).loc main_arg4))
          (truncf (F := Ideal) .bf16 (m ((c.tc : Thread nD τ).loc main_arg5) : FVec Ideal S1024x1024 .f32) Cert.KernelIdeal.Gen.bitsLt_bf16_f32) (m ((c.tc : Thread nD τ).loc main_arg6))
          (truncf (F := Ideal) .bf16 (m ((c.tc : Thread nD τ).loc main_arg7) : FVec Ideal S1024x1024 .f32) Cert.KernelIdeal.Gen.bitsLt_bf16_f32) (m ((c.tc : Thread nD τ).loc main_arg8))
          (truncf (F := Ideal) .bf16 (m ((c.tc : Thread nD τ).loc main_arg9) : FVec Ideal S1024x1024 .f32) Cert.KernelIdeal.Gen.bitsLt_bf16_f32) (m ((c.tc : Thread nD τ).loc main_arg10))
          (truncf (F := Ideal) .bf16 (m ((c.tc : Thread nD τ).loc main_arg11) : FVec Ideal S1024x1024 .f32) Cert.KernelIdeal.Gen.bitsLt_bf16_f32) (m ((c.tc : Thread nD τ).loc main_arg12))
          (truncf (F := Ideal) .bf16 (m ((c.tc : Thread nD τ).loc main_arg13) : FVec Ideal S1024x1024 .f32) Cert.KernelIdeal.Gen.bitsLt_bf16_f32) (m ((c.tc : Thread nD τ).loc main_arg14))
          (truncf (F := Ideal) .bf16 (m ((c.tc : Thread nD τ).loc main_arg15) : FVec Ideal S1024x1024 .f32) Cert.KernelIdeal.Gen.bitsLt_bf16_f32) (m ((c.tc : Thread nD τ).loc main_arg16)) := by
  unfold o9
  rw [arrAt1_15 (fun c b => U3 m c b) c, U3_main_v1, o1_value,
    U3_main_v2, U3_main_arg4, U3_main_v3, U3_main_arg6, U3_main_v4, U3_main_arg8,
    U3_main_v5, U3_main_arg10, U3_main_v6, U3_main_arg12, U3_main_v7, U3_main_arg14, U3_main_v8, U3_main_arg16]

end Cert.KernelIdeal.Gen

end
-- ==== Proof.Ops.lean ====
/-
  The attention head's stages, each spelt twice: once with the kernel's vector operations (a matrix product into a
  zero accumulator contracting the second axis of both operands, a bias row cast to one row and broadcast, a lane
  reduction, a statistic cast to a column and broadcast) and once with the reference's tensor operations (a
  transposed operand and a product contracting second axis against first, two broadcasts in dimension, a reduce with
  a scalar initial value, constants broadcast from rank zero). Over the extended reals a change of format is the
  identity, a product into zero is the plain sum of products, and the two reductions are the same fold or sum over the
  reduced coordinate, so each reference stage equals the kernel stage of the same operands, as whole arrays.
-/
import proofs.«109190_j31490700214886_1_alg».proof.Proof.Gen.KernelIdeal
import proofs.«109190_j31490700214886_1_alg».proof.Proof.Gen.ReferenceIdeal
import Idealize.ShloMosaic.PureOps.Ideal.Laws
import Idealize.ShloMosaic.Lib.ValueIdx
import Idealize.ShloMosaic.Lib.ValueLayout
import Idealize.ShloMosaic.Lib.Pipeline.Value

noncomputable section

namespace Cert.Proof.Ops

open Idealize.ShloMosaic Idealize.ShloMosaic.ValueIdx
open scoped BigOperators

/-! ## The kernel's spelling -/

section KernelSpelling
open Cert.KernelIdeal Cert.KernelIdeal.Gen

/-- A times W transposed: both operands contracted along their second axis, into a zero accumulator. -/
def kMat (A : FVec Ideal S512x1024 .bf16) (W : FVec Ideal S1024x1024 .bf16) : FVec Ideal S512x1024 .f32 :=
  matmul dot_S512x1024_S1024x1024_S512x1024_1_1_0_0_n_n none A
    (shapeCast S1024x1024 W shapeCasts_S1024x1024_S1024x1024) (constant S512x1024 .f32 0x00000000#32)

/-- A bias vector as 512 equal rows. -/
def kBias (B : FVec Ideal S1024 .f32) : FVec Ideal S512x1024 .f32 :=
  broadcastTo S512x1024 (shapeCast S1x1024 B shapeCasts_S1024_S1x1024) broadcasts_S1x1024_S512x1024

/-- The scaled scores: Q times K transposed, times 2^-5. -/
def kScore (Q K : FVec Ideal S512x1024 .bf16) : FVec Ideal S512x512 .f32 :=
  mulf (matmul dot_S512x1024_S512x1024_S512x512_1_1_0_0_n_n none Q K (constant S512x512 .f32 0x00000000#32))
    (broadcast S512x512 (Scalar.ofBits .f32 0x3D000000#32))

/-- The exponential of each score less max (-inf, its row's maximum). -/
def kExp (S : FVec Ideal S512x512 .f32) : FVec Ideal S512x512 .f32 :=
  exp (subf S (broadcastTo S512x512 (shapeCast S512x1
    (maximumf (broadcast S512 (Scalar.ofBits .f32 0xFF800000#32))
      (multiReduction .maximumf [1] S512 S 0xFF800000#32 reduces_S512x512_S512 (.inl rfl) rfl))
    shapeCasts_S512_S512x1) broadcasts_S512x1_S512x512))

/-- Each row divided by its sum. -/
def kNorm (E : FVec Ideal S512x512 .f32) : FVec Ideal S512x512 .f32 :=
  divf E (broadcastTo S512x512 (shapeCast S512x1
    (multiReduction .add [1] S512 E 0x00000000#32 reduces_S512x512_S512 (.inl rfl) rfl)
    shapeCasts_S512_S512x1) broadcasts_S512x1_S512x512)

/-- The weights times the values: the weights' second axis against the values' first. -/
def kPV (P : FVec Ideal S512x512 .bf16) (V : FVec Ideal S512x1024 .bf16) : FVec Ideal S512x1024 .f32 :=
  matmul dot_S512x512_S512x1024_S512x1024_1_0_0_1_n_n none P V (constant S512x1024 .f32 0x00000000#32)

/-- The positive part. -/
def kRelu (X : FVec Ideal S512x1024 .f32) : FVec Ideal S512x1024 .f32 :=
  maximumf X (broadcast S512x1024 (Scalar.ofBits .f32 0x00000000#32))

end KernelSpelling

/-! ## The reference's spelling -/

section ReferenceSpelling
open Cert.ReferenceIdeal Cert.ReferenceIdeal.Gen

/-- A times W transposed: the weight transposed, then second axis against first. -/
def rMat (A : FVec Ideal S512x1024 .f32) (W : FVec Ideal S1024x1024 .f32) : FVec Ideal S512x1024 .f32 :=
  Host.dotGeneral dot_S512x1024_S1024x1024_S512x1024_1_0_0_1_n_n none A
    (transpose S1024x1024 [1, 0] W transposes_S1024x1024_S1024x1024_1_0)

/-- A bias vector as 512 equal rows. -/
def rBias (B : FVec Ideal S1024 .f32) : FVec Ideal S512x1024 .f32 :=
  broadcastInDim S512x1024 ![0, 1] bcast_S1x1024_S512x1024_0_1 (broadcastInDim S1x1024 ![1] bcast_S1024_S1x1024_1 B)

/-- The scaled scores: Q times K transposed, times 2^-5. -/
def rScore (Q K : FVec Ideal S512x1024 .f32) : FVec Ideal S512x512 .f32 :=
  mulf (Host.dotGeneral dot_S512x1024_S1024x512_S512x512_1_0_0_1_n_n none Q
      (transpose S1024x512 [1, 0] K transposes_S512x1024_S1024x512_1_0))
    (broadcastInDim S512x512 ![] bcast_S_S512x512 (constant (F := Ideal) S_ .f32 0x3D000000#32))

/-- The exponential of each score less max (-inf, its row's maximum). -/
def rExp (S : FVec Ideal S512x512 .f32) : FVec Ideal S512x512 .f32 :=
  Host.exp (subf S (broadcastInDim S512x512 ![0, 1] bcast_S512x1_S512x512_0_1 (broadcastInDim S512x1 ![0] bcast_S512_S512x1_0
    (maximumf (broadcastInDim S512 ![] bcast_S_S512 (constant (F := Ideal) S_ .f32 0xFF800000#32))
      (Host.reduce FloatOps.maximumf S (constant (F := Ideal) S_ .f32 0xFF800000#32) reducesTo_S512x512_S512_d1 h_S_)))))

/-- Each row divided by its sum. -/
def rNorm (E : FVec Ideal S512x512 .f32) : FVec Ideal S512x512 .f32 :=
  Host.divf E (broadcastInDim S512x512 ![0, 1] bcast_S512x1_S512x512_0_1 (broadcastInDim S512x1 ![0] bcast_S512_S512x1_0
    (Host.reduceAdd E (constant (F := Ideal) S_ .f32 0x00000000#32) reducesTo_S512x512_S512_d1 h_S_)))

/-- The weights times the values. -/
def rPV (P : FVec Ideal S512x512 .f32) (V : FVec Ideal S512x1024 .f32) : FVec Ideal S512x1024 .f32 :=
  Host.dotGeneral dot_S512x512_S512x1024_S512x1024_1_0_0_1_n_n none P V

/-- The positive part. -/
def rRelu (X : FVec Ideal S512x1024 .f32) : FVec Ideal S512x1024 .f32 :=
  maximumf X (broadcastInDim S512x1024 ![] bcast_S_S512x1024 (constant (F := Ideal) S_ .f32 0x00000000#32))

end ReferenceSpelling

/-! ## Stage by stage, the two spellings agree -/

/-- Rounding to the narrower format: the identity over the extended reals. -/
abbrev bf {s : Shape} (X : FVec Ideal s .f32) : FVec Ideal s .bf16 := truncf .bf16 X Cert.KernelIdeal.Gen.bitsLt_bf16_f32

/-! ## A product read at an index

Each of the six products, the kernel's three into a zero accumulator and the reference's three, is at entry (p, q) the sum
over the one contracted coordinate k of the left operand at (p, k) times the right operand at (q, k) or (k, q), according to
which of its axes is contracted. -/

theorem kProdW_lhsN (i : (⟨2, ![512, 1024]⟩ : Shape).Idx) (c : Cert.KernelIdeal.dot_S512x1024_S1024x1024_S512x1024_1_1_0_0_n_n.contr.Idx) :
    (Cert.KernelIdeal.dot_S512x1024_S1024x1024_S512x1024_1_1_0_0_n_n.lhsIdx i c 0).val = (i 0).val := by
  unfold DotDims.lhsIdx
  rw [dif_neg (show ¬(0 : Fin (⟨2, ![512, 1024]⟩ : Shape).rank) ∈ Cert.KernelIdeal.dot_S512x1024_S1024x1024_S512x1024_1_1_0_0_n_n.lhsBatch by decide), dif_pos (show (0 : Fin (⟨2, ![512, 1024]⟩ : Shape).rank) ∈ Cert.KernelIdeal.dot_S512x1024_S1024x1024_S512x1024_1_1_0_0_n_n.lhsNonContracting by decide)]
  rfl
theorem kProdW_lhsC (i : (⟨2, ![512, 1024]⟩ : Shape).Idx) (c : Cert.KernelIdeal.dot_S512x1024_S1024x1024_S512x1024_1_1_0_0_n_n.contr.Idx) :
    (Cert.KernelIdeal.dot_S512x1024_S1024x1024_S512x1024_1_1_0_0_n_n.lhsIdx i c 1).val = (c ⟨0, by decide⟩).val :=
  Cert.KernelIdeal.dot_S512x1024_S1024x1024_S512x1024_1_1_0_0_n_n.lhsIdx_val_of_single rfl i c
theorem kProdW_rhsN (i : (⟨2, ![512, 1024]⟩ : Shape).Idx) (c : Cert.KernelIdeal.dot_S512x1024_S1024x1024_S512x1024_1_1_0_0_n_n.contr.Idx) :
    (Cert.KernelIdeal.dot_S512x1024_S1024x1024_S512x1024_1_1_0_0_n_n.rhsIdx i c 0).val = (i 1).val := by
  unfold DotDims.rhsIdx
  rw [dif_neg (show ¬(0 : Fin (⟨2, ![1024, 1024]⟩ : Shape).rank) ∈ Cert.KernelIdeal.dot_S512x1024_S1024x1024_S512x1024_1_1_0_0_n_n.rhsBatch by decide), dif_pos (show (0 : Fin (⟨2, ![1024, 1024]⟩ : Shape).rank) ∈ Cert.KernelIdeal.dot_S512x1024_S1024x1024_S512x1024_1_1_0_0_n_n.rhsNonContracting by decide)]
  rfl
theorem kProdW_rhsC (i : (⟨2, ![512, 1024]⟩ : Shape).Idx) (c : Cert.KernelIdeal.dot_S512x1024_S1024x1024_S512x1024_1_1_0_0_n_n.contr.Idx) :
    (Cert.KernelIdeal.dot_S512x1024_S1024x1024_S512x1024_1_1_0_0_n_n.rhsIdx i c 1).val = (c ⟨0, by decide⟩).val :=
  Cert.KernelIdeal.dot_S512x1024_S1024x1024_S512x1024_1_1_0_0_n_n.rhsIdx_val_of_single rfl i c
theorem kProdW_apply {φ₁ φ₂ : FTy} (L : FVec Ideal ⟨2, ![512, 1024]⟩ φ₁) (R : FVec Ideal ⟨2, ![1024, 1024]⟩ φ₂) (p : Fin 512) (q : Fin 1024) :
    matmul Cert.KernelIdeal.dot_S512x1024_S1024x1024_S512x1024_1_1_0_0_n_n none L R (constant ⟨2, ![512, 1024]⟩ .f32 0x00000000#32) (ix2 p q) = ∑ k : Fin 1024, L (ix2 p k) * R (ix2 q k) := by
  simp only [matmul]
  rw [Ideal.matmul_constant_zero_apply, ← Equiv.sum_comp (contrEquiv1 Cert.KernelIdeal.dot_S512x1024_S1024x1024_S512x1024_1_1_0_0_n_n 1024 rfl rfl).symm]
  refine Finset.sum_congr rfl fun k _ => ?_
  have hk := contrEquiv1_symm_val Cert.KernelIdeal.dot_S512x1024_S1024x1024_S512x1024_1_1_0_0_n_n 1024 rfl rfl k
  have el : Cert.KernelIdeal.dot_S512x1024_S1024x1024_S512x1024_1_1_0_0_n_n.lhsIdx (ix2 p q) ((contrEquiv1 Cert.KernelIdeal.dot_S512x1024_S1024x1024_S512x1024_1_1_0_0_n_n 1024 rfl rfl).symm k) = ix2 p k := funext fun d => Fin.ext (by
    match d with
    | ⟨0, _⟩ => exact kProdW_lhsN _ _
    | ⟨1, _⟩ => exact (kProdW_lhsC _ _).trans hk)
  have er : Cert.KernelIdeal.dot_S512x1024_S1024x1024_S512x1024_1_1_0_0_n_n.rhsIdx (ix2 p q) ((contrEquiv1 Cert.KernelIdeal.dot_S512x1024_S1024x1024_S512x1024_1_1_0_0_n_n 1024 rfl rfl).symm k) = ix2 q k := funext fun d => Fin.ext (by
    match d with
    | ⟨0, _⟩ => exact kProdW_rhsN _ _
    | ⟨1, _⟩ => exact (kProdW_rhsC _ _).trans hk)
  rw [el, er]

theorem kProdS_lhsN (i : (⟨2, ![512, 512]⟩ : Shape).Idx) (c : Cert.KernelIdeal.dot_S512x1024_S512x1024_S512x512_1_1_0_0_n_n.contr.Idx) :
    (Cert.KernelIdeal.dot_S512x1024_S512x1024_S512x512_1_1_0_0_n_n.lhsIdx i c 0).val = (i 0).val := by
  unfold DotDims.lhsIdx
  rw [dif_neg (show ¬(0 : Fin (⟨2, ![512, 1024]⟩ : Shape).rank) ∈ Cert.KernelIdeal.dot_S512x1024_S512x1024_S512x512_1_1_0_0_n_n.lhsBatch by decide), dif_pos (show (0 : Fin (⟨2, ![512, 1024]⟩ : Shape).rank) ∈ Cert.KernelIdeal.dot_S512x1024_S512x1024_S512x512_1_1_0_0_n_n.lhsNonContracting by decide)]
  rfl
theorem kProdS_lhsC (i : (⟨2, ![512, 512]⟩ : Shape).Idx) (c : Cert.KernelIdeal.dot_S512x1024_S512x1024_S512x512_1_1_0_0_n_n.contr.Idx) :
    (Cert.KernelIdeal.dot_S512x1024_S512x1024_S512x512_1_1_0_0_n_n.lhsIdx i c 1).val = (c ⟨0, by decide⟩).val :=
  Cert.KernelIdeal.dot_S512x1024_S512x1024_S512x512_1_1_0_0_n_n.lhsIdx_val_of_single rfl i c
theorem kProdS_rhsN (i : (⟨2, ![512, 512]⟩ : Shape).Idx) (c : Cert.KernelIdeal.dot_S512x1024_S512x1024_S512x512_1_1_0_0_n_n.contr.Idx) :
    (Cert.KernelIdeal.dot_S512x1024_S512x1024_S512x512_1_1_0_0_n_n.rhsIdx i c 0).val = (i 1).val := by
  unfold DotDims.rhsIdx
  rw [dif_neg (show ¬(0 : Fin (⟨2, ![512, 1024]⟩ : Shape).rank) ∈ Cert.KernelIdeal.dot_S512x1024_S512x1024_S512x512_1_1_0_0_n_n.rhsBatch by decide), dif_pos (show (0 : Fin (⟨2, ![512, 1024]⟩ : Shape).rank) ∈ Cert.KernelIdeal.dot_S512x1024_S512x1024_S512x512_1_1_0_0_n_n.rhsNonContracting by decide)]
  rfl
theorem kProdS_rhsC (i : (⟨2, ![512, 512]⟩ : Shape).Idx) (c : Cert.KernelIdeal.dot_S512x1024_S512x1024_S512x512_1_1_0_0_n_n.contr.Idx) :
    (Cert.KernelIdeal.dot_S512x1024_S512x1024_S512x512_1_1_0_0_n_n.rhsIdx i c 1).val = (c ⟨0, by decide⟩).val :=
  Cert.KernelIdeal.dot_S512x1024_S512x1024_S512x512_1_1_0_0_n_n.rhsIdx_val_of_single rfl i c
theorem kProdS_apply {φ₁ φ₂ : FTy} (L : FVec Ideal ⟨2, ![512, 1024]⟩ φ₁) (R : FVec Ideal ⟨2, ![512, 1024]⟩ φ₂) (p : Fin 512) (q : Fin 512) :
    matmul Cert.KernelIdeal.dot_S512x1024_S512x1024_S512x512_1_1_0_0_n_n none L R (constant ⟨2, ![512, 512]⟩ .f32 0x00000000#32) (ix2 p q) = ∑ k : Fin 1024, L (ix2 p k) * R (ix2 q k) := by
  simp only [matmul]
  rw [Ideal.matmul_constant_zero_apply, ← Equiv.sum_comp (contrEquiv1 Cert.KernelIdeal.dot_S512x1024_S512x1024_S512x512_1_1_0_0_n_n 1024 rfl rfl).symm]
  refine Finset.sum_congr rfl fun k _ => ?_
  have hk := contrEquiv1_symm_val Cert.KernelIdeal.dot_S512x1024_S512x1024_S512x512_1_1_0_0_n_n 1024 rfl rfl k
  have el : Cert.KernelIdeal.dot_S512x1024_S512x1024_S512x512_1_1_0_0_n_n.lhsIdx (ix2 p q) ((contrEquiv1 Cert.KernelIdeal.dot_S512x1024_S512x1024_S512x512_1_1_0_0_n_n 1024 rfl rfl).symm k) = ix2 p k := funext fun d => Fin.ext (by
    match d with
    | ⟨0, _⟩ => exact kProdS_lhsN _ _
    | ⟨1, _⟩ => exact (kProdS_lhsC _ _).trans hk)
  have er : Cert.KernelIdeal.dot_S512x1024_S512x1024_S512x512_1_1_0_0_n_n.rhsIdx (ix2 p q) ((contrEquiv1 Cert.KernelIdeal.dot_S512x1024_S512x1024_S512x512_1_1_0_0_n_n 1024 rfl rfl).symm k) = ix2 q k := funext fun d => Fin.ext (by
    match d with
    | ⟨0, _⟩ => exact kProdS_rhsN _ _
    | ⟨1, _⟩ => exact (kProdS_rhsC _ _).trans hk)
  rw [el, er]

theorem kProdV_lhsN (i : (⟨2, ![512, 1024]⟩ : Shape).Idx) (c : Cert.KernelIdeal.dot_S512x512_S512x1024_S512x1024_1_0_0_1_n_n.contr.Idx) :
    (Cert.KernelIdeal.dot_S512x512_S512x1024_S512x1024_1_0_0_1_n_n.lhsIdx i c 0).val = (i 0).val := by
  unfold DotDims.lhsIdx
  rw [dif_neg (show ¬(0 : Fin (⟨2, ![512, 512]⟩ : Shape).rank) ∈ Cert.KernelIdeal.dot_S512x512_S512x1024_S512x1024_1_0_0_1_n_n.lhsBatch by decide), dif_pos (show (0 : Fin (⟨2, ![512, 512]⟩ : Shape).rank) ∈ Cert.KernelIdeal.dot_S512x512_S512x1024_S512x1024_1_0_0_1_n_n.lhsNonContracting by decide)]
  rfl
theorem kProdV_lhsC (i : (⟨2, ![512, 1024]⟩ : Shape).Idx) (c : Cert.KernelIdeal.dot_S512x512_S512x1024_S512x1024_1_0_0_1_n_n.contr.Idx) :
    (Cert.KernelIdeal.dot_S512x512_S512x1024_S512x1024_1_0_0_1_n_n.lhsIdx i c 1).val = (c ⟨0, by decide⟩).val :=
  Cert.KernelIdeal.dot_S512x512_S512x1024_S512x1024_1_0_0_1_n_n.lhsIdx_val_of_single rfl i c
theorem kProdV_rhsN (i : (⟨2, ![512, 1024]⟩ : Shape).Idx) (c : Cert.KernelIdeal.dot_S512x512_S512x1024_S512x1024_1_0_0_1_n_n.contr.Idx) :
    (Cert.KernelIdeal.dot_S512x512_S512x1024_S512x1024_1_0_0_1_n_n.rhsIdx i c 1).val = (i 1).val := by
  unfold DotDims.rhsIdx
  rw [dif_neg (show ¬(1 : Fin (⟨2, ![512, 1024]⟩ : Shape).rank) ∈ Cert.KernelIdeal.dot_S512x512_S512x1024_S512x1024_1_0_0_1_n_n.rhsBatch by decide), dif_pos (show (1 : Fin (⟨2, ![512, 1024]⟩ : Shape).rank) ∈ Cert.KernelIdeal.dot_S512x512_S512x1024_S512x1024_1_0_0_1_n_n.rhsNonContracting by decide)]
  rfl
theorem kProdV_rhsC (i : (⟨2, ![512, 1024]⟩ : Shape).Idx) (c : Cert.KernelIdeal.dot_S512x512_S512x1024_S512x1024_1_0_0_1_n_n.contr.Idx) :
    (Cert.KernelIdeal.dot_S512x512_S512x1024_S512x1024_1_0_0_1_n_n.rhsIdx i c 0).val = (c ⟨0, by decide⟩).val :=
  Cert.KernelIdeal.dot_S512x512_S512x1024_S512x1024_1_0_0_1_n_n.rhsIdx_val_of_single rfl i c
theorem kProdV_apply {φ₁ φ₂ : FTy} (L : FVec Ideal ⟨2, ![512, 512]⟩ φ₁) (R : FVec Ideal ⟨2, ![512, 1024]⟩ φ₂) (p : Fin 512) (q : Fin 1024) :
    matmul Cert.KernelIdeal.dot_S512x512_S512x1024_S512x1024_1_0_0_1_n_n none L R (constant ⟨2, ![512, 1024]⟩ .f32 0x00000000#32) (ix2 p q) = ∑ k : Fin 512, L (ix2 p k) * R (ix2 k q) := by
  simp only [matmul]
  rw [Ideal.matmul_constant_zero_apply, ← Equiv.sum_comp (contrEquiv1 Cert.KernelIdeal.dot_S512x512_S512x1024_S512x1024_1_0_0_1_n_n 512 rfl rfl).symm]
  refine Finset.sum_congr rfl fun k _ => ?_
  have hk := contrEquiv1_symm_val Cert.KernelIdeal.dot_S512x512_S512x1024_S512x1024_1_0_0_1_n_n 512 rfl rfl k
  have el : Cert.KernelIdeal.dot_S512x512_S512x1024_S512x1024_1_0_0_1_n_n.lhsIdx (ix2 p q) ((contrEquiv1 Cert.KernelIdeal.dot_S512x512_S512x1024_S512x1024_1_0_0_1_n_n 512 rfl rfl).symm k) = ix2 p k := funext fun d => Fin.ext (by
    match d with
    | ⟨0, _⟩ => exact kProdV_lhsN _ _
    | ⟨1, _⟩ => exact (kProdV_lhsC _ _).trans hk)
  have er : Cert.KernelIdeal.dot_S512x512_S512x1024_S512x1024_1_0_0_1_n_n.rhsIdx (ix2 p q) ((contrEquiv1 Cert.KernelIdeal.dot_S512x512_S512x1024_S512x1024_1_0_0_1_n_n 512 rfl rfl).symm k) = ix2 k q := funext fun d => Fin.ext (by
    match d with
    | ⟨0, _⟩ => exact (kProdV_rhsC _ _).trans hk
    | ⟨1, _⟩ => exact kProdV_rhsN _ _)
  rw [el, er]

theorem rProdW_lhsN (i : (⟨2, ![512, 1024]⟩ : Shape).Idx) (c : Cert.ReferenceIdeal.dot_S512x1024_S1024x1024_S512x1024_1_0_0_1_n_n.contr.Idx) :
    (Cert.ReferenceIdeal.dot_S512x1024_S1024x1024_S512x1024_1_0_0_1_n_n.lhsIdx i c 0).val = (i 0).val := by
  unfold DotDims.lhsIdx
  rw [dif_neg (show ¬(0 : Fin (⟨2, ![512, 1024]⟩ : Shape).rank) ∈ Cert.ReferenceIdeal.dot_S512x1024_S1024x1024_S512x1024_1_0_0_1_n_n.lhsBatch by decide), dif_pos (show (0 : Fin (⟨2, ![512, 1024]⟩ : Shape).rank) ∈ Cert.ReferenceIdeal.dot_S512x1024_S1024x1024_S512x1024_1_0_0_1_n_n.lhsNonContracting by decide)]
  rfl
theorem rProdW_lhsC (i : (⟨2, ![512, 1024]⟩ : Shape).Idx) (c : Cert.ReferenceIdeal.dot_S512x1024_S1024x1024_S512x1024_1_0_0_1_n_n.contr.Idx) :
    (Cert.ReferenceIdeal.dot_S512x1024_S1024x1024_S512x1024_1_0_0_1_n_n.lhsIdx i c 1).val = (c ⟨0, by decide⟩).val :=
  Cert.ReferenceIdeal.dot_S512x1024_S1024x1024_S512x1024_1_0_0_1_n_n.lhsIdx_val_of_single rfl i c
theorem rProdW_rhsN (i : (⟨2, ![512, 1024]⟩ : Shape).Idx) (c : Cert.ReferenceIdeal.dot_S512x1024_S1024x1024_S512x1024_1_0_0_1_n_n.contr.Idx) :
    (Cert.ReferenceIdeal.dot_S512x1024_S1024x1024_S512x1024_1_0_0_1_n_n.rhsIdx i c 1).val = (i 1).val := by
  unfold DotDims.rhsIdx
  rw [dif_neg (show ¬(1 : Fin (⟨2, ![1024, 1024]⟩ : Shape).rank) ∈ Cert.ReferenceIdeal.dot_S512x1024_S1024x1024_S512x1024_1_0_0_1_n_n.rhsBatch by decide), dif_pos (show (1 : Fin (⟨2, ![1024, 1024]⟩ : Shape).rank) ∈ Cert.ReferenceIdeal.dot_S512x1024_S1024x1024_S512x1024_1_0_0_1_n_n.rhsNonContracting by decide)]
  rfl
theorem rProdW_rhsC (i : (⟨2, ![512, 1024]⟩ : Shape).Idx) (c : Cert.ReferenceIdeal.dot_S512x1024_S1024x1024_S512x1024_1_0_0_1_n_n.contr.Idx) :
    (Cert.ReferenceIdeal.dot_S512x1024_S1024x1024_S512x1024_1_0_0_1_n_n.rhsIdx i c 0).val = (c ⟨0, by decide⟩).val :=
  Cert.ReferenceIdeal.dot_S512x1024_S1024x1024_S512x1024_1_0_0_1_n_n.rhsIdx_val_of_single rfl i c
theorem rProdW_apply {φ₁ φ₂ : FTy} (L : FVec Ideal ⟨2, ![512, 1024]⟩ φ₁) (R : FVec Ideal ⟨2, ![1024, 1024]⟩ φ₂) (p : Fin 512) (q : Fin 1024) :
    Host.dotGeneral Cert.ReferenceIdeal.dot_S512x1024_S1024x1024_S512x1024_1_0_0_1_n_n none L R (ix2 p q) = ∑ k : Fin 1024, L (ix2 p k) * R (ix2 k q) := by
  simp only [Host.dotGeneral]
  rw [Ideal.dotGeneral_apply, ← Equiv.sum_comp (contrEquiv1 Cert.ReferenceIdeal.dot_S512x1024_S1024x1024_S512x1024_1_0_0_1_n_n 1024 rfl rfl).symm]
  refine Finset.sum_congr rfl fun k _ => ?_
  have hk := contrEquiv1_symm_val Cert.ReferenceIdeal.dot_S512x1024_S1024x1024_S512x1024_1_0_0_1_n_n 1024 rfl rfl k
  have el : Cert.ReferenceIdeal.dot_S512x1024_S1024x1024_S512x1024_1_0_0_1_n_n.lhsIdx (ix2 p q) ((contrEquiv1 Cert.ReferenceIdeal.dot_S512x1024_S1024x1024_S512x1024_1_0_0_1_n_n 1024 rfl rfl).symm k) = ix2 p k := funext fun d => Fin.ext (by
    match d with
    | ⟨0, _⟩ => exact rProdW_lhsN _ _
    | ⟨1, _⟩ => exact (rProdW_lhsC _ _).trans hk)
  have er : Cert.ReferenceIdeal.dot_S512x1024_S1024x1024_S512x1024_1_0_0_1_n_n.rhsIdx (ix2 p q) ((contrEquiv1 Cert.ReferenceIdeal.dot_S512x1024_S1024x1024_S512x1024_1_0_0_1_n_n 1024 rfl rfl).symm k) = ix2 k q := funext fun d => Fin.ext (by
    match d with
    | ⟨0, _⟩ => exact (rProdW_rhsC _ _).trans hk
    | ⟨1, _⟩ => exact rProdW_rhsN _ _)
  rw [el, er]

theorem rProdS_lhsN (i : (⟨2, ![512, 512]⟩ : Shape).Idx) (c : Cert.ReferenceIdeal.dot_S512x1024_S1024x512_S512x512_1_0_0_1_n_n.contr.Idx) :
    (Cert.ReferenceIdeal.dot_S512x1024_S1024x512_S512x512_1_0_0_1_n_n.lhsIdx i c 0).val = (i 0).val := by
  unfold DotDims.lhsIdx
  rw [dif_neg (show ¬(0 : Fin (⟨2, ![512, 1024]⟩ : Shape).rank) ∈ Cert.ReferenceIdeal.dot_S512x1024_S1024x512_S512x512_1_0_0_1_n_n.lhsBatch by decide), dif_pos (show (0 : Fin (⟨2, ![512, 1024]⟩ : Shape).rank) ∈ Cert.ReferenceIdeal.dot_S512x1024_S1024x512_S512x512_1_0_0_1_n_n.lhsNonContracting by decide)]
  rfl
theorem rProdS_lhsC (i : (⟨2, ![512, 512]⟩ : Shape).Idx) (c : Cert.ReferenceIdeal.dot_S512x1024_S1024x512_S512x512_1_0_0_1_n_n.contr.Idx) :
    (Cert.ReferenceIdeal.dot_S512x1024_S1024x512_S512x512_1_0_0_1_n_n.lhsIdx i c 1).val = (c ⟨0, by decide⟩).val :=
  Cert.ReferenceIdeal.dot_S512x1024_S1024x512_S512x512_1_0_0_1_n_n.lhsIdx_val_of_single rfl i c
theorem rProdS_rhsN (i : (⟨2, ![512, 512]⟩ : Shape).Idx) (c : Cert.ReferenceIdeal.dot_S512x1024_S1024x512_S512x512_1_0_0_1_n_n.contr.Idx) :
    (Cert.ReferenceIdeal.dot_S512x1024_S1024x512_S512x512_1_0_0_1_n_n.rhsIdx i c 1).val = (i 1).val := by
  unfold DotDims.rhsIdx
  rw [dif_neg (show ¬(1 : Fin (⟨2, ![1024, 512]⟩ : Shape).rank) ∈ Cert.ReferenceIdeal.dot_S512x1024_S1024x512_S512x512_1_0_0_1_n_n.rhsBatch by decide), dif_pos (show (1 : Fin (⟨2, ![1024, 512]⟩ : Shape).rank) ∈ Cert.ReferenceIdeal.dot_S512x1024_S1024x512_S512x512_1_0_0_1_n_n.rhsNonContracting by decide)]
  rfl
theorem rProdS_rhsC (i : (⟨2, ![512, 512]⟩ : Shape).Idx) (c : Cert.ReferenceIdeal.dot_S512x1024_S1024x512_S512x512_1_0_0_1_n_n.contr.Idx) :
    (Cert.ReferenceIdeal.dot_S512x1024_S1024x512_S512x512_1_0_0_1_n_n.rhsIdx i c 0).val = (c ⟨0, by decide⟩).val :=
  Cert.ReferenceIdeal.dot_S512x1024_S1024x512_S512x512_1_0_0_1_n_n.rhsIdx_val_of_single rfl i c
theorem rProdS_apply {φ₁ φ₂ : FTy} (L : FVec Ideal ⟨2, ![512, 1024]⟩ φ₁) (R : FVec Ideal ⟨2, ![1024, 512]⟩ φ₂) (p : Fin 512) (q : Fin 512) :
    Host.dotGeneral Cert.ReferenceIdeal.dot_S512x1024_S1024x512_S512x512_1_0_0_1_n_n none L R (ix2 p q) = ∑ k : Fin 1024, L (ix2 p k) * R (ix2 k q) := by
  simp only [Host.dotGeneral]
  rw [Ideal.dotGeneral_apply, ← Equiv.sum_comp (contrEquiv1 Cert.ReferenceIdeal.dot_S512x1024_S1024x512_S512x512_1_0_0_1_n_n 1024 rfl rfl).symm]
  refine Finset.sum_congr rfl fun k _ => ?_
  have hk := contrEquiv1_symm_val Cert.ReferenceIdeal.dot_S512x1024_S1024x512_S512x512_1_0_0_1_n_n 1024 rfl rfl k
  have el : Cert.ReferenceIdeal.dot_S512x1024_S1024x512_S512x512_1_0_0_1_n_n.lhsIdx (ix2 p q) ((contrEquiv1 Cert.ReferenceIdeal.dot_S512x1024_S1024x512_S512x512_1_0_0_1_n_n 1024 rfl rfl).symm k) = ix2 p k := funext fun d => Fin.ext (by
    match d with
    | ⟨0, _⟩ => exact rProdS_lhsN _ _
    | ⟨1, _⟩ => exact (rProdS_lhsC _ _).trans hk)
  have er : Cert.ReferenceIdeal.dot_S512x1024_S1024x512_S512x512_1_0_0_1_n_n.rhsIdx (ix2 p q) ((contrEquiv1 Cert.ReferenceIdeal.dot_S512x1024_S1024x512_S512x512_1_0_0_1_n_n 1024 rfl rfl).symm k) = ix2 k q := funext fun d => Fin.ext (by
    match d with
    | ⟨0, _⟩ => exact (rProdS_rhsC _ _).trans hk
    | ⟨1, _⟩ => exact rProdS_rhsN _ _)
  rw [el, er]

theorem rProdV_lhsN (i : (⟨2, ![512, 1024]⟩ : Shape).Idx) (c : Cert.ReferenceIdeal.dot_S512x512_S512x1024_S512x1024_1_0_0_1_n_n.contr.Idx) :
    (Cert.ReferenceIdeal.dot_S512x512_S512x1024_S512x1024_1_0_0_1_n_n.lhsIdx i c 0).val = (i 0).val := by
  unfold DotDims.lhsIdx
  rw [dif_neg (show ¬(0 : Fin (⟨2, ![512, 512]⟩ : Shape).rank) ∈ Cert.ReferenceIdeal.dot_S512x512_S512x1024_S512x1024_1_0_0_1_n_n.lhsBatch by decide), dif_pos (show (0 : Fin (⟨2, ![512, 512]⟩ : Shape).rank) ∈ Cert.ReferenceIdeal.dot_S512x512_S512x1024_S512x1024_1_0_0_1_n_n.lhsNonContracting by decide)]
  rfl
theorem rProdV_lhsC (i : (⟨2, ![512, 1024]⟩ : Shape).Idx) (c : Cert.ReferenceIdeal.dot_S512x512_S512x1024_S512x1024_1_0_0_1_n_n.contr.Idx) :
    (Cert.ReferenceIdeal.dot_S512x512_S512x1024_S512x1024_1_0_0_1_n_n.lhsIdx i c 1).val = (c ⟨0, by decide⟩).val :=
  Cert.ReferenceIdeal.dot_S512x512_S512x1024_S512x1024_1_0_0_1_n_n.lhsIdx_val_of_single rfl i c
theorem rProdV_rhsN (i : (⟨2, ![512, 1024]⟩ : Shape).Idx) (c : Cert.ReferenceIdeal.dot_S512x512_S512x1024_S512x1024_1_0_0_1_n_n.contr.Idx) :
    (Cert.ReferenceIdeal.dot_S512x512_S512x1024_S512x1024_1_0_0_1_n_n.rhsIdx i c 1).val = (i 1).val := by
  unfold DotDims.rhsIdx
  rw [dif_neg (show ¬(1 : Fin (⟨2, ![512, 1024]⟩ : Shape).rank) ∈ Cert.ReferenceIdeal.dot_S512x512_S512x1024_S512x1024_1_0_0_1_n_n.rhsBatch by decide), dif_pos (show (1 : Fin (⟨2, ![512, 1024]⟩ : Shape).rank) ∈ Cert.ReferenceIdeal.dot_S512x512_S512x1024_S512x1024_1_0_0_1_n_n.rhsNonContracting by decide)]
  rfl
theorem rProdV_rhsC (i : (⟨2, ![512, 1024]⟩ : Shape).Idx) (c : Cert.ReferenceIdeal.dot_S512x512_S512x1024_S512x1024_1_0_0_1_n_n.contr.Idx) :
    (Cert.ReferenceIdeal.dot_S512x512_S512x1024_S512x1024_1_0_0_1_n_n.rhsIdx i c 0).val = (c ⟨0, by decide⟩).val :=
  Cert.ReferenceIdeal.dot_S512x512_S512x1024_S512x1024_1_0_0_1_n_n.rhsIdx_val_of_single rfl i c
theorem rProdV_apply {φ₁ φ₂ : FTy} (L : FVec Ideal ⟨2, ![512, 512]⟩ φ₁) (R : FVec Ideal ⟨2, ![512, 1024]⟩ φ₂) (p : Fin 512) (q : Fin 1024) :
    Host.dotGeneral Cert.ReferenceIdeal.dot_S512x512_S512x1024_S512x1024_1_0_0_1_n_n none L R (ix2 p q) = ∑ k : Fin 512, L (ix2 p k) * R (ix2 k q) := by
  simp only [Host.dotGeneral]
  rw [Ideal.dotGeneral_apply, ← Equiv.sum_comp (contrEquiv1 Cert.ReferenceIdeal.dot_S512x512_S512x1024_S512x1024_1_0_0_1_n_n 512 rfl rfl).symm]
  refine Finset.sum_congr rfl fun k _ => ?_
  have hk := contrEquiv1_symm_val Cert.ReferenceIdeal.dot_S512x512_S512x1024_S512x1024_1_0_0_1_n_n 512 rfl rfl k
  have el : Cert.ReferenceIdeal.dot_S512x512_S512x1024_S512x1024_1_0_0_1_n_n.lhsIdx (ix2 p q) ((contrEquiv1 Cert.ReferenceIdeal.dot_S512x512_S512x1024_S512x1024_1_0_0_1_n_n 512 rfl rfl).symm k) = ix2 p k := funext fun d => Fin.ext (by
    match d with
    | ⟨0, _⟩ => exact rProdV_lhsN _ _
    | ⟨1, _⟩ => exact (rProdV_lhsC _ _).trans hk)
  have er : Cert.ReferenceIdeal.dot_S512x512_S512x1024_S512x1024_1_0_0_1_n_n.rhsIdx (ix2 p q) ((contrEquiv1 Cert.ReferenceIdeal.dot_S512x512_S512x1024_S512x1024_1_0_0_1_n_n 512 rfl rfl).symm k) = ix2 k q := funext fun d => Fin.ext (by
    match d with
    | ⟨0, _⟩ => exact (rProdV_rhsC _ _).trans hk
    | ⟨1, _⟩ => exact rProdV_rhsN _ _)
  rw [el, er]

/-! ## A row statistic laid along its row, and a bias vector laid along every row

The kernel casts a vector of 512 row statistics to a column and broadcasts the column; the reference broadcasts the vector
to a column in dimension 0 and the column to the square in dimensions 0 and 1. Either way entry (p, q) is the statistic
of row p. A bias vector of 1024 entries goes the transposed way: one row, repeated 512 times; entry (p, q) is the bias's
entry q. -/

theorem kCol_apply {α : Type} (R : (⟨1, ![512]⟩ : Shape).Idx → α) (p q : Fin 512) :
    broadcastTo (⟨2, ![512, 512]⟩ : Shape) (shapeCast (⟨2, ![512, 1]⟩ : Shape) R Cert.KernelIdeal.Gen.shapeCasts_S512_S512x1)
      Cert.KernelIdeal.Gen.broadcasts_S512x1_S512x512 (ix2 p q) = R (ix1 p) := by
  refine (broadcastTo_apply _ _ (ix2 p q) (ix2 p (0 : Fin 1)) fun a => ?_).trans ?_
  · match a with
    | ⟨0, _⟩ => rfl
    | ⟨1, _⟩ => rfl
  · exact shapeCast_apply R _ (ix2 p (0 : Fin 1)) (ix1 p) (by
      rw [Shape.rowMajor_val_one, Shape.rowMajor_val_two]
      show p.val = p.val * 1 + 0
      omega)

theorem rCol_apply {α : Type} (R : (⟨1, ![512]⟩ : Shape).Idx → α) (p q : Fin 512) :
    broadcastInDim (⟨2, ![512, 512]⟩ : Shape) ![0, 1] Cert.ReferenceIdeal.Gen.bcast_S512x1_S512x512_0_1
      (broadcastInDim (⟨2, ![512, 1]⟩ : Shape) ![0] Cert.ReferenceIdeal.Gen.bcast_S512_S512x1_0 R) (ix2 p q) = R (ix1 p) := by
  refine (broadcastInDim_apply _ _ _ (ix2 p q) (ix2 p (0 : Fin 1)) fun a => ?_).trans ?_
  · match a with
    | ⟨0, _⟩ => rfl
    | ⟨1, _⟩ => rfl
  · refine broadcastInDim_apply _ _ R (ix2 p (0 : Fin 1)) (ix1 p) fun a => ?_
    match a with
    | ⟨0, _⟩ => rfl

theorem kRow_apply {α : Type} (B : (⟨1, ![1024]⟩ : Shape).Idx → α) (p : Fin 512) (q : Fin 1024) :
    broadcastTo (⟨2, ![512, 1024]⟩ : Shape) (shapeCast (⟨2, ![1, 1024]⟩ : Shape) B Cert.KernelIdeal.Gen.shapeCasts_S1024_S1x1024)
      Cert.KernelIdeal.Gen.broadcasts_S1x1024_S512x1024 (ix2 p q) = B (ix1 q) :=
  (broadcastTo_1b_ab_apply _ _ p q).trans (shapeCast_a_1a_apply B _ (0 : Fin 1) q)

theorem rRow_apply {α : Type} (B : (⟨1, ![1024]⟩ : Shape).Idx → α) (p : Fin 512) (q : Fin 1024) :
    broadcastInDim (⟨2, ![512, 1024]⟩ : Shape) ![0, 1] Cert.ReferenceIdeal.Gen.bcast_S1x1024_S512x1024_0_1
      (broadcastInDim (⟨2, ![1, 1024]⟩ : Shape) ![1] Cert.ReferenceIdeal.Gen.bcast_S1024_S1x1024_1 B) (ix2 p q) = B (ix1 q) := by
  refine (broadcastInDim_apply _ _ _ (ix2 p q) (ix2 (0 : Fin 1) q) fun a => ?_).trans ?_
  · match a with
    | ⟨0, _⟩ => rfl
    | ⟨1, _⟩ => rfl
  · refine broadcastInDim_apply _ _ B (ix2 (0 : Fin 1) q) (ix1 q) fun a => ?_
    match a with
    | ⟨0, _⟩ => rfl

/-! ## The seven stages -/

/-- The first product of every block. The reference transposes the weight and contracts its first axis; the kernel contracts
the weight's second axis directly. Both are, at (p, q), the sum over k of A at (p, k) times W at (q, k). -/
theorem rMat_eq (A : FVec Ideal ⟨2, ![512, 1024]⟩ .f32) (W : FVec Ideal ⟨2, ![1024, 1024]⟩ .f32) :
    rMat A W = kMat (bf A) (bf W) := by
  funext j
  obtain ⟨p, q, rfl⟩ : ∃ (p : Fin 512) (q : Fin 1024), j = ix2 p q := ⟨j 0, j 1, eq_ix2 j⟩
  unfold rMat kMat
  rw [rProdW_apply, kProdW_apply]
  refine Finset.sum_congr rfl fun k _ => ?_
  rw [transpose_ix2_apply, shapeCast_self]
  rfl

/-- A bias laid along every row: entry (p, q) is the bias at q in both spellings. -/
theorem rBias_eq (B : FVec Ideal ⟨1, ![1024]⟩ .f32) : rBias B = kBias B := by
  funext j
  obtain ⟨p, q, rfl⟩ : ∃ (p : Fin 512) (q : Fin 1024), j = ix2 p q := ⟨j 0, j 1, eq_ix2 j⟩
  unfold rBias kBias
  exact (rRow_apply B p q).trans (kRow_apply B p q).symm

/-- The scores: at (p, q) the sum over k of Q at (p, k) times K at (q, k), times the same scale. -/
theorem rScore_eq (Q K : FVec Ideal ⟨2, ![512, 1024]⟩ .f32) : rScore Q K = kScore (bf Q) (bf K) := by
  funext j
  obtain ⟨p, q, rfl⟩ : ∃ (p : Fin 512) (q : Fin 512), j = ix2 p q := ⟨j 0, j 1, eq_ix2 j⟩
  unfold rScore kScore
  rw [mulf_apply, mulf_apply, rProdS_apply, kProdS_apply]
  refine congrArg₂ (· * ·) (Finset.sum_congr rfl fun k _ => ?_) rfl
  rw [transpose_ix2_apply]
  rfl

/-- The exponential, the quotient: the reference's and the kernel's are one function of the element. -/
theorem hostExp_at {s : Shape} (a : FVec Ideal s .f32) (i : s.Idx) : Host.exp a i = Ideal.exp (a i) := rfl
theorem exp_at {s : Shape} (a : FVec Ideal s .f32) (i : s.Idx) : exp a i = Ideal.exp (a i) := rfl
theorem hostDivf_at {s : Shape} (a b : FVec Ideal s .f32) (i : s.Idx) : Host.divf a b i = Ideal.div (a i) (b i) := rfl

/-- The shifted exponential: at (p, q) the exponential of the score less the larger of -inf and row p's maximum, the maximum
being in both spellings the fold of max from -inf over the row's 512 columns. -/
theorem rExp_eq (S : FVec Ideal ⟨2, ![512, 512]⟩ .f32) : rExp S = kExp S := by
  funext j
  obtain ⟨p, q, rfl⟩ : ∃ (p : Fin 512) (q : Fin 512), j = ix2 p q := ⟨j 0, j 1, eq_ix2 j⟩
  have hk := Ideal.multiReduction_maximumf_single S 0xFF800000#32 Cert.KernelIdeal.Gen.reduces_S512x512_S512 (.inl rfl) rfl (ix1 p)
  have hr := Host.reduce_eq_fold_single FloatOps.maximumf S (constant (F := Ideal) Cert.ReferenceIdeal.S_ .f32 0xFF800000#32)
    Cert.ReferenceIdeal.Gen.reducesTo_S512x512_S512_d1 Cert.KernelIdeal.Gen.reduces_S512x512_S512 Cert.ReferenceIdeal.Gen.h_S_ (ix1 p)
  unfold rExp kExp
  rw [hostExp_at, exp_at, subf_apply, subf_apply, rCol_apply, kCol_apply, maximumf_apply, maximumf_apply]
  exact congrArg (fun m => Ideal.exp (S (ix2 p q) - max (Ideal.ofBits .f32 0xFF800000#32) m)) (hr.trans hk.symm)

/-- The normalisation: at (p, q) the element divided by row p's sum, the sum being in both spellings the sum over the row's
512 columns (the reference's starts from a zero, which adds nothing). -/
theorem rNorm_eq (E : FVec Ideal ⟨2, ![512, 512]⟩ .f32) : rNorm E = kNorm E := by
  funext j
  obtain ⟨p, q, rfl⟩ : ∃ (p : Fin 512) (q : Fin 512), j = ix2 p q := ⟨j 0, j 1, eq_ix2 j⟩
  have hk := Ideal.multiReduction_add_single E 0x00000000#32 Cert.KernelIdeal.Gen.reduces_S512x512_S512 (.inl rfl) rfl (ix1 p)
  have hr : Host.reduceAdd E (constant (F := Ideal) Cert.ReferenceIdeal.S_ .f32 0x00000000#32)
      Cert.ReferenceIdeal.Gen.reducesTo_S512x512_S512_d1 Cert.ReferenceIdeal.Gen.h_S_ (ix1 p)
      = ∑ k : Fin 512, E (Cert.KernelIdeal.Gen.reduces_S512x512_S512.lift (ix1 p) k) := by
    show Ideal.hostReduceAdd _ E (Ideal.ofBits .f32 0x00000000#32) (ix1 p) = _
    rw [Ideal.hostReduceAdd_single _ Cert.KernelIdeal.Gen.reduces_S512x512_S512, Ideal.ofBits_zero_f32, zero_add]
    rfl
  unfold rNorm kNorm
  rw [hostDivf_at, divf_apply, rCol_apply, kCol_apply]
  exact congrArg (Ideal.div (E (ix2 p q))) (hr.trans hk.symm)

/-- The weighted values: at (p, q) the sum over k of P at (p, k) times V at (k, q). -/
theorem rPV_eq (P : FVec Ideal ⟨2, ![512, 512]⟩ .f32) (V : FVec Ideal ⟨2, ![512, 1024]⟩ .f32) :
    rPV P V = kPV (bf P) (bf V) := by
  funext j
  obtain ⟨p, q, rfl⟩ : ∃ (p : Fin 512) (q : Fin 1024), j = ix2 p q := ⟨j 0, j 1, eq_ix2 j⟩
  unfold rPV kPV
  rw [rProdV_apply, kProdV_apply]
  rfl

/-- The positive part: the zero the reference broadcasts from rank zero is the zero the kernel splats. -/
theorem rRelu_eq (X : FVec Ideal ⟨2, ![512, 1024]⟩ .f32) : rRelu X = kRelu X := by
  funext j
  rfl

end Cert.Proof.Ops

end
-- ==== Proof.Bridge.lean ====
/-
  The reference's result and the kernel head's result are the same function of the seventeen argument arrays. Both
  compute out = x_flat W1^T + b1; block (v; Wq, bq, Wk, bk, Wc, bc) = (softmax ((v Wq^T + bq) (v Wk^T + bk)^T 2^-5) v) Wc^T + bc;
  h = relu (out + block1 out); h2 = h W2^T + b2; result = relu (h2 + block2 h2 + out). The first linear layer is read
  index by index; from there on the two programs are the same chain of stages in two spellings, and the stage lemmas
  carry one into the other.
-/
import proofs.«109190_j31490700214886_1_alg».proof.Proof.KI.HeadK
import proofs.«109190_j31490700214886_1_alg».proof.Proof.Spec
import proofs.«109190_j31490700214886_1_alg».proof.Proof.RefRead
import proofs.«109190_j31490700214886_1_alg».proof.Proof.Ops

noncomputable section

namespace Cert.Proof.Bridge

open Idealize.ShloMosaic Idealize.ShloMosaic.ValueIdx Cert.Proof.Ops
open scoped BigOperators

/-! ## The first linear layer, read index by index -/

/-- The reference's flattening, transposed product and bias broadcasts give, at (p, q), the sum over the 50176 flattened
    positions k of x (p, k) w (q, k), plus b q. -/
theorem ref_fc1
    (x0 : (⟨Cert.ReferenceIdeal.S512x1024x7x7, .f32⟩ : BufTy).Contents (Elt Ideal))
    (x1 : (⟨Cert.ReferenceIdeal.S1024x50176, .f32⟩ : BufTy).Contents (Elt Ideal))
    (x2 : (⟨Cert.ReferenceIdeal.S1024, .f32⟩ : BufTy).Contents (Elt Ideal)) :
    Cert.ReferenceIdeal.ReadP.val_main_v5 (F := Ideal) x0 x1 x2
      = Cert.Proof.Spec.fc1M (shapeCast _ x0 Cert.KernelIdeal.Gen.shapeCasts_S512x1024x7x7_S512x50176) x1 x2 := by
  funext i
  obtain ⟨p, q, rfl⟩ : ∃ (p : Fin 512) (q : Fin 1024), i = ix2 p q := ⟨i 0, i 1, eq_ix2 i⟩
  have e1 : ∀ k : Fin 50176, Cert.ReferenceIdeal.ReadP.lidx_main_v2 (ix2 p q) k = ix2 p k := fun k =>
    funext fun a => Fin.ext (by match a with | ⟨0, _⟩ => rfl | ⟨1, _⟩ => rfl)
  have e2 : ∀ k : Fin 50176, Cert.ReferenceIdeal.ReadP.idx_main_v1 (Cert.ReferenceIdeal.ReadP.ridx_main_v2 (ix2 p q) k) = ix2 q k := fun k =>
    funext fun a => Fin.ext (by match a with | ⟨0, _⟩ => rfl | ⟨1, _⟩ => rfl)
  have e3 : Cert.ReferenceIdeal.ReadP.idx_main_v3 (Cert.ReferenceIdeal.ReadP.idx_main_v4 (ix2 p q)) = ix1 q :=
    funext fun a => Fin.ext (by match a with | ⟨0, _⟩ => rfl)
  rw [Cert.ReferenceIdeal.ReadP.val_main_v5_apply, Cert.ReferenceIdeal.ReadP.val_main_v2_apply,
    Cert.ReferenceIdeal.ReadP.val_main_v4_apply, Cert.ReferenceIdeal.ReadP.val_main_v3_apply, Cert.Proof.Spec.fc1M_apply]
  simp only [Cert.ReferenceIdeal.ReadP.val_main_v1_apply, e1, e2, e3]
  rfl

/-! ## The head as a chain of stages, in each spelling -/

/-- One attention block before its output bias, in the reference's spelling: queries and keys from the same input,
    scaled scores, row softmax, the weighted input, the output projection. -/
def rAttn (V : FVec Ideal ⟨2, ![512, 1024]⟩ .f32) (Wq : FVec Ideal ⟨2, ![1024, 1024]⟩ .f32) (bq : FVec Ideal ⟨1, ![1024]⟩ .f32) (Wk : FVec Ideal ⟨2, ![1024, 1024]⟩ .f32) (bk : FVec Ideal ⟨1, ![1024]⟩ .f32) (Wc : FVec Ideal ⟨2, ![1024, 1024]⟩ .f32) : FVec Ideal ⟨2, ![512, 1024]⟩ .f32 :=
  rMat (rPV (rNorm (rExp (rScore (addf (rMat V Wq) (rBias bq)) (addf (rMat V Wk) (rBias bk))))) V) Wc

/-- The same block in the kernel's spelling, every product operand rounded to the narrow format first. -/
def kAttn (V : FVec Ideal ⟨2, ![512, 1024]⟩ .f32) (Wq : FVec Ideal ⟨2, ![1024, 1024]⟩ .bf16) (bq : FVec Ideal ⟨1, ![1024]⟩ .f32) (Wk : FVec Ideal ⟨2, ![1024, 1024]⟩ .bf16) (bk : FVec Ideal ⟨1, ![1024]⟩ .f32) (Wc : FVec Ideal ⟨2, ![1024, 1024]⟩ .bf16) : FVec Ideal ⟨2, ![512, 1024]⟩ .f32 :=
  kMat (bf (kPV (bf (kNorm (kExp (kScore (bf (addf (kMat (bf V) Wq) (kBias bq))) (bf (addf (kMat (bf V) Wk) (kBias bk))))))) (bf V))) Wc

theorem attn_eq (V : FVec Ideal ⟨2, ![512, 1024]⟩ .f32) (Wq : FVec Ideal ⟨2, ![1024, 1024]⟩ .f32) (bq : FVec Ideal ⟨1, ![1024]⟩ .f32) (Wk : FVec Ideal ⟨2, ![1024, 1024]⟩ .f32) (bk : FVec Ideal ⟨1, ![1024]⟩ .f32) (Wc : FVec Ideal ⟨2, ![1024, 1024]⟩ .f32) :
    rAttn V Wq bq Wk bk Wc = kAttn V (bf Wq) bq (bf Wk) bk (bf Wc) := by
  unfold rAttn kAttn
  rw [rMat_eq, rPV_eq, rNorm_eq, rExp_eq, rScore_eq, rMat_eq, rMat_eq, rBias_eq, rBias_eq]

/-- The middle of the head: the first block's residual and positive part, then the second linear layer. -/
def rMid (out : FVec Ideal ⟨2, ![512, 1024]⟩ .f32) (W2 : FVec Ideal ⟨2, ![1024, 1024]⟩ .f32) (b2 : FVec Ideal ⟨1, ![1024]⟩ .f32) (Wq : FVec Ideal ⟨2, ![1024, 1024]⟩ .f32) (bq : FVec Ideal ⟨1, ![1024]⟩ .f32) (Wk : FVec Ideal ⟨2, ![1024, 1024]⟩ .f32) (bk : FVec Ideal ⟨1, ![1024]⟩ .f32)
    (Wc : FVec Ideal ⟨2, ![1024, 1024]⟩ .f32) (bc : FVec Ideal ⟨1, ![1024]⟩ .f32) : FVec Ideal ⟨2, ![512, 1024]⟩ .f32 :=
  addf (rMat (rRelu (addf out (addf (rAttn out Wq bq Wk bk Wc) (rBias bc)))) W2) (rBias b2)

def kMid (out : FVec Ideal ⟨2, ![512, 1024]⟩ .f32) (W2 : FVec Ideal ⟨2, ![1024, 1024]⟩ .bf16) (b2 : FVec Ideal ⟨1, ![1024]⟩ .f32) (Wq : FVec Ideal ⟨2, ![1024, 1024]⟩ .bf16) (bq : FVec Ideal ⟨1, ![1024]⟩ .f32) (Wk : FVec Ideal ⟨2, ![1024, 1024]⟩ .bf16) (bk : FVec Ideal ⟨1, ![1024]⟩ .f32)
    (Wc : FVec Ideal ⟨2, ![1024, 1024]⟩ .bf16) (bc : FVec Ideal ⟨1, ![1024]⟩ .f32) : FVec Ideal ⟨2, ![512, 1024]⟩ .f32 :=
  addf (kMat (bf (kRelu (addf out (addf (kAttn out Wq bq Wk bk Wc) (kBias bc))))) W2) (kBias b2)

theorem mid_eq (out : FVec Ideal ⟨2, ![512, 1024]⟩ .f32) (W2 : FVec Ideal ⟨2, ![1024, 1024]⟩ .f32) (b2 : FVec Ideal ⟨1, ![1024]⟩ .f32) (Wq : FVec Ideal ⟨2, ![1024, 1024]⟩ .f32) (bq : FVec Ideal ⟨1, ![1024]⟩ .f32) (Wk : FVec Ideal ⟨2, ![1024, 1024]⟩ .f32) (bk : FVec Ideal ⟨1, ![1024]⟩ .f32)
    (Wc : FVec Ideal ⟨2, ![1024, 1024]⟩ .f32) (bc : FVec Ideal ⟨1, ![1024]⟩ .f32) :
    rMid out W2 b2 Wq bq Wk bk Wc bc = kMid out (bf W2) b2 (bf Wq) bq (bf Wk) bk (bf Wc) bc := by
  unfold rMid kMid
  rw [rMat_eq, rRelu_eq, attn_eq, rBias_eq, rBias_eq]

/-- The end of the head: the second block on the middle's value, both residuals, the positive part. -/
def rEnd (out h2 : FVec Ideal ⟨2, ![512, 1024]⟩ .f32) (Wq : FVec Ideal ⟨2, ![1024, 1024]⟩ .f32) (bq : FVec Ideal ⟨1, ![1024]⟩ .f32) (Wk : FVec Ideal ⟨2, ![1024, 1024]⟩ .f32) (bk : FVec Ideal ⟨1, ![1024]⟩ .f32) (Wc : FVec Ideal ⟨2, ![1024, 1024]⟩ .f32) (bc : FVec Ideal ⟨1, ![1024]⟩ .f32) : FVec Ideal ⟨2, ![512, 1024]⟩ .f32 :=
  rRelu (addf (addf h2 (addf (rAttn h2 Wq bq Wk bk Wc) (rBias bc))) out)

def kEnd (out h2 : FVec Ideal ⟨2, ![512, 1024]⟩ .f32) (Wq : FVec Ideal ⟨2, ![1024, 1024]⟩ .bf16) (bq : FVec Ideal ⟨1, ![1024]⟩ .f32) (Wk : FVec Ideal ⟨2, ![1024, 1024]⟩ .bf16) (bk : FVec Ideal ⟨1, ![1024]⟩ .f32) (Wc : FVec Ideal ⟨2, ![1024, 1024]⟩ .bf16) (bc : FVec Ideal ⟨1, ![1024]⟩ .f32) : FVec Ideal ⟨2, ![512, 1024]⟩ .f32 :=
  kRelu (addf (addf h2 (addf (kAttn h2 Wq bq Wk bk Wc) (kBias bc))) out)

theorem end_eq (out h2 : FVec Ideal ⟨2, ![512, 1024]⟩ .f32) (Wq : FVec Ideal ⟨2, ![1024, 1024]⟩ .f32) (bq : FVec Ideal ⟨1, ![1024]⟩ .f32) (Wk : FVec Ideal ⟨2, ![1024, 1024]⟩ .f32) (bk : FVec Ideal ⟨1, ![1024]⟩ .f32) (Wc : FVec Ideal ⟨2, ![1024, 1024]⟩ .f32) (bc : FVec Ideal ⟨1, ![1024]⟩ .f32) :
    rEnd out h2 Wq bq Wk bk Wc bc = kEnd out h2 (bf Wq) bq (bf Wk) bk (bf Wc) bc := by
  unfold rEnd kEnd
  rw [rRelu_eq, attn_eq, rBias_eq]

/-- The reference's stages after the first linear layer are this chain, by unfolding. -/
theorem ref_chain
    (x0 : (⟨Cert.ReferenceIdeal.S512x1024x7x7, .f32⟩ : BufTy).Contents (Elt Ideal))
    (x1 : (⟨Cert.ReferenceIdeal.S1024x50176, .f32⟩ : BufTy).Contents (Elt Ideal))
    (x2 : (⟨Cert.ReferenceIdeal.S1024, .f32⟩ : BufTy).Contents (Elt Ideal))
    (x3 : (⟨Cert.ReferenceIdeal.S1024x1024, .f32⟩ : BufTy).Contents (Elt Ideal))
    (x4 : (⟨Cert.ReferenceIdeal.S1024, .f32⟩ : BufTy).Contents (Elt Ideal))
    (x5 : (⟨Cert.ReferenceIdeal.S1024x1024, .f32⟩ : BufTy).Contents (Elt Ideal))
    (x6 : (⟨Cert.ReferenceIdeal.S1024, .f32⟩ : BufTy).Contents (Elt Ideal))
    (x7 : (⟨Cert.ReferenceIdeal.S1024x1024, .f32⟩ : BufTy).Contents (Elt Ideal))
    (x8 : (⟨Cert.ReferenceIdeal.S1024, .f32⟩ : BufTy).Contents (Elt Ideal))
    (x9 : (⟨Cert.ReferenceIdeal.S1024x1024, .f32⟩ : BufTy).Contents (Elt Ideal))
    (x10 : (⟨Cert.ReferenceIdeal.S1024, .f32⟩ : BufTy).Contents (Elt Ideal))
    (x11 : (⟨Cert.ReferenceIdeal.S1024x1024, .f32⟩ : BufTy).Contents (Elt Ideal))
    (x12 : (⟨Cert.ReferenceIdeal.S1024, .f32⟩ : BufTy).Contents (Elt Ideal))
    (x13 : (⟨Cert.ReferenceIdeal.S1024x1024, .f32⟩ : BufTy).Contents (Elt Ideal))
    (x14 : (⟨Cert.ReferenceIdeal.S1024, .f32⟩ : BufTy).Contents (Elt Ideal))
    (x15 : (⟨Cert.ReferenceIdeal.S1024x1024, .f32⟩ : BufTy).Contents (Elt Ideal))
    (x16 : (⟨Cert.ReferenceIdeal.S1024, .f32⟩ : BufTy).Contents (Elt Ideal)) :
    Cert.ReferenceIdeal.ReadP.val_main_v77 (F := Ideal) x0 x1 x2 x3 x4 x5 x6 x7 x8 x9 x10 x11 x12 x13 x14 x15 x16
      = rEnd (Cert.ReferenceIdeal.ReadP.val_main_v5 (F := Ideal) x0 x1 x2)
          (rMid (Cert.ReferenceIdeal.ReadP.val_main_v5 (F := Ideal) x0 x1 x2) x3 x4 x5 x6 x7 x8 x9 x10)
          x11 x12 x13 x14 x15 x16 := by
  rfl

/-- The kernel head's three printed parts compose to the same chain in the kernel's spelling. -/
theorem ker_chain (X : FVec Ideal ⟨2, ![512, 1024]⟩ .f32) (w2 : FVec Ideal ⟨2, ![1024, 1024]⟩ .bf16) (b3 : FVec Ideal ⟨1, ![1024]⟩ .f32) (w4 : FVec Ideal ⟨2, ![1024, 1024]⟩ .bf16) (b5 : FVec Ideal ⟨1, ![1024]⟩ .f32) (w6 : FVec Ideal ⟨2, ![1024, 1024]⟩ .bf16) (b7 : FVec Ideal ⟨1, ![1024]⟩ .f32)
    (w8 : FVec Ideal ⟨2, ![1024, 1024]⟩ .bf16) (b9 : FVec Ideal ⟨1, ![1024]⟩ .f32) (w10 : FVec Ideal ⟨2, ![1024, 1024]⟩ .bf16) (b11 : FVec Ideal ⟨1, ![1024]⟩ .f32) (w12 : FVec Ideal ⟨2, ![1024, 1024]⟩ .bf16) (b13 : FVec Ideal ⟨1, ![1024]⟩ .f32) (w14 : FVec Ideal ⟨2, ![1024, 1024]⟩ .bf16) (b15 : FVec Ideal ⟨1, ![1024]⟩ .f32) :
    Cert.KernelIdeal.Gen.headK (F := Ideal) X w2 b3 w4 b5 w6 b7 w8 b9 w10 b11 w12 b13 w14 b15
      = kEnd (Cert.KernelIdeal.Gen.k1_pay2 (F := Ideal) X)
          (kMid (Cert.KernelIdeal.Gen.k1_pay2 (F := Ideal) X) w2 b3 w4 b5 w6 b7 w8 b9) w10 b11 w12 b13 w14 b15 := by
  rfl

/-- The kernel reads its activations through a cast to the same shape: the identity. -/
theorem pay2_id (X : FVec Ideal ⟨2, ![512, 1024]⟩ .f32) : Cert.KernelIdeal.Gen.k1_pay2 (F := Ideal) X = X := by
  unfold Cert.KernelIdeal.Gen.k1_pay2
  exact shapeCast_self X _

/-- The reference's result is the kernel head's result on the first linear layer's value and the rounded weights. -/
theorem bridge
    (x0 : (⟨Cert.ReferenceIdeal.S512x1024x7x7, .f32⟩ : BufTy).Contents (Elt Ideal))
    (x1 : (⟨Cert.ReferenceIdeal.S1024x50176, .f32⟩ : BufTy).Contents (Elt Ideal))
    (x2 : (⟨Cert.ReferenceIdeal.S1024, .f32⟩ : BufTy).Contents (Elt Ideal))
    (x3 : (⟨Cert.ReferenceIdeal.S1024x1024, .f32⟩ : BufTy).Contents (Elt Ideal))
    (x4 : (⟨Cert.ReferenceIdeal.S1024, .f32⟩ : BufTy).Contents (Elt Ideal))
    (x5 : (⟨Cert.ReferenceIdeal.S1024x1024, .f32⟩ : BufTy).Contents (Elt Ideal))
    (x6 : (⟨Cert.ReferenceIdeal.S1024, .f32⟩ : BufTy).Contents (Elt Ideal))
    (x7 : (⟨Cert.ReferenceIdeal.S1024x1024, .f32⟩ : BufTy).Contents (Elt Ideal))
    (x8 : (⟨Cert.ReferenceIdeal.S1024, .f32⟩ : BufTy).Contents (Elt Ideal))
    (x9 : (⟨Cert.ReferenceIdeal.S1024x1024, .f32⟩ : BufTy).Contents (Elt Ideal))
    (x10 : (⟨Cert.ReferenceIdeal.S1024, .f32⟩ : BufTy).Contents (Elt Ideal))
    (x11 : (⟨Cert.ReferenceIdeal.S1024x1024, .f32⟩ : BufTy).Contents (Elt Ideal))
    (x12 : (⟨Cert.ReferenceIdeal.S1024, .f32⟩ : BufTy).Contents (Elt Ideal))
    (x13 : (⟨Cert.ReferenceIdeal.S1024x1024, .f32⟩ : BufTy).Contents (Elt Ideal))
    (x14 : (⟨Cert.ReferenceIdeal.S1024, .f32⟩ : BufTy).Contents (Elt Ideal))
    (x15 : (⟨Cert.ReferenceIdeal.S1024x1024, .f32⟩ : BufTy).Contents (Elt Ideal))
    (x16 : (⟨Cert.ReferenceIdeal.S1024, .f32⟩ : BufTy).Contents (Elt Ideal)) :
    Cert.ReferenceIdeal.ReadP.val_main_v77 (F := Ideal) x0 x1 x2 x3 x4 x5 x6 x7 x8 x9 x10 x11 x12 x13 x14 x15 x16
      = Cert.KernelIdeal.Gen.headK (F := Ideal)
          (Cert.Proof.Spec.fc1M (shapeCast _ x0 Cert.KernelIdeal.Gen.shapeCasts_S512x1024x7x7_S512x50176) x1 x2)
          (truncf (F := Ideal) .bf16 x3 Cert.KernelIdeal.Gen.bitsLt_bf16_f32) x4
          (truncf (F := Ideal) .bf16 x5 Cert.KernelIdeal.Gen.bitsLt_bf16_f32) x6
          (truncf (F := Ideal) .bf16 x7 Cert.KernelIdeal.Gen.bitsLt_bf16_f32) x8
          (truncf (F := Ideal) .bf16 x9 Cert.KernelIdeal.Gen.bitsLt_bf16_f32) x10
          (truncf (F := Ideal) .bf16 x11 Cert.KernelIdeal.Gen.bitsLt_bf16_f32) x12
          (truncf (F := Ideal) .bf16 x13 Cert.KernelIdeal.Gen.bitsLt_bf16_f32) x14
          (truncf (F := Ideal) .bf16 x15 Cert.KernelIdeal.Gen.bitsLt_bf16_f32) x16 := by
  rw [ref_chain, ref_fc1, ker_chain, pay2_id, end_eq, mid_eq]

end Cert.Proof.Bridge

end
-- ==== Proof.lean ====
/-
  The certificate of the two-kernel attention head against its plain reference: two linear layers, two single-head
  attention blocks over the 512 proposals and two rectified sums, the kernel computing the first linear layer as 28
  accumulated block products and everything else in one step. At the ideal instance both programs compute the same
  function of the seventeen argument arrays: the first linear layer meets at `Spec.fc1M` (a sum over the contracted axis
  split into blocks is the whole sum: only commutativity and associativity of + on the extended reals), and every later
  stage is the same operation of the same operands under two spellings (`Bridge.bridge`). The frames: the kernel's two
  regions are launched from their proof data (`Launch`), the word-level program's by the same text under its own
  namespace, the reference's is its run with the result dropped. The idealization rewrote nothing, so `preserves` is
  the true proposition.
-/
import proofs.«109190_j31490700214886_1_alg».proof.Defs
import proofs.«109190_j31490700214886_1_alg».proof.Proof.Gen.Kernel
import proofs.«109190_j31490700214886_1_alg».proof.Proof.Gen.KernelIdeal
import proofs.«109190_j31490700214886_1_alg».proof.Proof.Gen.ReferenceIdeal
import proofs.«109190_j31490700214886_1_alg».proof.Proof.Gen.Pre_finite_inputs
import proofs.«109190_j31490700214886_1_alg».proof.Proof.K.Launch
import proofs.«109190_j31490700214886_1_alg».proof.Proof.KI.Launch
import proofs.«109190_j31490700214886_1_alg».proof.Proof.KI.Value
import proofs.«109190_j31490700214886_1_alg».proof.Proof.RefRead
import proofs.«109190_j31490700214886_1_alg».proof.Proof.Bridge
import Idealize.ShloMosaic.Adequacy
import Idealize.ShloMosaic.Init

noncomputable section

namespace Cert.Proof

open Idealize.ShloMosaic Idealize.SL.Sem

/-- The word-level kernel runs to its end with its arguments unchanged. -/
theorem frame_k : Cert.frame_Kernel := fun m ρ _ => Cert.Kernel.Gen.frame (F := Bits) m ρ

/-- So does the idealized kernel. -/
theorem frame_ki : Cert.frame_KernelIdeal := fun m ρ _ => Cert.KernelIdeal.Gen.frame (F := Ideal) m ρ

/-- The reference runs to its end with its arguments unchanged: its run, the result's value dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments the idealized kernel ends with its result array at the head function of
    the first linear layer's sum (`kernel_value`), the reference with its result at its composed stages, and these
    are one function of the arguments (`bridge`). -/
theorem algebraic : Cert.algebraic_KernelIdeal_ReferenceIdeal := by
  intro m ρ m' ρ' _ hagree
  refine ⟨fun c => Cert.KernelIdeal.Gen.o9 (F := Ideal) m c, Cert.KernelIdeal.Gen.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15, h16⟩ := hagree c
  rw [Cert.ReferenceIdeal.ReadP.val_main_v77_eq, h0, h1, h2, h3, h4, h5, h6, h7, h8, h9, h10, h11, h12, h13, h14, h15, h16, Cert.Proof.Bridge.bridge]
  exact (Cert.KernelIdeal.Gen.kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
